-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  IdealRules.truncf_extf.Statement Cert.KernelIdeal.S1000x80 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v182) = v0 c
          ∧ r.2.mem ((c.tc : Thread Cert.ReferenceIdeal.nD Cert.ReferenceIdeal.τ).loc Cert.ReferenceIdeal.main_v197) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1000x80 : Shape := ⟨3, ![16, 1000, 80]⟩
abbrev S16x1000x4 : Shape := ⟨3, ![16, 1000, 4]⟩
abbrev S1600x4 : Shape := ⟨2, ![1600, 4]⟩
abbrev S128x4 : Shape := ⟨2, ![128, 4]⟩
abbrev S16x4 : Shape := ⟨2, ![16, 4]⟩
abbrev S1600 : Shape := ⟨1, ![1600]⟩
abbrev S_ : Shape := ⟨0, ![]⟩
abbrev S16x1000x1 : Shape := ⟨3, ![16, 1000, 1]⟩
abbrev S16x1000 : Shape := ⟨2, ![16, 1000]⟩

class Facts : Prop where
  bcast_S_S16x1000x80 : S_.BroadcastsInDim S16x1000x80 (![] : Fin 0 → Fin S16x1000x80.rank)
  reducesTo_S16x1000x80_S_d0_1_2 : S16x1000x80.ReducesTo [0, 1, 2] S_
  h_S_ : 0 < S_.numel
  bcast_S_S16x1000x4 : S_.BroadcastsInDim S16x1000x4 (![] : Fin 0 → Fin S16x1000x4.rank)
  reducesTo_S16x1000x4_S_d0_1_2 : S16x1000x4.ReducesTo [0, 1, 2] S_
  bcast_S_S1600x4 : S_.BroadcastsInDim S1600x4 (![] : Fin 0 → Fin S1600x4.rank)
  reducesTo_S1600x4_S_d0_1 : S1600x4.ReducesTo [0, 1] S_
  bcast_S_S128x4 : S_.BroadcastsInDim S128x4 (![] : Fin 0 → Fin S128x4.rank)
  reducesTo_S128x4_S_d0_1 : S128x4.ReducesTo [0, 1] S_
  bcast_S_S16x4 : S_.BroadcastsInDim S16x4 (![] : Fin 0 → Fin S16x4.rank)
  reducesTo_S16x4_S_d0_1 : S16x4.ReducesTo [0, 1] S_
  bcast_S_S1600 : S_.BroadcastsInDim S1600 (![] : Fin 0 → Fin S1600.rank)
  reducesTo_S1600_S_d0 : S1600.ReducesTo [0] S_
  slices_S16x1000x4_S16x1000x1_0_0_2 : S16x1000x4.Slices ![0, 0, 2] S16x1000x1
  shapeCasts_S16x1000x1_S16x1000 : S16x1000x1.ShapeCasts S16x1000
  slices_S16x1000x4_S16x1000x1_0_0_0 : S16x1000x4.Slices ![0, 0, 0] S16x1000x1
  slices_S16x1000x4_S16x1000x1_0_0_3 : S16x1000x4.Slices ![0, 0, 3] S16x1000x1
  slices_S16x1000x4_S16x1000x1_0_0_1 : S16x1000x4.Slices ![0, 0, 1] S16x1000x1
  bcast_S_S16x1000 : S_.BroadcastsInDim S16x1000 (![] : Fin 0 → Fin S16x1000.rank)
  reducesTo_S16x1000_S_d0_1 : S16x1000.ReducesTo [0, 1] S_

variable [Facts]

def fn_part2 {F : FTy → Type} [FloatOps F] (main_arg1 : FVec F S16x1000x4 .f32) (main_arg6 : IVec S1600 32) (main_v32 : IVec S_ 1) (main_c_12 : IVec S_ 32) : IVec S_ 1 :=
  let main_v33 : IVec S1600 32 := broadcastInDim S1600 ![] bcast_S_S1600 main_c_12
  let main_v34 : IVec S1600 1 := cmpi .slt main_arg6 main_v33
  let main_c_13 : IVec S_ 1 := constantI S_ 1 1#1
  let main_v35 : IVec S_ 1 := (fun x v => Host.reduce IntOp.andi x v reducesTo_S1600_S_d0 h_S_) main_v34 main_c_13
  let main_v36 : IVec S_ 1 := andi main_v32 main_v35
  let main_v37 : FVec F S16x1000x1 .f32 := (extractStridedSlice S16x1000x1 ![0, 0, 2] · slices_S16x1000x4_S16x1000x1_0_0_2) main_arg1
  let main_v38 : FVec F S16x1000 .f32 := shapeCast S16x1000 main_v37 shapeCasts_S16x1000x1_S16x1000
  let main_v39 : FVec F S16x1000x1 .f32 := (extractStridedSlice S16x1000x1 ![0, 0, 0] · slices_S16x1000x4_S16x1000x1_0_0_0) main_arg1
  let main_v40 : FVec F S16x1000 .f32 := shapeCast S16x1000 main_v39 shapeCasts_S16x1000x1_S16x1000
  let main_v41 : FVec F S16x1000 .f32 := subf main_v38 main_v40
  let main_v42 : FVec F S16x1000x1 .f32 := (extractStridedSlice S16x1000x1 ![0, 0, 3] · slices_S16x1000x4_S16x1000x1_0_0_3) main_arg1
  let main_v43 : FVec F S16x1000 .f32 := shapeCast S16x1000 main_v42 shapeCasts_S16x1000x1_S16x1000
  let main_v44 : FVec F S16x1000x1 .f32 := (extractStridedSlice S16x1000x1 ![0, 0, 1] · slices_S16x1000x4_S16x1000x1_0_0_1) main_arg1
  let main_v45 : FVec F S16x1000 .f32 := shapeCast S16x1000 main_v44 shapeCasts_S16x1000x1_S16x1000
  let main_v46 : FVec F S16x1000 .f32 := subf main_v43 main_v45
  let main_v47 : FVec F S16x1000 .f32 := mulf main_v41 main_v46
  let main_cst_14 : FVec F S_ .f32 := constant S_ .f32 0x00000000#32
  let main_v48 : FVec F S16x1000 .f32 := broadcastInDim S16x1000 ![] bcast_S_S16x1000 main_cst_14
  let main_v49 : IVec S16x1000 1 := cmpf .une main_v47 main_v48
  let main_c_15 : IVec S_ 1 := constantI S_ 1 1#1
  let main_v50 : IVec S_ 1 := (fun x v => Host.reduce IntOp.andi x v reducesTo_S16x1000_S_d0_1 h_S_) main_v49 main_c_15
  let main_v51 : IVec S_ 1 := andi main_v36 main_v50
  main_v51

def fn_part1 {F : FTy → Type} [FloatOps F] (main_arg1 : FVec F S16x1000x4 .f32) (main_arg4 : FVec F S16x4 .f32) (main_arg5 : FVec F S1600x4 .f32) (main_arg6 : IVec S1600 32) (main_v13 : IVec S_ 1) (main_v16 : IVec S128x4 1) : IVec S_ 1 :=
  let main_c_5 : IVec S_ 1 := constantI S_ 1 1#1
  let main_v17 : IVec S_ 1 := (fun x v => Host.reduce IntOp.andi x v reducesTo_S128x4_S_d0_1 h_S_) main_v16 main_c_5
  let main_v18 : IVec S_ 1 := andi main_v13 main_v17
  let main_v19 : FVec F S16x4 .f32 := Host.absf main_arg4
  let main_cst_6 : FVec F S_ .f32 := constant S_ .f32 0x7F800000#32
  let main_v20 : FVec F S16x4 .f32 := broadcastInDim S16x4 ![] bcast_S_S16x4 main_cst_6
  let main_v21 : IVec S16x4 1 := cmpf .olt main_v19 main_v20
  let main_c_7 : IVec S_ 1 := constantI S_ 1 1#1
  let main_v22 : IVec S_ 1 := (fun x v => Host.reduce IntOp.andi x v reducesTo_S16x4_S_d0_1 h_S_) main_v21 main_c_7
  let main_v23 : IVec S_ 1 := andi main_v18 main_v22
  let main_v24 : FVec F S1600x4 .f32 := Host.absf main_arg5
  let main_cst_8 : FVec F S_ .f32 := constant S_ .f32 0x7F800000#32
  let main_v25 : FVec F S1600x4 .f32 := broadcastInDim S1600x4 ![] bcast_S_S1600x4 main_cst_8
  let main_v26 : IVec S1600x4 1 := cmpf .olt main_v24 main_v25
  let main_c_9 : IVec S_ 1 := constantI S_ 1 1#1
  let main_v27 : IVec S_ 1 := (fun x v => Host.reduce IntOp.andi x v reducesTo_S1600x4_S_d0_1 h_S_) main_v26 main_c_9
  let main_v28 : IVec S_ 1 := andi main_v23 main_v27
  let main_c_10 : IVec S_ 32 := constantI S_ 32 0#32
  let main_v29 : IVec S1600 32 := broadcastInDim S1600 ![] bcast_S_S1600 main_c_10
  let main_v30 : IVec S1600 1 := cmpi .sge main_arg6 main_v29
  let main_c_11 : IVec S_ 1 := constantI S_ 1 1#1
  let main_v31 : IVec S_ 1 := (fun x v => Host.reduce IntOp.andi x v reducesTo_S1600_S_d0 h_S_) main_v30 main_c_11
  let main_v32 : IVec S_ 1 := andi main_v28 main_v31
  let main_c_12 : IVec S_ 32 := constantI S_ 32 80#32
  fn_part2 (F := F) main_arg1 main_arg6 main_v32 main_c_12

def fn {F : FTy → Type} [FloatOps F] (main_arg0 : FVec F S16x1000x80 .f32) (main_arg1 : FVec F S16x1000x4 .f32) (main_arg2 : FVec F S1600x4 .f32) (main_arg3 : FVec F S128x4 .f32) (main_arg4 : FVec F S16x4 .f32) (main_arg5 : FVec F S1600x4 .f32) (main_arg6 : IVec S1600 32) : IVec S_ 1 :=
  let main_v0 : FVec F S16x1000x80 .f32 := Host.absf main_arg0
  let main_cst : FVec F S_ .f32 := constant S_ .f32 0x7F800000#32
  let main_v1 : FVec F S16x1000x80 .f32 := broadcastInDim S16x1000x80 ![] bcast_S_S16x1000x80 main_cst
  let main_v2 : IVec S16x1000x80 1 := cmpf .olt main_v0 main_v1
  let main_c : IVec S_ 1 := constantI S_ 1 1#1
  let main_v3 : IVec S_ 1 := (fun x v => Host.reduce IntOp.andi x v reducesTo_S16x1000x80_S_d0_1_2 h_S_) main_v2 main_c
  let main_v4 : FVec F S16x1000x4 .f32 := Host.absf main_arg1
  let main_cst_0 : FVec F S_ .f32 := constant S_ .f32 0x7F800000#32
  let main_v5 : FVec F S16x1000x4 .f32 := broadcastInDim S16x1000x4 ![] bcast_S_S16x1000x4 main_cst_0
  let main_v6 : IVec S16x1000x4 1 := cmpf .olt main_v4 main_v5
  let main_c_1 : IVec S_ 1 := constantI S_ 1 1#1
  let main_v7 : IVec S_ 1 := (fun x v => Host.reduce IntOp.andi x v reducesTo_S16x1000x4_S_d0_1_2 h_S_) main_v6 main_c_1
  let main_v8 : IVec S_ 1 := andi main_v3 main_v7
  let main_v9 : FVec F S1600x4 .f32 := Host.absf main_arg2
  let main_cst_2 : FVec F S_ .f32 := constant S_ .f32 0x7F800000#32
  let main_v10 : FVec F S1600x4 .f32 := broadcastInDim S1600x4 ![] bcast_S_S1600x4 main_cst_2
  let main_v11 : IVec S1600x4 1 := cmpf .olt main_v9 main_v10
  let main_c_3 : IVec S_ 1 := constantI S_ 1 1#1
  let main_v12 : IVec S_ 1 := (fun x v => Host.reduce IntOp.andi x v reducesTo_S1600x4_S_d0_1 h_S_) main_v11 main_c_3
  let main_v13 : IVec S_ 1 := andi main_v8 main_v12
  let main_v14 : FVec F S128x4 .f32 := Host.absf main_arg3
  let main_cst_4 : FVec F S_ .f32 := constant S_ .f32 0x7F800000#32
  let main_v15 : FVec F S128x4 .f32 := broadcastInDim S128x4 ![] bcast_S_S128x4 main_cst_4
  let main_v16 : IVec S128x4 1 := cmpf .olt main_v14 main_v15
  fn_part1 (F := F) main_arg1 main_arg4 main_arg5 main_arg6 main_v13 main_v16
-- ==== Kernel.lean ====
abbrev S16x1000x80 : Shape := ⟨3, ![16, 1000, 80]⟩
abbrev S16x1000x4 : Shape := ⟨3, ![16, 1000, 4]⟩
abbrev S1600x4 : Shape := ⟨2, ![1600, 4]⟩
abbrev S128x4 : Shape := ⟨2, ![128, 4]⟩
abbrev S16x4 : Shape := ⟨2, ![16, 4]⟩
abbrev S1600 : Shape := ⟨1, ![1600]⟩
abbrev S1600x1 : Shape := ⟨2, ![1600, 1]⟩
abbrev S80 : Shape := ⟨1, ![80]⟩
abbrev S1x80 : Shape := ⟨2, ![1, 80]⟩
abbrev S1600x80 : Shape := ⟨2, ![1600, 80]⟩
abbrev S16x100x4 : Shape := ⟨3, ![16, 100, 4]⟩
abbrev S16x100x80 : Shape := ⟨3, ![16, 100, 80]⟩
abbrev S16x8x4 : Shape := ⟨3, ![16, 8, 4]⟩
abbrev S16x1x4 : Shape := ⟨3, ![16, 1, 4]⟩
abbrev S16x1000x100 : Shape := ⟨3, ![16, 1000, 100]⟩
abbrev S16x8x1000 : Shape := ⟨3, ![16, 8, 1000]⟩
abbrev S1x1000x80 : Shape := ⟨3, ![1, 1000, 80]⟩
abbrev S1x1000x4 : Shape := ⟨3, ![1, 1000, 4]⟩
abbrev S1x100x4 : Shape := ⟨3, ![1, 100, 4]⟩
abbrev S1x100x80 : Shape := ⟨3, ![1, 100, 80]⟩
abbrev S1x8x4 : Shape := ⟨3, ![1, 8, 4]⟩
abbrev S1x1x4 : Shape := ⟨3, ![1, 1, 4]⟩
abbrev S1x1000x100 : Shape := ⟨3, ![1, 1000, 100]⟩
abbrev S1x8x1000 : Shape := ⟨3, ![1, 8, 1000]⟩
abbrev S1000x80 : Shape := ⟨2, ![1000, 80]⟩
abbrev S100x80 : Shape := ⟨2, ![100, 80]⟩
abbrev S1000x100 : Shape := ⟨2, ![1000, 100]⟩
abbrev S1000x4 : Shape := ⟨2, ![1000, 4]⟩
abbrev S100x4 : Shape := ⟨2, ![100, 4]⟩
abbrev S8x4 : Shape := ⟨2, ![8, 4]⟩
abbrev S1x4 : Shape := ⟨2, ![1, 4]⟩
abbrev S1000x1 : Shape := ⟨2, ![1000, 1]⟩
abbrev S4x100 : Shape := ⟨2, ![4, 100]⟩
abbrev S1x100 : Shape := ⟨2, ![1, 100]⟩
abbrev S4x1000 : Shape := ⟨2, ![4, 1000]⟩
abbrev S1x1000 : Shape := ⟨2, ![1, 1000]⟩
abbrev S8x1 : Shape := ⟨2, ![8, 1]⟩
abbrev S8x1000 : Shape := ⟨2, ![8, 1000]⟩
abbrev S16x1000x8 : Shape := ⟨3, ![16, 1000, 8]⟩

abbrev nBuf : Space → Nat
  | .hbm => 22
  | .vmem => 18
  | .smem => 0
  | _ => 0

abbrev bufTy : (tb : Table) → Fin (tcTables nBuf tb) → BufTy
  | .hbm, ⟨0, _⟩ => ⟨S16x1000x80, .f32⟩
  | .hbm, ⟨1, _⟩ => ⟨S16x1000x4, .f32⟩
  | .hbm, ⟨2, _⟩ => ⟨S1600x4, .f32⟩
  | .hbm, ⟨3, _⟩ => ⟨S128x4, .f32⟩
  | .hbm, ⟨4, _⟩ => ⟨S16x4, .f32⟩
  | .hbm, ⟨5, _⟩ => ⟨S1600x4, .f32⟩
  | .hbm, ⟨6, _⟩ => ⟨S1600, .i32⟩
  | .hbm, ⟨7, _⟩ => ⟨S1600x1, .i32⟩
  | .hbm, ⟨8, _⟩ => ⟨S80, .i32⟩
  | .hbm, ⟨9, _⟩ => ⟨S1x80, .i32⟩
  | .hbm, ⟨10, _⟩ => ⟨S1600x80, .i32⟩
  | .hbm, ⟨11, _⟩ => ⟨S1600x80, .i32⟩
  | .hbm, ⟨12, _⟩ => ⟨S1600x80, .i1⟩
  | .hbm, ⟨13, _⟩ => ⟨S1600x80, .f32⟩
  | .hbm, ⟨14, _⟩ => ⟨S16x100x4, .f32⟩
  | .hbm, ⟨15, _⟩ => ⟨S16x100x80, .f32⟩
  | .hbm, ⟨16, _⟩ => ⟨S16x8x4, .f32⟩
  | .hbm, ⟨17, _⟩ => ⟨S16x1x4, .f32⟩
  | .hbm, ⟨18, _⟩ => ⟨S16x100x4, .f32⟩
  | .hbm, ⟨19, _⟩ => ⟨S16x1000x100, .f32⟩
  | .hbm, ⟨20, _⟩ => ⟨S16x8x1000, .f32⟩
  | .hbm, ⟨21, _⟩ => ⟨S16x1000x8, .f32⟩
  | .local _ .vmem, ⟨0, _⟩ => ⟨S1x1000x80, .f32⟩
  | .local _ .vmem, ⟨1, _⟩ => ⟨S1x1000x80, .f32⟩
  | .local _ .vmem, ⟨2, _⟩ => ⟨S1x1000x4, .f32⟩
  | .local _ .vmem, ⟨3, _⟩ => ⟨S1x1000x4, .f32⟩
  | .local _ .vmem, ⟨4, _⟩ => ⟨S1x100x4, .f32⟩
  | .local _ .vmem, ⟨5, _⟩ => ⟨S1x100x4, .f32⟩
  | .local _ .vmem, ⟨6, _⟩ => ⟨S1x100x80, .f32⟩
  | .local _ .vmem, ⟨7, _⟩ => ⟨S1x100x80, .f32⟩
  | .local _ .vmem, ⟨8, _⟩ => ⟨S1x8x4, .f32⟩
  | .local _ .vmem, ⟨9, _⟩ => ⟨S1x8x4, .f32⟩
  | .local _ .vmem, ⟨10, _⟩ => ⟨S1x1x4, .f32⟩
  | .local _ .vmem, ⟨11, _⟩ => ⟨S1x1x4, .f32⟩
  | .local _ .vmem, ⟨12, _⟩ => ⟨S1x100x4, .f32⟩
  | .local _ .vmem, ⟨13, _⟩ => ⟨S1x100x4, .f32⟩
  | .local _ .vmem, ⟨14, _⟩ => ⟨S1x1000x100, .f32⟩
  | .local _ .vmem, ⟨15, _⟩ => ⟨S1x1000x100, .f32⟩
  | .local _ .vmem, ⟨16, _⟩ => ⟨S1x8x1000, .f32⟩
  | .local _ .vmem, ⟨17, _⟩ => ⟨S1x8x1000, .f32⟩
  | _, _ => ⟨S16x1000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v13 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1000x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x100x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x100x80 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x4 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x100x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1000x100 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x1000 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S1600_S1600x1_0 : S1600.BroadcastsInDim S1600x1 (![0] : Fin 1 → Fin S1600x1.rank)
  bcast_S80_S1x80_1 : S80.BroadcastsInDim S1x80 (![1] : Fin 1 → Fin S1x80.rank)
  bcast_S1600x1_S1600x80_0_1 : S1600x1.BroadcastsInDim S1600x80 (![0, 1] : Fin 2 → Fin S1600x80.rank)
  bcast_S1x80_S1600x80_0_1 : S1x80.BroadcastsInDim S1600x80 (![0, 1] : Fin 2 → Fin S1600x80.rank)
  shapeCasts_S1600x4_S16x100x4 : S1600x4.ShapeCasts S16x100x4
  shapeCasts_S1600x80_S16x100x80 : S1600x80.ShapeCasts S16x100x80
  shapeCasts_S128x4_S16x8x4 : S128x4.ShapeCasts S16x8x4
  shapeCasts_S16x4_S16x1x4 : S16x4.ShapeCasts S16x1x4
  inb_S1x1000x80_S1x1000x80_0_0_0 : ∀ a, (![0, 0, 0] : Fin 3 → Nat) a + S1x1000x80.size a ≤ S1x1000x80.size a
  h_S1x1000x80 : 0 < S1x1000x80.numel
  shapeCasts_S1x1000x80_S1000x80 : S1x1000x80.ShapeCasts S1000x80
  inb_S1x100x80_S1x100x80_0_0_0 : ∀ a, (![0, 0, 0] : Fin 3 → Nat) a + S1x100x80.size a ≤ S1x100x80.size a
  h_S1x100x80 : 0 < S1x100x80.numel
  shapeCasts_S1x100x80_S100x80 : S1x100x80.ShapeCasts S100x80
  bitsLt_bf16_f32 : FTy.bits .bf16 < FTy.bits .f32
  inb_S1x1000x4_S1x1000x4_0_0_0 : ∀ a, (![0, 0, 0] : Fin 3 → Nat) a + S1x1000x4.size a ≤ S1x1000x4.size a
  h_S1x1000x4 : 0 < S1x1000x4.numel
  shapeCasts_S1x1000x4_S1000x4 : S1x1000x4.ShapeCasts S1000x4
  inb_S1x100x4_S1x100x4_0_0_0 : ∀ a, (![0, 0, 0] : Fin 3 → Nat) a + S1x100x4.size a ≤ S1x100x4.size a
  h_S1x100x4 : 0 < S1x100x4.numel
  shapeCasts_S1x100x4_S100x4 : S1x100x4.ShapeCasts S100x4
  inb_S1x8x4_S1x8x4_0_0_0 : ∀ a, (![0, 0, 0] : Fin 3 → Nat) a + S1x8x4.size a ≤ S1x8x4.size a
  h_S1x8x4 : 0 < S1x8x4.numel
  shapeCasts_S1x8x4_S8x4 : S1x8x4.ShapeCasts S8x4
  inb_S1x1x4_S1x1x4_0_0_0 : ∀ a, (![0, 0, 0] : Fin 3 → Nat) a + S1x1x4.size a ≤ S1x1x4.size a
  h_S1x1x4 : 0 < S1x1x4.numel
  shapeCasts_S1x1x4_S1x4 : S1x1x4.ShapeCasts S1x4
  slices_S1000x4_o0_0_S1000x1 : S1000x4.Slices ![0, 0] S1000x1
  slices_S1000x4_o0_1_S1000x1 : S1000x4.Slices ![0, 1] S1000x1
  slices_S1000x4_o0_2_S1000x1 : S1000x4.Slices ![0, 2] S1000x1
  slices_S1000x4_o0_3_S1000x1 : S1000x4.Slices ![0, 3] S1000x1
  transposes_S100x4_p1_0_S4x100 : S100x4.Transposes [1, 0] S4x100
  slices_S4x100_o0_0_S1x100 : S4x100.Slices ![0, 0] S1x100
  slices_S4x100_o1_0_S1x100 : S4x100.Slices ![1, 0] S1x100
  slices_S4x100_o2_0_S1x100 : S4x100.Slices ![2, 0] S1x100
  slices_S4x100_o3_0_S1x100 : S4x100.Slices ![3, 0] S1x100
  broadcasts_S1000x1_S1000x100 : S1000x1.Broadcasts S1000x100
  broadcasts_S1x100_S1000x100 : S1x100.Broadcasts S1000x100
  broadcasts_S1x4_S1000x4 : S1x4.Broadcasts S1000x4
  inb_S1x1000x100_S1x1000x100_0_0_0 : ∀ a, (![0, 0, 0] : Fin 3 → Nat) a + S1x1000x100.size a ≤ S1x1000x100.size a
  h_S1x1000x100 : 0 < S1x1000x100.numel
  shapeCasts_S1x1000x100_S1000x100 : S1x1000x100.ShapeCasts S1000x100
  shapeCasts_S1000x100_S1x1000x100 : S1000x100.ShapeCasts S1x1000x100
  transposes_S1000x4_p1_0_S4x1000 : S1000x4.Transposes [1, 0] S4x1000
  slices_S4x1000_o0_0_S1x1000 : S4x1000.Slices ![0, 0] S1x1000
  slices_S4x1000_o1_0_S1x1000 : S4x1000.Slices ![1, 0] S1x1000
  slices_S4x1000_o2_0_S1x1000 : S4x1000.Slices ![2, 0] S1x1000
  slices_S4x1000_o3_0_S1x1000 : S4x1000.Slices ![3, 0] S1x1000
  slices_S8x4_o0_0_S8x1 : S8x4.Slices ![0, 0] S8x1
  slices_S8x4_o0_1_S8x1 : S8x4.Slices ![0, 1] S8x1
  slices_S8x4_o0_2_S8x1 : S8x4.Slices ![0, 2] S8x1
  slices_S8x4_o0_3_S8x1 : S8x4.Slices ![0, 3] S8x1
  broadcasts_S8x1_S8x1000 : S8x1.Broadcasts S8x1000
  broadcasts_S1x1000_S8x1000 : S1x1000.Broadcasts S8x1000
  inb_S1x8x1000_S1x8x1000_0_0_0 : ∀ a, (![0, 0, 0] : Fin 3 → Nat) a + S1x8x1000.size a ≤ S1x8x1000.size a
  h_S1x8x1000 : 0 < S1x8x1000.numel
  shapeCasts_S1x8x1000_S8x1000 : S1x8x1000.ShapeCasts S8x1000
  shapeCasts_S8x1000_S1x8x1000 : S8x1000.ShapeCasts S1x8x1000
  transposes_S16x8x1000_S16x1000x8_0_2_1 : S16x8x1000.Transposes [0, 2, 1] S16x1000x8
  dot_S1000x80_S100x80_S1000x100_1_1_0_0_n_n_wf : DotDims.WF S1000x80 S100x80 S1000x100 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1000x80.size a ≤ S16x1000x80.size a
  hwx0_0 : ∀ i : grid0.Coords, EltTy.bits .f32 = 32 ∨ (Rect.block (s := S16x1000x80) S1x1000x80.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1000x4.size a ≤ S16x1000x4.size a
  hwx0_1 : ∀ i : grid0.Coords, EltTy.bits .f32 = 32 ∨ (Rect.block (s := S16x1000x4) S1x1000x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x100x4.size a ≤ S16x100x4.size a
  hwx0_2 : ∀ i : grid0.Coords, EltTy.bits .f32 = 32 ∨ (Rect.block (s := S16x100x4) S1x100x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x100x80.size a ≤ S16x100x80.size a
  hwx0_3 : ∀ i : grid0.Coords, EltTy.bits .f32 = 32 ∨ (Rect.block (s := S16x100x80) S1x100x80.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x4.size a ≤ S16x8x4.size a
  hwx0_4 : ∀ i : grid0.Coords, EltTy.bits .f32 = 32 ∨ (Rect.block (s := S16x8x4) S1x8x4.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x4.size a ≤ S16x1x4.size a
  hwx0_5 : ∀ i : grid0.Coords, EltTy.bits .f32 = 32 ∨ (Rect.block (s := S16x1x4) S1x1x4.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x100x4.size a ≤ S16x100x4.size a
  hwx0_6 : ∀ i : grid0.Coords, EltTy.bits .f32 = 32 ∨ (Rect.block (s := S16x100x4) S1x100x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1000x100.size a ≤ S16x1000x100.size a
  hwx0_7 : ∀ i : grid0.Coords, EltTy.bits .f32 = 32 ∨ (Rect.block (s := S16x1000x100) S1x1000x100.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x8x1000.size a ≤ S16x8x1000.size a
  hwx0_8 : ∀ i : grid0.Coords, EltTy.bits .f32 = 32 ∨ (Rect.block (s := S16x8x1000) S1x8x1000.size (cc0_transform_8 i) (hinb0_8 i)).WholeWords (EltTy.packing .f32)

variable [Facts₀]

def dot_S1000x80_S100x80_S1000x100_1_1_0_0_n_n : DotDims S1000x80 S100x80 S1000x100 where
  lhsContracting := [1]
  rhsContracting := [1]
  lhsNonContracting := [0]
  rhsNonContracting := [0]
  lhsBatch := []
  rhsBatch := []
  wf := dot_S1000x80_S100x80_S1000x100_1_1_0_0_n_n_wf

abbrev win0_0 : Pipeline.Window sig grid0 :=
  Pipeline.Window.ofSpec (Memref.whole main_arg0) S1x1000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1000x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x100x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x100x80.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x8x4.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S1x1x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x100x4.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v12_0) S1x1000x100.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v12_1) S1x8x1000.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S16x1000x80 : Shape := ⟨3, ![16, 1000, 80]⟩
abbrev S16x1000x4 : Shape := ⟨3, ![16, 1000, 4]⟩
abbrev S1600x4 : Shape := ⟨2, ![1600, 4]⟩
abbrev S128x4 : Shape := ⟨2, ![128, 4]⟩
abbrev S16x4 : Shape := ⟨2, ![16, 4]⟩
abbrev S1600 : Shape := ⟨1, ![1600]⟩
abbrev S16000x80 : Shape := ⟨2, ![16000, 80]⟩
abbrev S_ : Shape := ⟨0, ![]⟩
abbrev S16000x4 : Shape := ⟨2, ![16000, 4]⟩
abbrev S1600x1 : Shape := ⟨2, ![1600, 1]⟩
abbrev S16000x1600 : Shape := ⟨2, ![16000, 1600]⟩
abbrev S16000x1x4 : Shape := ⟨3, ![16000, 1, 4]⟩
abbrev S1x1600x4 : Shape := ⟨3, ![1, 1600, 4]⟩
abbrev S16000x1600x4 : Shape := ⟨3, ![16000, 1600, 4]⟩
abbrev S16000x2 : Shape := ⟨2, ![16000, 2]⟩
abbrev S16000x1x2 : Shape := ⟨3, ![16000, 1, 2]⟩
abbrev S1600x2 : Shape := ⟨2, ![1600, 2]⟩
abbrev S1x1600x2 : Shape := ⟨3, ![1, 1600, 2]⟩
abbrev S16000x1600x2 : Shape := ⟨3, ![16000, 1600, 2]⟩
abbrev S16000x1600x1 : Shape := ⟨3, ![16000, 1600, 1]⟩
abbrev S16000x1 : Shape := ⟨2, ![16000, 1]⟩
abbrev S16000 : Shape := ⟨1, ![16000]⟩
abbrev S1x1600 : Shape := ⟨2, ![1, 1600]⟩
abbrev S128x2 : Shape := ⟨2, ![128, 2]⟩
abbrev S1x128x2 : Shape := ⟨3, ![1, 128, 2]⟩
abbrev S16000x128x2 : Shape := ⟨3, ![16000, 128, 2]⟩
abbrev S16000x128x1 : Shape := ⟨3, ![16000, 128, 1]⟩
abbrev S16000x128 : Shape := ⟨2, ![16000, 128]⟩
abbrev S16 : Shape := ⟨1, ![16]⟩
abbrev S16x1000x16x100 : Shape := ⟨4, ![16, 1000, 16, 100]⟩
abbrev S16x1 : Shape := ⟨2, ![16, 1]⟩
abbrev S16x2 : Shape := ⟨2, ![16, 2]⟩
abbrev S16x1000x100 : Shape := ⟨3, ![16, 1000, 100]⟩
abbrev S16x1000x16x8 : Shape := ⟨4, ![16, 1000, 16, 8]⟩
abbrev S16x1000x8 : Shape := ⟨3, ![16, 1000, 8]⟩

abbrev nBuf : Space → Nat
  | .hbm => 238
  | .vmem => 0
  | .smem => 0
  | _ => 0

abbrev hbmTy0_0 (i : Nat) : BufTy := match i % 128 with
  | 0 => ⟨S16x1000x80, .f32⟩
  | 1 => ⟨S16x1000x4, .f32⟩
  | 2 => ⟨S1600x4, .f32⟩
  | 3 => ⟨S128x4, .f32⟩
  | 4 => ⟨S16x4, .f32⟩
  | 5 => ⟨S1600x4, .f32⟩
  | 6 => ⟨S1600, .i32⟩
  | 7 => ⟨S16000x80, .f32⟩
  | 8 => ⟨S16000x80, .f32⟩
  | 9 => ⟨S16000x80, .f32⟩
  | 10 => ⟨S_, .f32⟩
  | 11 => ⟨S16000x80, .f32⟩
  | 12 => ⟨S16000x80, .f32⟩
  | 13 => ⟨S_, .f32⟩
  | 14 => ⟨S16000x80, .f32⟩
  | 15 => ⟨S16000x80, .f32⟩
  | 16 => ⟨S16000x4, .f32⟩
  | 17 => ⟨S_, .i32⟩
  | 18 => ⟨S1600, .i32⟩
  | 19 => ⟨S1600, .i1⟩
  | 20 => ⟨S_, .i32⟩
  | 21 => ⟨S1600, .i32⟩
  | 22 => ⟨S1600, .i32⟩
  | 23 => ⟨S1600, .i32⟩
  | 24 => ⟨S1600x1, .i32⟩
  | 25 => ⟨S16000x1600, .f32⟩
  | 26 => ⟨S_, .f32⟩
  | 27 => ⟨S16000x1600, .f32⟩
  | 28 => ⟨S16000x1600, .f32⟩
  | 29 => ⟨S_, .f32⟩
  | 30 => ⟨S16000x1600, .f32⟩
  | 31 => ⟨S16000x1600, .f32⟩
  | 32 => ⟨S_, .f32⟩
  | 33 => ⟨S16000x1600, .f32⟩
  | 34 => ⟨S16000x1600, .f32⟩
  | 35 => ⟨S_, .f32⟩
  | 36 => ⟨S16000x1600, .f32⟩
  | 37 => ⟨S16000x1600, .f32⟩
  | 38 => ⟨S16000x1600, .f32⟩
  | 39 => ⟨S16000x1600, .f32⟩
  | 40 => ⟨S16000x1600, .f32⟩
  | 41 => ⟨S_, .f32⟩
  | 42 => ⟨S16000x1600, .f32⟩
  | 43 => ⟨S16000x1600, .f32⟩
  | 44 => ⟨S_, .f32⟩
  | 45 => ⟨S16000x1600, .f32⟩
  | 46 => ⟨S16000x1600, .f32⟩
  | 47 => ⟨S_, .f32⟩
  | 48 => ⟨S16000x1600, .f32⟩
  | 49 => ⟨S16000x1600, .f32⟩
  | 50 => ⟨S_, .f32⟩
  | 51 => ⟨S16000x1600, .f32⟩
  | 52 => ⟨S16000x1600, .f32⟩
  | 53 => ⟨S16000x1600, .f32⟩
  | 54 => ⟨S16000x1600, .f32⟩
  | 55 => ⟨S16000x1600, .f32⟩
  | 56 => ⟨S16000x1600, .f32⟩
  | 57 => ⟨S16x1000x4, .f32⟩
  | 58 => ⟨S16000x4, .f32⟩
  | 59 => ⟨S16000x4, .f32⟩
  | 60 => ⟨S1600x4, .f32⟩
  | 61 => ⟨S16000x1x4, .f32⟩
  | 62 => ⟨S1x1600x4, .f32⟩
  | 63 => ⟨S16000x1600x4, .f32⟩
  | 64 => ⟨S16000x1600x4, .f32⟩
  | 65 => ⟨S16000x1600x4, .f32⟩
  | 66 => ⟨S16000x1600x4, .f32⟩
  | 67 => ⟨S_, .f32⟩
  | 68 => ⟨S16000x1600, .f32⟩
  | 69 => ⟨S16000x2, .f32⟩
  | 70 => ⟨S16000x1x2, .f32⟩
  | 71 => ⟨S1600x2, .f32⟩
  | 72 => ⟨S1x1600x2, .f32⟩
  | 73 => ⟨S16000x1600x2, .f32⟩
  | 74 => ⟨S16000x1600x2, .f32⟩
  | 75 => ⟨S16000x1600x2, .f32⟩
  | 76 => ⟨S16000x2, .f32⟩
  | 77 => ⟨S16000x1x2, .f32⟩
  | 78 => ⟨S1600x2, .f32⟩
  | 79 => ⟨S1x1600x2, .f32⟩
  | 80 => ⟨S16000x1600x2, .f32⟩
  | 81 => ⟨S16000x1600x2, .f32⟩
  | 82 => ⟨S16000x1600x2, .f32⟩
  | 83 => ⟨S16000x1600x2, .f32⟩
  | 84 => ⟨S_, .f32⟩
  | 85 => ⟨S_, .f32⟩
  | 86 => ⟨S16000x1600x2, .f32⟩
  | 87 => ⟨S16000x1600x2, .f32⟩
  | 88 => ⟨S16000x1600x1, .f32⟩
  | 89 => ⟨S16000x1600, .f32⟩
  | 90 => ⟨S16000x1600x1, .f32⟩
  | 91 => ⟨S16000x1600, .f32⟩
  | 92 => ⟨S16000x1600, .f32⟩
  | 93 => ⟨S16000x1, .f32⟩
  | 94 => ⟨S16000, .f32⟩
  | 95 => ⟨S16000x1, .f32⟩
  | 96 => ⟨S16000, .f32⟩
  | 97 => ⟨S16000, .f32⟩
  | 98 => ⟨S16000x1, .f32⟩
  | 99 => ⟨S16000, .f32⟩
  | 100 => ⟨S16000x1, .f32⟩
  | 101 => ⟨S16000, .f32⟩
  | 102 => ⟨S16000, .f32⟩
  | 103 => ⟨S16000, .f32⟩
  | 104 => ⟨S16000x1, .f32⟩
  | 105 => ⟨S1600x1, .f32⟩
  | 106 => ⟨S1600, .f32⟩
  | 107 => ⟨S1600x1, .f32⟩
  | 108 => ⟨S1600, .f32⟩
  | 109 => ⟨S1600, .f32⟩
  | 110 => ⟨S1600x1, .f32⟩
  | 111 => ⟨S1600, .f32⟩
  | 112 => ⟨S1600x1, .f32⟩
  | 113 => ⟨S1600, .f32⟩
  | 114 => ⟨S1600, .f32⟩
  | 115 => ⟨S1600, .f32⟩
  | 116 => ⟨S1x1600, .f32⟩
  | 117 => ⟨S16000x1600, .f32⟩
  | 118 => ⟨S16000x1600, .f32⟩
  | 119 => ⟨S16000x1600, .f32⟩
  | 120 => ⟨S16000x1600, .f32⟩
  | 121 => ⟨S16000x1600, .f32⟩
  | 122 => ⟨S16000x2, .f32⟩
  | 123 => ⟨S16000x1x2, .f32⟩
  | 124 => ⟨S1600x2, .f32⟩
  | 125 => ⟨S1x1600x2, .f32⟩
  | 126 => ⟨S16000x1600x2, .f32⟩
  | 127 => ⟨S16000x1600x2, .f32⟩
  | _ => ⟨S16x1000x80, .f32⟩

abbrev hbmTy0_1 (i : Nat) : BufTy := match i % 128 with
  | 0 => ⟨S16000x1600x2, .f32⟩
  | 1 => ⟨S16000x2, .f32⟩
  | 2 => ⟨S16000x1x2, .f32⟩
  | 3 => ⟨S1600x2, .f32⟩
  | 4 => ⟨S1x1600x2, .f32⟩
  | 5 => ⟨S16000x1600x2, .f32⟩
  | 6 => ⟨S16000x1600x2, .f32⟩
  | 7 => ⟨S16000x1600x2, .f32⟩
  | 8 => ⟨S16000x1600x2, .f32⟩
  | 9 => ⟨S_, .f32⟩
  | 10 => ⟨S_, .f32⟩
  | 11 => ⟨S16000x1600x2, .f32⟩
  | 12 => ⟨S16000x1600x2, .f32⟩
  | 13 => ⟨S16000x1600x1, .f32⟩
  | 14 => ⟨S16000x1600, .f32⟩
  | 15 => ⟨S16000x1600x1, .f32⟩
  | 16 => ⟨S16000x1600, .f32⟩
  | 17 => ⟨S16000x1600, .f32⟩
  | 18 => ⟨S16000x1600, .f32⟩
  | 19 => ⟨S16000x1600, .f32⟩
  | 20 => ⟨S16000x1600, .f32⟩
  | 21 => ⟨S16000x1600, .f32⟩
  | 22 => ⟨S16000x2, .f32⟩
  | 23 => ⟨S16000x1x2, .f32⟩
  | 24 => ⟨S128x2, .f32⟩
  | 25 => ⟨S1x128x2, .f32⟩
  | 26 => ⟨S16000x128x2, .f32⟩
  | 27 => ⟨S16000x128x2, .f32⟩
  | 28 => ⟨S16000x128x2, .f32⟩
  | 29 => ⟨S16000x2, .f32⟩
  | 30 => ⟨S16000x1x2, .f32⟩
  | 31 => ⟨S128x2, .f32⟩
  | 32 => ⟨S1x128x2, .f32⟩
  | 33 => ⟨S16000x128x2, .f32⟩
  | 34 => ⟨S16000x128x2, .f32⟩
  | 35 => ⟨S16000x128x2, .f32⟩
  | 36 => ⟨S16000x128x2, .f32⟩
  | 37 => ⟨S_, .f32⟩
  | 38 => ⟨S_, .f32⟩
  | 39 => ⟨S16000x128x2, .f32⟩
  | 40 => ⟨S16000x128x2, .f32⟩
  | 41 => ⟨S16000x128x1, .f32⟩
  | 42 => ⟨S16000x128, .f32⟩
  | 43 => ⟨S16000x128x1, .f32⟩
  | 44 => ⟨S16000x128, .f32⟩
  | 45 => ⟨S16000x128, .f32⟩
  | 46 => ⟨S16000x1, .f32⟩
  | 47 => ⟨S16000, .f32⟩
  | 48 => ⟨S16000x1, .f32⟩
  | 49 => ⟨S16000, .f32⟩
  | 50 => ⟨S16000, .f32⟩
  | 51 => ⟨S16000x1, .f32⟩
  | 52 => ⟨S16000, .f32⟩
  | 53 => ⟨S16000x1, .f32⟩
  | 54 => ⟨S16000, .f32⟩
  | 55 => ⟨S16000, .f32⟩
  | 56 => ⟨S16000, .f32⟩
  | 57 => ⟨S16000x1, .f32⟩
  | 58 => ⟨S16000x128, .f32⟩
  | 59 => ⟨S16000x128, .f32⟩
  | 60 => ⟨S_, .f32⟩
  | 61 => ⟨S16000x1600, .f32⟩
  | 62 => ⟨S16000x1600, .f32⟩
  | 63 => ⟨S_, .f32⟩
  | 64 => ⟨S16000x1600, .f32⟩
  | 65 => ⟨S16000x1600, .f32⟩
  | 66 => ⟨S16000x1600, .f32⟩
  | 67 => ⟨S_, .f32⟩
  | 68 => ⟨S16000x1600, .f32⟩
  | 69 => ⟨S16000x1600, .f32⟩
  | 70 => ⟨S16000x1600, .f32⟩
  | 71 => ⟨S16, .i32⟩
  | 72 => ⟨S16x1000x16x100, .f32⟩
  | 73 => ⟨S_, .i32⟩
  | 74 => ⟨S16, .i32⟩
  | 75 => ⟨S16, .i1⟩
  | 76 => ⟨S_, .i32⟩
  | 77 => ⟨S16, .i32⟩
  | 78 => ⟨S16, .i32⟩
  | 79 => ⟨S16, .i32⟩
  | 80 => ⟨S_, .i32⟩
  | 81 => ⟨S16, .i32⟩
  | 82 => ⟨S16, .i1⟩
  | 83 => ⟨S_, .i32⟩
  | 84 => ⟨S16, .i32⟩
  | 85 => ⟨S16, .i32⟩
  | 86 => ⟨S16, .i32⟩
  | 87 => ⟨S16x1, .i32⟩
  | 88 => ⟨S16x1, .i32⟩
  | 89 => ⟨S16x2, .i32⟩
  | 90 => ⟨S16x1000x100, .f32⟩
  | 91 => ⟨S16x1000x16x8, .f32⟩
  | 92 => ⟨S_, .i32⟩
  | 93 => ⟨S16, .i32⟩
  | 94 => ⟨S16, .i1⟩
  | 95 => ⟨S_, .i32⟩
  | 96 => ⟨S16, .i32⟩
  | 97 => ⟨S16, .i32⟩
  | 98 => ⟨S16, .i32⟩
  | 99 => ⟨S_, .i32⟩
  | 100 => ⟨S16, .i32⟩
  | 101 => ⟨S16, .i1⟩
  | 102 => ⟨S_, .i32⟩
  | 103 => ⟨S16, .i32⟩
  | 104 => ⟨S16, .i32⟩
  | 105 => ⟨S16, .i32⟩
  | 106 => ⟨S16x1, .i32⟩
  | 107 => ⟨S16x1, .i32⟩
  | 108 => ⟨S16x2, .i32⟩
  | 109 => ⟨S16x1000x8, .f32⟩
  | _ => ⟨S16x1000x80, .f32⟩

abbrev hbmTy (i : Nat) : BufTy := match i / 128 with
  | 0 => hbmTy0_0 i
  | 1 => hbmTy0_1 i
  | _ => ⟨S16x1000x80, .f32⟩

abbrev bufTy : (tb : Table) → Fin (tcTables nBuf tb) → BufTy
  | .hbm, ⟨i, _⟩ => hbmTy i
  | _, _ => ⟨S16x1000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_c : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_cst_9 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_10 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_11 : Ref sig .tc := ⟨.hbm, 84, rfl⟩
abbrev main_call0_v0 : Ref sig .tc := ⟨.hbm, 85, rfl⟩
abbrev main_call0_v1 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_12 : Ref sig .tc := ⟨.hbm, 137, rfl⟩
abbrev main_call1_v0 : Ref sig .tc := ⟨.hbm, 138, rfl⟩
abbrev main_call1_v1 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_v135 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_cst_13 : Ref sig .tc := ⟨.hbm, 165, rfl⟩
abbrev main_call2_v0 : Ref sig .tc := ⟨.hbm, 166, rfl⟩
abbrev main_call2_v1 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_v142 : Ref sig .tc := ⟨.hbm, 171, rfl⟩
abbrev main_v143 : Ref sig .tc := ⟨.hbm, 172, rfl⟩
abbrev main_v144 : Ref sig .tc := ⟨.hbm, 173, rfl⟩
abbrev main_v145 : Ref sig .tc := ⟨.hbm, 174, rfl⟩
abbrev main_v146 : Ref sig .tc := ⟨.hbm, 175, rfl⟩
abbrev main_v147 : Ref sig .tc := ⟨.hbm, 176, rfl⟩
abbrev main_v148 : Ref sig .tc := ⟨.hbm, 177, rfl⟩
abbrev main_v149 : Ref sig .tc := ⟨.hbm, 178, rfl⟩
abbrev main_v150 : Ref sig .tc := ⟨.hbm, 179, rfl⟩
abbrev main_v151 : Ref sig .tc := ⟨.hbm, 180, rfl⟩
abbrev main_v152 : Ref sig .tc := ⟨.hbm, 181, rfl⟩
abbrev main_v153 : Ref sig .tc := ⟨.hbm, 182, rfl⟩
abbrev main_v154 : Ref sig .tc := ⟨.hbm, 183, rfl⟩
abbrev main_v155 : Ref sig .tc := ⟨.hbm, 184, rfl⟩
abbrev main_v156 : Ref sig .tc := ⟨.hbm, 185, rfl⟩
abbrev main_v157 : Ref sig .tc := ⟨.hbm, 186, rfl⟩
abbrev main_v158 : Ref sig .tc := ⟨.hbm, 187, rfl⟩
abbrev main_cst_14 : Ref sig .tc := ⟨.hbm, 188, rfl⟩
abbrev main_v159 : Ref sig .tc := ⟨.hbm, 189, rfl⟩
abbrev main_v160 : Ref sig .tc := ⟨.hbm, 190, rfl⟩
abbrev main_cst_15 : Ref sig .tc := ⟨.hbm, 191, rfl⟩
abbrev main_v161 : Ref sig .tc := ⟨.hbm, 192, rfl⟩
abbrev main_v162 : Ref sig .tc := ⟨.hbm, 193, rfl⟩
abbrev main_v163 : Ref sig .tc := ⟨.hbm, 194, rfl⟩
abbrev main_cst_16 : Ref sig .tc := ⟨.hbm, 195, rfl⟩
abbrev main_v164 : Ref sig .tc := ⟨.hbm, 196, rfl⟩
abbrev main_v165 : Ref sig .tc := ⟨.hbm, 197, rfl⟩
abbrev main_v166 : Ref sig .tc := ⟨.hbm, 198, rfl⟩
abbrev main_v167 : Ref sig .tc := ⟨.hbm, 199, rfl⟩
abbrev main_v168 : Ref sig .tc := ⟨.hbm, 200, rfl⟩
abbrev main_c_17 : Ref sig .tc := ⟨.hbm, 201, rfl⟩
abbrev main_v169 : Ref sig .tc := ⟨.hbm, 202, rfl⟩
abbrev main_v170 : Ref sig .tc := ⟨.hbm, 203, rfl⟩
abbrev main_c_18 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_c_19 : Ref sig .tc := ⟨.hbm, 208, rfl⟩
abbrev main_v174 : Ref sig .tc := ⟨.hbm, 209, rfl⟩
abbrev main_v175 : Ref sig .tc := ⟨.hbm, 210, rfl⟩
abbrev main_c_20 : Ref sig .tc := ⟨.hbm, 211, rfl⟩
abbrev main_v176 : Ref sig .tc := ⟨.hbm, 212, rfl⟩
abbrev main_v177 : Ref sig .tc := ⟨.hbm, 213, rfl⟩
abbrev main_v178 : Ref sig .tc := ⟨.hbm, 214, rfl⟩
abbrev main_v179 : Ref sig .tc := ⟨.hbm, 215, rfl⟩
abbrev main_v180 : Ref sig .tc := ⟨.hbm, 216, rfl⟩
abbrev main_v181 : Ref sig .tc := ⟨.hbm, 217, rfl⟩
abbrev main_v182 : Ref sig .tc := ⟨.hbm, 218, rfl⟩
abbrev main_v183 : Ref sig .tc := ⟨.hbm, 219, rfl⟩
abbrev main_c_21 : Ref sig .tc := ⟨.hbm, 220, rfl⟩
abbrev main_v184 : Ref sig .tc := ⟨.hbm, 221, rfl⟩
abbrev main_v185 : Ref sig .tc := ⟨.hbm, 222, rfl⟩
abbrev main_c_22 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_c_23 : Ref sig .tc := ⟨.hbm, 227, rfl⟩
abbrev main_v189 : Ref sig .tc := ⟨.hbm, 228, rfl⟩
abbrev main_v190 : Ref sig .tc := ⟨.hbm, 229, rfl⟩
abbrev main_c_24 : Ref sig .tc := ⟨.hbm, 230, rfl⟩
abbrev main_v191 : Ref sig .tc := ⟨.hbm, 231, rfl⟩
abbrev main_v192 : Ref sig .tc := ⟨.hbm, 232, rfl⟩
abbrev main_v193 : Ref sig .tc := ⟨.hbm, 233, rfl⟩
abbrev main_v194 : Ref sig .tc := ⟨.hbm, 234, rfl⟩
abbrev main_v195 : Ref sig .tc := ⟨.hbm, 235, rfl⟩
abbrev main_v196 : Ref sig .tc := ⟨.hbm, 236, rfl⟩
abbrev main_v197 : Ref sig .tc := ⟨.hbm, 237, rfl⟩

abbrev nD : Nat := 1
abbrev τ : Topo := Topo.v7x

variable {F : FTy → Type} [FloatOps F]

class Facts₀ : Prop where
  shapeCasts_S16x1000x80_S16000x80 : S16x1000x80.ShapeCasts S16000x80
  bcast_S_S16000x80 : S_.BroadcastsInDim S16000x80 (![] : Fin 0 → Fin S16000x80.rank)
  shapeCasts_S16x1000x4_S16000x4 : S16x1000x4.ShapeCasts S16000x4
  bcast_S_S1600 : S_.BroadcastsInDim S1600 (![] : Fin 0 → Fin S1600.rank)
  bcast_S1600_S1600x1_0 : S1600.BroadcastsInDim S1600x1 (![0] : Fin 1 → Fin S1600x1.rank)
  bcast_S_S16000x1600 : S_.BroadcastsInDim S16000x1600 (![] : Fin 0 → Fin S16000x1600.rank)
  bcast_S16x4_S16x1000x4_0_2 : S16x4.BroadcastsInDim S16x1000x4 (![0, 2] : Fin 2 → Fin S16x1000x4.rank)
  bcast_S16000x4_S16000x1x4_0_2 : S16000x4.BroadcastsInDim S16000x1x4 (![0, 2] : Fin 2 → Fin S16000x1x4.rank)
  bcast_S1600x4_S1x1600x4_1_2 : S1600x4.BroadcastsInDim S1x1600x4 (![1, 2] : Fin 2 → Fin S1x1600x4.rank)
  bcast_S16000x1x4_S16000x1600x4_0_1_2 : S16000x1x4.BroadcastsInDim S16000x1600x4 (![0, 1, 2] : Fin 3 → Fin S16000x1600x4.rank)
  bcast_S1x1600x4_S16000x1600x4_0_1_2 : S1x1600x4.BroadcastsInDim S16000x1600x4 (![0, 1, 2] : Fin 3 → Fin S16000x1600x4.rank)
  reducesTo_S16000x1600x4_S16000x1600_d2 : S16000x1600x4.ReducesTo [2] S16000x1600
  h_S_ : 0 < S_.numel
  slices_S16000x4_S16000x2_0_0 : S16000x4.Slices ![0, 0] S16000x2
  bcast_S16000x2_S16000x1x2_0_2 : S16000x2.BroadcastsInDim S16000x1x2 (![0, 2] : Fin 2 → Fin S16000x1x2.rank)
  slices_S1600x4_S1600x2_0_0 : S1600x4.Slices ![0, 0] S1600x2
  bcast_S1600x2_S1x1600x2_1_2 : S1600x2.BroadcastsInDim S1x1600x2 (![1, 2] : Fin 2 → Fin S1x1600x2.rank)
  bcast_S16000x1x2_S16000x1600x2_0_1_2 : S16000x1x2.BroadcastsInDim S16000x1600x2 (![0, 1, 2] : Fin 3 → Fin S16000x1600x2.rank)
  bcast_S1x1600x2_S16000x1600x2_0_1_2 : S1x1600x2.BroadcastsInDim S16000x1600x2 (![0, 1, 2] : Fin 3 → Fin S16000x1600x2.rank)
  slices_S16000x4_S16000x2_0_2 : S16000x4.Slices ![0, 2] S16000x2
  slices_S1600x4_S1600x2_0_2 : S1600x4.Slices ![0, 2] S1600x2
  bcast_S_S16000x1600x2 : S_.BroadcastsInDim S16000x1600x2 (![] : Fin 0 → Fin S16000x1600x2.rank)
  slices_S16000x1600x2_S16000x1600x1_0_0_0 : S16000x1600x2.Slices ![0, 0, 0] S16000x1600x1
  shapeCasts_S16000x1600x1_S16000x1600 : S16000x1600x1.ShapeCasts S16000x1600
  slices_S16000x1600x2_S16000x1600x1_0_0_1 : S16000x1600x2.Slices ![0, 0, 1] S16000x1600x1
  slices_S16000x4_S16000x1_0_2 : S16000x4.Slices ![0, 2] S16000x1
  shapeCasts_S16000x1_S16000 : S16000x1.ShapeCasts S16000
  slices_S16000x4_S16000x1_0_0 : S16000x4.Slices ![0, 0] S16000x1
  slices_S16000x4_S16000x1_0_3 : S16000x4.Slices ![0, 3] S16000x1
  slices_S16000x4_S16000x1_0_1 : S16000x4.Slices ![0, 1] S16000x1
  bcast_S16000_S16000x1_0 : S16000.BroadcastsInDim S16000x1 (![0] : Fin 1 → Fin S16000x1.rank)
  slices_S1600x4_S1600x1_0_2 : S1600x4.Slices ![0, 2] S1600x1
  shapeCasts_S1600x1_S1600 : S1600x1.ShapeCasts S1600
  slices_S1600x4_S1600x1_0_0 : S1600x4.Slices ![0, 0] S1600x1
  slices_S1600x4_S1600x1_0_3 : S1600x4.Slices ![0, 3] S1600x1
  slices_S1600x4_S1600x1_0_1 : S1600x4.Slices ![0, 1] S1600x1
  bcast_S1600_S1x1600_1 : S1600.BroadcastsInDim S1x1600 (![1] : Fin 1 → Fin S1x1600.rank)
  bcast_S16000x1_S16000x1600_0_1 : S16000x1.BroadcastsInDim S16000x1600 (![0, 1] : Fin 2 → Fin S16000x1600.rank)
  bcast_S1x1600_S16000x1600_0_1 : S1x1600.BroadcastsInDim S16000x1600 (![0, 1] : Fin 2 → Fin S16000x1600.rank)
  slices_S128x4_S128x2_0_0 : S128x4.Slices ![0, 0] S128x2
  bcast_S128x2_S1x128x2_1_2 : S128x2.BroadcastsInDim S1x128x2 (![1, 2] : Fin 2 → Fin S1x128x2.rank)
  bcast_S16000x1x2_S16000x128x2_0_1_2 : S16000x1x2.BroadcastsInDim S16000x128x2 (![0, 1, 2] : Fin 3 → Fin S16000x128x2.rank)
  bcast_S1x128x2_S16000x128x2_0_1_2 : S1x128x2.BroadcastsInDim S16000x128x2 (![0, 1, 2] : Fin 3 → Fin S16000x128x2.rank)
  slices_S128x4_S128x2_0_2 : S128x4.Slices ![0, 2] S128x2
  bcast_S_S16000x128x2 : S_.BroadcastsInDim S16000x128x2 (![] : Fin 0 → Fin S16000x128x2.rank)
  slices_S16000x128x2_S16000x128x1_0_0_0 : S16000x128x2.Slices ![0, 0, 0] S16000x128x1
  shapeCasts_S16000x128x1_S16000x128 : S16000x128x1.ShapeCasts S16000x128
  slices_S16000x128x2_S16000x128x1_0_0_1 : S16000x128x2.Slices ![0, 0, 1] S16000x128x1
  bcast_S16000x1_S16000x128_0_1 : S16000x1.BroadcastsInDim S16000x128 (![0, 1] : Fin 2 → Fin S16000x128.rank)
  shapeCasts_S16000x1600_S16x1000x16x100 : S16000x1600.ShapeCasts S16x1000x16x100
  bcast_S_S16 : S_.BroadcastsInDim S16 (![] : Fin 0 → Fin S16.rank)
  bcast_S16_S16x1_0 : S16.BroadcastsInDim S16x1 (![0] : Fin 1 → Fin S16x1.rank)
  concatenates_S16x1_S16x1_S16x2_d1 : Shape.Concatenates [S16x1, S16x1] S16x2 1
  shapeCasts_S16000x128_S16x1000x16x8 : S16000x128.ShapeCasts S16x1000x16x8
  gather_S16000x80_S1600x1_S16000x1600_0_1_n_n_1_1_160001_wf : GatherDims.WF S16000x80 S1600x1 S16000x1600 [0] [1] [] [1] [] 1 ![16000, 1]
  gather_S16x1000x16x100_S16x2_S16x1000x100_12_02_n_n_02_1_110001100_wf : GatherDims.WF S16x1000x16x100 S16x2 S16x1000x100 [1, 2] [0, 2] [] [0, 2] [] 1 ![1, 1000, 1, 100]
  gather_S16x1000x16x8_S16x2_S16x1000x8_12_02_n_n_02_1_1100018_wf : GatherDims.WF S16x1000x16x8 S16x2 S16x1000x8 [1, 2] [0, 2] [] [0, 2] [] 1 ![1, 1000, 1, 8]

variable [Facts₀]

def gather_S16000x80_S1600x1_S16000x1600_0_1_n_n_1_1_160001 : GatherDims S16000x80 S1600x1 S16000x1600 where
  offsetDims := [0]
  collapsedSliceDims := [1]
  operandBatchingDims := []
  startIndicesBatchingDims := []
  startIndexMap := [1]
  indexVectorDim := 1
  sliceSizes := ![16000, 1]
  wf := gather_S16000x80_S1600x1_S16000x1600_0_1_n_n_1_1_160001_wf
def gather_S16x1000x16x100_S16x2_S16x1000x100_12_02_n_n_02_1_110001100 : GatherDims S16x1000x16x100 S16x2 S16x1000x100 where
  offsetDims := [1, 2]
  collapsedSliceDims := [0, 2]
  operandBatchingDims := []
  startIndicesBatchingDims := []
  startIndexMap := [0, 2]
  indexVectorDim := 1
  sliceSizes := ![1, 1000, 1, 100]
  wf := gather_S16x1000x16x100_S16x2_S16x1000x100_12_02_n_n_02_1_110001100_wf
def gather_S16x1000x16x8_S16x2_S16x1000x8_12_02_n_n_02_1_1100018 : GatherDims S16x1000x16x8 S16x2 S16x1000x8 where
  offsetDims := [1, 2]
  collapsedSliceDims := [0, 2]
  operandBatchingDims := []
  startIndicesBatchingDims := []
  startIndexMap := [0, 2]
  indexVectorDim := 1
  sliceSizes := ![1, 1000, 1, 8]
  wf := gather_S16x1000x16x8_S16x2_S16x1000x8_12_02_n_n_02_1_1100018_wf

class Facts : Prop extends Facts₀ where

variable [Facts]
-- ==== Proof.Spec.lean ====
/-
  One (query, target) matching cost and one (query, ignore box) overlap, over the extended reals, as functions of the
  scalars they depend on.

  A box is its corner coordinates x1, y1, x2, y2 at positions 0 to 3. For a query box `a` with class logit `x` at the
  target's label, a target box `b`, and the image sizes `sa`, `sb` the two are normalised by:
    cost = 5 · L1(a / sa, b / sb) + 2 · focal(σ(x)) + 2 · (0 − GIoU(a, b)),
  where σ is the logistic function, focal(p) = ¼ (1 − p)² (−log (p + ε)) − ¾ p² (−log (1 − p + ε)) is the focal
  classification cost at exponent 2, and GIoU is the intersection over union less the share of the enclosing box the
  union leaves empty. For an ignore box `g`, ioa = |a ∩ g| / |a|: the part of the query box the ignore box covers.
  The float words are kept as the words both programs spell; quotients are the extended reals' (`Ideal.div`).
-/
import Idealize.ShloMosaic.PureOps.Ideal

noncomputable section

namespace Cert.Matching

open Idealize.ShloMosaic

/-- The seven float words of the two programs, read as extended reals: 0, 1, 2, 5, 3/4, 1/4 and f32(1e-8). -/
abbrev w0 : EReal := Ideal.ofBits .f32 0x00000000#32
abbrev w1 : EReal := Ideal.ofBits .f32 0x3F800000#32
abbrev w2 : EReal := Ideal.ofBits .f32 0x40000000#32
abbrev w5 : EReal := Ideal.ofBits .f32 0x40A00000#32
abbrev w34 : EReal := Ideal.ofBits .f32 0x3F400000#32
abbrev w14 : EReal := Ideal.ofBits .f32 0x3E800000#32
abbrev weps : EReal := Ideal.ofBits .f32 0x322BCC77#32

/-- The absolute value, as a maximum with the negation. -/
def absE (x : EReal) : EReal := max x (-x)

/-- A box's area: width times height (signed: nothing orders the corners). -/
def area (a : Fin 4 → EReal) : EReal := (a 2 - a 0) * (a 3 - a 1)

/-- The area two boxes share: the overlap of their x-ranges times that of their y-ranges, each clipped at zero. -/
def inter (a b : Fin 4 → EReal) : EReal :=
  max w0 (min (a 2) (b 2) - max (a 0) (b 0)) * max w0 (min (a 3) (b 3) - max (a 1) (b 1))

/-- The area of the smallest box enclosing both. -/
def hull (a b : Fin 4 → EReal) : EReal :=
  max w0 (max (a 2) (b 2) - min (a 0) (b 0)) * max w0 (max (a 3) (b 3) - min (a 1) (b 1))

/-- The union's area, by inclusion and exclusion. -/
def union (a b : Fin 4 → EReal) : EReal := area a + area b - inter a b

/-- Generalised intersection over union. -/
def giou (a b : Fin 4 → EReal) : EReal :=
  Ideal.div (inter a b) (union a b) - Ideal.div (hull a b - union a b) (hull a b)

/-- The L1 distance of the two boxes after each coordinate is divided by its image size, summed left to right. -/
def l1 (a b sa sb : Fin 4 → EReal) : EReal :=
  absE (Ideal.div (a 0) (sa 0) - Ideal.div (b 0) (sb 0)) + absE (Ideal.div (a 1) (sa 1) - Ideal.div (b 1) (sb 1))
    + absE (Ideal.div (a 2) (sa 2) - Ideal.div (b 2) (sb 2)) + absE (Ideal.div (a 3) (sa 3) - Ideal.div (b 3) (sb 3))

/-- The focal classification cost of a probability `p` at exponent 2: the positive term less the negative term. -/
def focal (p : EReal) : EReal :=
  w14 * Ideal.pow (w1 - p) w2 * (-(Ideal.log (p + weps))) - w34 * Ideal.pow p w2 * (-(Ideal.log (w1 - p + weps)))

/-- The matching cost of a query (logit `x` at the target's label, box `a`, image size `sa`) and a target (box `b`,
    image size `sb`). -/
def cost (x : EReal) (a b sa sb : Fin 4 → EReal) : EReal :=
  w5 * l1 a b sa sb + w2 * focal (Ideal.logistic x) + w2 * (w0 - giou a b)

/-- The part of the query box `a` that the ignore box `g` covers. -/
def ioa (a g : Fin 4 → EReal) : EReal := Ideal.div (inter a g) (area a)

/-! The flat arrays hold image `b`'s 1000 queries, 100 targets and 8 ignore boxes in consecutive rows. -/

/-- Query `q` of image `b`, as a row of the 16000 queries. -/
def qRow (b : Fin 16) (q : Fin 1000) : Fin 16000 := ⟨b.val * 1000 + q.val, by omega⟩
/-- Target `t` of image `b`, as a row of the 1600 targets. -/
def tRow (b : Fin 16) (t : Fin 100) : Fin 1600 := ⟨b.val * 100 + t.val, by omega⟩
/-- Ignore box `j` of image `b`, as a row of the 128 ignore boxes. -/
def gRow (b : Fin 16) (j : Fin 8) : Fin 128 := ⟨b.val * 8 + j.val, by omega⟩

end Cert.Matching

end
-- ==== Proof.Results.lean ====
/-
  The two result arrays as functions of the argument arrays, entry by entry: entry (b, q, t) of the first is the
  matching cost of query q and target t of image b, with the class logit taken at the target's label; entry
  (b, q, j) of the second is the part of query box q of image b that ignore box j of that image covers.
-/
import proofs.«406872_j85916525789875_2_alg».proof.Proof.Spec
import Idealize.ShloMosaic.Lib.ValueIdx

noncomputable section

namespace Cert.Matching

open Idealize.ShloMosaic Idealize.ShloMosaic.ValueIdx

/-- The class index a target's label word names. A word outside 0..79 is reduced into that range so that the function
    is total; the precondition excludes such words (`labelOf_val`). -/
def labelOf (ids : (⟨1, ![1600]⟩ : Shape).Idx → BitVec 32) (b : Fin 16) (t : Fin 100) : Fin 80 :=
  ⟨(ids (ix1 (tRow b t))).toInt.toNat % 80, Nat.mod_lt _ (by decide)⟩

/-- For a label that is a class index, the word read as a signed integer is that index. -/
theorem labelOf_val (ids : (⟨1, ![1600]⟩ : Shape).Idx → BitVec 32) (b : Fin 16) (t : Fin 100)
    (h : 0 ≤ (ids (ix1 (tRow b t))).toInt ∧ (ids (ix1 (tRow b t))).toInt < 80) :
    (ids (ix1 (tRow b t))).toInt = ((labelOf ids b t).val : ℤ) := by
  obtain ⟨h0, h1⟩ := h
  show _ = (((ids (ix1 (tRow b t))).toInt.toNat % 80 : ℕ) : ℤ)
  omega

/-- The matching costs of every image's queries against its own targets. -/
def costArr (a0 : (⟨3, ![16, 1000, 80]⟩ : Shape).Idx → EReal) (a1 : (⟨3, ![16, 1000, 4]⟩ : Shape).Idx → EReal)
    (a2 : (⟨2, ![1600, 4]⟩ : Shape).Idx → EReal) (a4 : (⟨2, ![16, 4]⟩ : Shape).Idx → EReal)
    (a5 : (⟨2, ![1600, 4]⟩ : Shape).Idx → EReal) (a6 : (⟨1, ![1600]⟩ : Shape).Idx → BitVec 32) :
    (⟨3, ![16, 1000, 100]⟩ : Shape).Idx → EReal :=
  fun i => cost (a0 (ix3 (i 0) (i 1) (labelOf a6 (i 0) (i 2)))) (fun k => a1 (ix3 (i 0) (i 1) k))
    (fun k => a2 (ix2 (tRow (i 0) (i 2)) k)) (fun k => a4 (ix2 (i 0) k)) (fun k => a5 (ix2 (tRow (i 0) (i 2)) k))

/-- The overlaps of every image's queries with its own ignore boxes. -/
def ioaArr (a1 : (⟨3, ![16, 1000, 4]⟩ : Shape).Idx → EReal) (a3 : (⟨2, ![128, 4]⟩ : Shape).Idx → EReal) :
    (⟨3, ![16, 1000, 8]⟩ : Shape).Idx → EReal :=
  fun i => ioa (fun k => a1 (ix3 (i 0) (i 1) k)) (fun k => a3 (ix2 (gRow (i 0) (i 2)) k))

end Cert.Matching

end
-- ==== Proof.PreFacts.lean ====
/-
  What the precondition says of the arrays, entry by entry, at the extended reals: every class logit is a real
  number, every target label is a class index below 80, and no query box has zero area.
-/
import proofs.«406872_j85916525789875_2_alg».proof.Pre_finite_inputs
import proofs.«406872_j85916525789875_2_alg».proof.Proof.Spec
import Idealize.ShloMosaic.Lib.ValueIdx
import Idealize.ShloMosaic.Lib.ReduceAll
import Idealize.ShloMosaic.Lib.StableHlo.Predicate
import Idealize.ShloMosaic.Lib.Pipeline.Value

noncomputable section

namespace Cert.Matching.Pre

open Idealize.ShloMosaic Idealize.ShloMosaic.ValueIdx Cert.Pre_finite_inputs Cert.Matching

variable [Cert.Pre_finite_inputs.Facts]

namespace PreAux

/-- The scalar shape has one index. -/
instance subsingleton_scalar_idx : Subsingleton S_.Idx := ⟨fun a b => funext fun d => d.elim0⟩

/-- A truth value as a one-bit word is 1 exactly when it is true. -/
theorem ofBool_one (c : Bool) : BitVec.ofBool c = 1#1 ↔ c = true := by cases c <;> decide

/-- The word 0x7F800000 is +∞. -/
theorem inf_word : Ideal.ofBits .f32 0x7F800000#32 = (⊤ : EReal) := by simp [Ideal.ofBits, Ideal.ieee]

/-- The zero word is 0. -/
theorem zero_word : Ideal.ofBits .f32 0x00000000#32 = (0 : EReal) := by simp [Ideal.ofBits, Ideal.ieee]

/-- An extended real whose absolute value is below +∞ is a real number: it is neither infinity. -/
theorem real_of_abs_lt_inf (x : EReal) (h : Ideal.cmp .olt (max x (-x)) (Ideal.ofBits .f32 0x7F800000#32) = 1#1) :
    ∃ r : ℝ, x = (r : EReal) := by
  rw [inf_word] at h
  have hlt : max x (-x) < ⊤ := of_decide_eq_true ((ofBool_one _).1 h)
  rw [max_lt_iff] at hlt
  induction x using EReal.rec with
  | bot => exact absurd hlt.2 (by simp)
  | coe r => exact ⟨r, rfl⟩
  | top => exact absurd hlt.1 (by simp)

/-- Column `o` of the query boxes, as the precondition cuts it out (a unit slice on the last axis, then the unit axis
    dropped), read at image `b` and query `q`: the box's coordinate `o`. -/
theorem col_apply (a1 : FVec Ideal S16x1000x4 .f32) (o : Nat) (ho : o < 4) (hs : S16x1000x4.Slices ![0, 0, o] S16x1000x1)
    (hc : S16x1000x1.ShapeCasts S16x1000) (b : Fin 16) (q : Fin 1000) :
    shapeCast S16x1000 (extractStridedSlice S16x1000x1 ![0, 0, o] a1 hs) hc (ix2 b q) = a1 (ix3 b q ⟨o, ho⟩) := by
  refine (shapeCast_apply _ hc (ix2 b q) (ix3 b q (0 : Fin 1)) ?_).trans ?_
  · rw [Shape.rowMajor_val_three, Shape.rowMajor_val_two]
    show (b.val * 1000 + q.val) * 1 + 0 = b.val * 1000 + q.val
    omega
  · refine extractStridedSlice_apply _ a1 hs (ix3 b q (0 : Fin 1)) (ix3 b q ⟨o, ho⟩) fun a => ?_
    match a with
    | ⟨0, _⟩ => show b.val = 0 + b.val; omega
    | ⟨1, _⟩ => show q.val = 0 + q.val; omega
    | ⟨2, _⟩ => show o = o + 0; omega

/-- The precondition's conjuncts this certificate uses, each read at one entry: the first array's entries are below
    +∞ in absolute value, the labels are at least 0 and below 80 as signed words, and each query box's width times
    height is not the zero word's value. -/
theorem split (a0 : FVec Ideal S16x1000x80 .f32) (a1 : FVec Ideal S16x1000x4 .f32) (a2 : FVec Ideal S1600x4 .f32)
    (a3 : FVec Ideal S128x4 .f32) (a4 : FVec Ideal S16x4 .f32) (a5 : FVec Ideal S1600x4 .f32) (a6 : IVec S1600 32)
    (h : Cert.Pre_finite_inputs.fn (F := Ideal) a0 a1 a2 a3 a4 a5 a6 = fun _ => 1#1) :
    (∀ i : S16x1000x80.Idx, Ideal.cmp .olt (max (a0 i) (-(a0 i))) (Ideal.ofBits .f32 0x7F800000#32) = 1#1)
    ∧ (∀ T : Fin 1600, IntOp.cmpi .sge (a6 (ix1 T)) 0#32 = 1#1)
    ∧ (∀ T : Fin 1600, IntOp.cmpi .slt (a6 (ix1 T)) 80#32 = 1#1)
    ∧ (∀ (b : Fin 16) (q : Fin 1000),
        Ideal.cmp .une ((a1 (ix3 b q 2) - a1 (ix3 b q 0)) * (a1 (ix3 b q 3) - a1 (ix3 b q 1)))
          (Ideal.ofBits .f32 0x00000000#32) = 1#1) := by
  have e := congrFun h ix0
  dsimp only [fn, fn_part1, fn_part2] at e
  simp only [andi, IntOp.andi_eq_one] at e
  obtain ⟨⟨⟨⟨⟨⟨⟨⟨h0, -⟩, -⟩, -⟩, -⟩, -⟩, h6⟩, h7⟩, h8⟩ := e
  refine ⟨fun i => ?_, fun T => ?_, fun T => ?_, fun b q => ?_⟩
  · exact Host.reduce_andi_all _ _ _ _ _ h0 i
  · exact Host.reduce_andi_all _ _ _ _ _ h6 (ix1 T)
  · exact Host.reduce_andi_all _ _ _ _ _ h7 (ix1 T)
  · have e8 := Host.reduce_andi_all _ _ _ _ _ h8 (ix2 b q)
    rw [cmpf_apply, mulf_apply, subf_apply, subf_apply] at e8
    rw [col_apply a1 2 (by omega), col_apply a1 0 (by omega), col_apply a1 3 (by omega), col_apply a1 1 (by omega)] at e8
    exact e8

end PreAux

open PreAux

/-- Every class logit is a real number. -/
theorem logit_real (a0 : FVec Ideal S16x1000x80 .f32) (a1 : FVec Ideal S16x1000x4 .f32) (a2 : FVec Ideal S1600x4 .f32)
    (a3 : FVec Ideal S128x4 .f32) (a4 : FVec Ideal S16x4 .f32) (a5 : FVec Ideal S1600x4 .f32) (a6 : IVec S1600 32)
    (h : Cert.Pre_finite_inputs.fn (F := Ideal) a0 a1 a2 a3 a4 a5 a6 = fun _ => 1#1) (i : S16x1000x80.Idx) :
    ∃ r : ℝ, a0 i = (r : EReal) := by
  exact real_of_abs_lt_inf (a0 i) ((split a0 a1 a2 a3 a4 a5 a6 h).1 i)

/-- Every target label, read as a signed word, is a class index: at least 0 and below 80. -/
theorem label_range (a0 : FVec Ideal S16x1000x80 .f32) (a1 : FVec Ideal S16x1000x4 .f32) (a2 : FVec Ideal S1600x4 .f32)
    (a3 : FVec Ideal S128x4 .f32) (a4 : FVec Ideal S16x4 .f32) (a5 : FVec Ideal S1600x4 .f32) (a6 : IVec S1600 32)
    (h : Cert.Pre_finite_inputs.fn (F := Ideal) a0 a1 a2 a3 a4 a5 a6 = fun _ => 1#1) (T : Fin 1600) :
    0 ≤ (a6 (ix1 T)).toInt ∧ (a6 (ix1 T)).toInt < 80 := by
  obtain ⟨-, hge, hlt, -⟩ := split a0 a1 a2 a3 a4 a5 a6 h
  have h0 := IntOp.cmpi_sge.1 (hge T)
  have h80 := IntOp.cmpi_slt.1 (hlt T)
  have e0 : (0#32 : BitVec 32).toInt = 0 := by decide
  have e80 : (80#32 : BitVec 32).toInt = 80 := by decide
  rw [e0] at h0
  rw [e80] at h80
  exact ⟨h0, h80⟩

/-- No query box has zero area. -/
theorem area_ne_zero (a0 : FVec Ideal S16x1000x80 .f32) (a1 : FVec Ideal S16x1000x4 .f32) (a2 : FVec Ideal S1600x4 .f32)
    (a3 : FVec Ideal S128x4 .f32) (a4 : FVec Ideal S16x4 .f32) (a5 : FVec Ideal S1600x4 .f32) (a6 : IVec S1600 32)
    (h : Cert.Pre_finite_inputs.fn (F := Ideal) a0 a1 a2 a3 a4 a5 a6 = fun _ => 1#1) (b : Fin 16) (q : Fin 1000) :
    area (fun k => a1 (ix3 b q k)) ≠ 0 := by
  have e := (split a0 a1 a2 a3 a4 a5 a6 h).2.2.2 b q
  rw [zero_word] at e
  have hne : (a1 (ix3 b q 2) - a1 (ix3 b q 0)) * (a1 (ix3 b q 3) - a1 (ix3 b q 1)) ≠ 0 :=
    of_decide_eq_true ((ofBool_one _).1 e)
  unfold area
  exact hne

end Cert.Matching.Pre

end
-- ==== Proof.Algebra.lean ====
/-
  The laws on the extended reals that join the two spellings of the matching cost: what the float words denote, the
  focal cost on a clipped probability with squares written as products, a residual that vanishes on real numbers, a
  sum against an indicator, a quotient written as a product with a reciprocal, and a four-term sum.
-/
import proofs.«406872_j85916525789875_2_alg».proof.Proof.Spec
import Mathlib.Data.EReal.Inv
import Mathlib.Analysis.SpecialFunctions.Pow.Real
import Mathlib.Algebra.BigOperators.Fin

noncomputable section

namespace Cert.Matching

open Idealize.ShloMosaic

/-- The zero word is 0. -/
theorem w0_eq : w0 = 0 := by
  simp [Ideal.ofBits, Ideal.ieee]

/-- The word 0x3F800000 is 1. -/
theorem w1_eq : w1 = 1 := by
  simp [Ideal.ofBits, Ideal.ieee, -EReal.coe_mul]; norm_num

/-- Negation is the difference from the zero word. -/
theorem neg_eq_w0_sub (x : EReal) : -x = w0 - x := by
  rw [w0_eq, sub_eq_add_neg, zero_add]

/-! Laws of this file's own, kept under a name of their own: what the remaining float words denote, the logistic value
    at a real logit, and the clip, the power 2 and the complement on real numbers. -/
namespace AlgebraAux

/-- The word 0x40000000 is the real number 2. -/
theorem w2_eq : w2 = ((2 : ℝ) : EReal) := by
  simp [Ideal.ofBits, Ideal.ieee, -EReal.coe_mul]; norm_num

/-- The word 0x3E800000 is the real number 1/4. -/
theorem w14_eq : w14 = ((1 / 4 : ℝ) : EReal) := by
  simp [Ideal.ofBits, Ideal.ieee, -EReal.coe_mul]; norm_num

/-- The word 0x3F400000 is the real number 3/4. -/
theorem w34_eq : w34 = ((3 / 4 : ℝ) : EReal) := by
  simp [Ideal.ofBits, Ideal.ieee, -EReal.coe_mul]; norm_num

/-- The word 0x322BCC77 is a nonnegative real number: sign bit clear, exponent field 100, so
    (2^23 + 2870391) · 2^(100 - 127 - 23) = 11258999 / 2^50. Only its sign is used. -/
theorem weps_real : ∃ e : ℝ, 0 ≤ e ∧ weps = (e : EReal) := by
  refine ⟨(11258999 : ℝ) / 2 ^ 50, by positivity, ?_⟩
  simp [Ideal.ofBits, Ideal.ieee, -EReal.coe_mul]; norm_num

/-- The logistic value at a real logit is the real number 1 / (1 + e^(-x)), strictly between 0 and 1. -/
theorem logistic_real (x : ℝ) : ∃ p : ℝ, 0 < p ∧ p < 1 ∧ Ideal.logistic (x : EReal) = (p : EReal) := by
  have hpos : (0 : ℝ) < Real.exp (-x) := Real.exp_pos (-x)
  refine ⟨(1 + Real.exp (-x))⁻¹, by positivity, ?_, Ideal.logistic_coe x⟩
  exact inv_lt_one_of_one_lt₀ (by linarith)

/-- A real number in [0, 1] passes the clip to [w0, w1] unchanged. -/
theorem clip_coe {p : ℝ} (h0 : 0 ≤ p) (h1 : p ≤ 1) : min w1 (max w0 (p : EReal)) = (p : EReal) := by
  have e0 : (0 : EReal) ≤ (p : EReal) := by exact_mod_cast h0
  have e1 : (p : EReal) ≤ 1 := by exact_mod_cast h1
  rw [w0_eq, w1_eq, max_eq_right e0, min_eq_right e1]

/-- A real number's power 2 is its product with itself. -/
theorem pow_w2_coe (r : ℝ) : Ideal.pow (r : EReal) w2 = (r : EReal) * (r : EReal) := by
  rw [w2_eq, Ideal.pow_coe_coe, ← EReal.coe_mul]
  congr 1
  rw [Real.rpow_eq_pow, Real.rpow_two, sq]

/-- The complement of a real number to the word 1 is the real complement. -/
theorem w1_sub_coe (p : ℝ) : w1 - (p : EReal) = ((1 - p : ℝ) : EReal) := by
  rw [w1_eq, ← EReal.coe_one, ← EReal.coe_sub]

end AlgebraAux

open AlgebraAux

/-- The focal cost as a vector unit computes it from a logistic value `s`: on `s` clipped to [0, 1], each square a
    product, each negation a difference from zero. -/
def focalClip (s : EReal) : EReal :=
  w14 * ((w1 - min w1 (max w0 s)) * (w1 - min w1 (max w0 s))) * (w0 - Ideal.log (min w1 (max w0 s) + weps))
    - w34 * (min w1 (max w0 s) * min w1 (max w0 s)) * (w0 - Ideal.log (w1 - min w1 (max w0 s) + weps))

/-- At a real logit the logistic value lies strictly between 0 and 1, so the clip does nothing, and a real number's
    power 2 is its square: the two spellings of the focal cost agree. -/
theorem focalClip_logistic (x : ℝ) : focalClip (Ideal.logistic (x : EReal)) = focal (Ideal.logistic (x : EReal)) := by
  obtain ⟨p, hp0, hp1, hp⟩ := logistic_real x
  rw [hp, focalClip, focal, clip_coe hp0.le hp1.le, ← neg_eq_w0_sub, ← neg_eq_w0_sub, w1_sub_coe, pow_w2_coe,
    pow_w2_coe]

/-- And the cost is a real number there: both logarithms are of positive reals. -/
theorem focalClip_logistic_real (x : ℝ) : ∃ r : ℝ, focalClip (Ideal.logistic (x : EReal)) = (r : EReal) := by
  obtain ⟨p, hp0, hp1, hp⟩ := logistic_real x
  obtain ⟨e, he0, he⟩ := weps_real
  have hl1 : Ideal.log ((p : EReal) + weps) = ((Real.log (p + e) : ℝ) : EReal) := by
    rw [he, ← EReal.coe_add, Ideal.log_coe, if_neg (not_le.mpr (by linarith))]
  have hl2 : Ideal.log (((1 - p : ℝ) : EReal) + weps) = ((Real.log (1 - p + e) : ℝ) : EReal) := by
    rw [he, ← EReal.coe_add, Ideal.log_coe, if_neg (not_le.mpr (by linarith))]
  refine ⟨1 / 4 * ((1 - p) * (1 - p)) * (-Real.log (p + e)) - 3 / 4 * (p * p) * (-Real.log (1 - p + e)), ?_⟩
  rw [hp, focalClip, clip_coe hp0.le hp1.le, ← neg_eq_w0_sub, ← neg_eq_w0_sub, w1_sub_coe, hl1, hl2, w14_eq, w34_eq]
  simp only [EReal.coe_sub, EReal.coe_mul, EReal.coe_neg]

/-- A row of real numbers summed against the indicator of one position, plus the same sum of the row's residual
    `f k - f k` (zero on reals), is the row's entry there. -/
theorem sum_indicator_residual (f oh : Fin 80 → EReal) (kk : Fin 80) (hf : ∀ k, ∃ r : ℝ, f k = (r : EReal))
    (hoh : ∀ k, oh k = if k = kk then (1 : EReal) else 0) :
    (∑ k, f k * oh k) + (∑ k, (f k - f k) * oh k) = f kk := by
  have hres : ∀ k ∈ Finset.univ, (f k - f k) * oh k = 0 := by
    intro k _
    obtain ⟨r, hr⟩ := hf k
    rw [hr, ← EReal.coe_sub, sub_self, EReal.coe_zero, zero_mul]
  rw [Finset.sum_eq_zero hres, add_zero, Finset.sum_eq_single kk]
  · rw [hoh kk, if_pos rfl, mul_one]
  · intro k _ hk
    rw [hoh k, if_neg hk, mul_zero]
  · intro h
    exact absurd (Finset.mem_univ kk) h

/-- Off a zero divisor a product with the reciprocal is the quotient. -/
theorem mul_recip (i a : EReal) (ha : a ≠ 0) : i * Ideal.div w1 a = Ideal.div i a := by
  rw [Ideal.div, Ideal.div, if_neg ha, if_neg ha, w1_eq, one_mul]

/-- The shared area does not depend on the order of the two boxes. -/
theorem inter_comm (a g : Fin 4 → EReal) : inter g a = inter a g := by
  rw [inter, inter, min_comm (g 2) (a 2), max_comm (g 0) (a 0), min_comm (g 3) (a 3), max_comm (g 1) (a 1)]

/-- A sum over four positions from the zero word, written out left to right. -/
theorem sum_four (f : Fin 4 → EReal) : w0 + ∑ k, f k = f 0 + f 1 + f 2 + f 3 := by
  rw [w0_eq, zero_add, Fin.sum_univ_four]

end Cert.Matching

end
-- ==== Proof.KernelClass.lean ====
/-
  The kernel's class cost of one (query, target) pair. The body computes the focal cost of every class of the query,
  splits it into a leading part and a residual, and multiplies each by the target's indicator row on the matrix
  unit. Over the extended reals the residual of a real number is zero and the product with an indicator row picks
  one entry, so the pair's class cost is the focal cost at the target's label.
-/
import proofs.«406872_j85916525789875_2_alg».proof.Proof.Gen.KernelIdeal.Frame
import proofs.«406872_j85916525789875_2_alg».proof.Proof.Spec
import proofs.«406872_j85916525789875_2_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Gen Cert.Matching

namespace ClassRead

/-! ## The whole-block loads -/

/-- The offsets of a rank-3 whole-block rectangle are all zero. -/
theorem off3_zero : (![0, 0, 0] : Fin 3 → Nat) = fun _ => 0 := funext fun a => by fin_cases a <;> rfl

/-- The logits block is loaded whole. -/
theorem ld_logits (x0 : Vec Ideal S1x1000x80 .f32) : View.ld x0 r0_0 = x0 :=
  View.ld_unit_zero (S := S1x1000x80) off3_zero _ x0

/-- The indicator block is loaded whole. -/
theorem ld_indicators (x3 : Vec Ideal S1x100x80 .f32) : View.ld x3 r0_1 = x3 :=
  View.ld_unit_zero (S := S1x100x80) off3_zero _ x3

/-! ## The focal cost of every class, its leading part, its residual, and the indicator block, at an entry -/

/-- A logarithm of a vector at an index is the logarithm of the element. -/
theorem log_at {s : Shape} {φ : FTy} (a : FVec Ideal s φ) (i : s.Idx) : log a i = Ideal.log (a i) := rfl

/-- A logistic of a vector at an index is the logistic of the element. -/
theorem logistic_at {s : Shape} {φ : FTy} (a : FVec Ideal s φ) (i : s.Idx) : logistic a i = Ideal.logistic (a i) := rfl

/-- Entry (q, k) of the focal cost block is the clipped focal cost of the logistic value of logit (q, k). -/
theorem focal_block_apply (x0 : Vec Ideal S1x1000x80 .f32) (q : Fin 1000) (k : Fin 80) :
    k0_pay2 (F := Ideal) x0 (ix2 q k) = focalClip (Ideal.logistic (x0 (ix3 0 q k))) := by
  unfold k0_pay2 focalClip
  simp only [subf_apply, mulf_apply, addf_apply, broadcast_apply, maximumf_apply, minimumf_apply, log_at, logistic_at,
    shapeCast_1ab_ab_apply]
  rfl

/-- The leading part of the focal cost block: over the extended reals the narrowing changes nothing. -/
theorem leading_apply (x0 : Vec Ideal S1x1000x80 .f32) (q : Fin 1000) (k : Fin 80) :
    (truncf .bf16 (k0_pay2 (F := Ideal) x0) bitsLt_bf16_f32 : FVec Ideal S1000x80 .bf16) (ix2 q k)
      = focalClip (Ideal.logistic (x0 (ix3 0 q k))) := by
  rw [truncf_apply, focal_block_apply]

/-- The residual of the focal cost block: the block less its leading part, which over the extended reals is the block
    less itself. -/
theorem residual_apply (x0 : Vec Ideal S1x1000x80 .f32) (q : Fin 1000) (k : Fin 80) :
    k0_pay4 (F := Ideal) x0 (ix2 q k)
      = focalClip (Ideal.logistic (x0 (ix3 0 q k))) - focalClip (Ideal.logistic (x0 (ix3 0 q k))) := by
  unfold k0_pay4
  simp only [truncf_apply, subf_apply, focal_block_apply]

/-- Entry (t, k) of the narrowed indicator block is the indicator entry (t, k). -/
theorem indicator_apply (x3 : Vec Ideal S1x100x80 .f32) (t : Fin 100) (k : Fin 80) :
    k0_pay3 (F := Ideal) x3 (ix2 t k) = x3 (ix3 0 t k) := by
  unfold k0_pay3
  simp only [truncf_apply, shapeCast_1ab_ab_apply]

/-! ## A product on the matrix unit, contracting the class axis of both operands, at an entry -/

/-- The left operand is read at the output's row … -/
theorem lhs_class_0 (j : S1000x100.Idx) (k : dot_S1000x80_S100x80_S1000x100_1_1_0_0_n_n.contr.Idx) :
    (dot_S1000x80_S100x80_S1000x100_1_1_0_0_n_n.lhsIdx j k 0).val = (j 0).val := rfl

/-- … and at the contraction position; -/
theorem lhs_class_1 (j : S1000x100.Idx) (k : dot_S1000x80_S100x80_S1000x100_1_1_0_0_n_n.contr.Idx) :
    (dot_S1000x80_S100x80_S1000x100_1_1_0_0_n_n.lhsIdx j k 1).val = (k ⟨0, by decide⟩).val :=
  dot_S1000x80_S100x80_S1000x100_1_1_0_0_n_n.lhsIdx_val_of_single rfl j k

/-- the right operand at the output's column … -/
theorem rhs_class_0 (j : S1000x100.Idx) (k : dot_S1000x80_S100x80_S1000x100_1_1_0_0_n_n.contr.Idx) :
    (dot_S1000x80_S100x80_S1000x100_1_1_0_0_n_n.rhsIdx j k 0).val = (j 1).val := rfl

/-- … and at the contraction position. -/
theorem rhs_class_1 (j : S1000x100.Idx) (k : dot_S1000x80_S100x80_S1000x100_1_1_0_0_n_n.contr.Idx) :
    (dot_S1000x80_S100x80_S1000x100_1_1_0_0_n_n.rhsIdx j k 1).val = (k ⟨0, by decide⟩).val :=
  dot_S1000x80_S100x80_S1000x100_1_1_0_0_n_n.rhsIdx_val_of_single rfl j k

/-- Entry (q, t) of the product into the zero block is the sum over the 80 classes of the products of row `q` of the
    left operand with row `t` of the right. -/
theorem matmul_class_apply {φ₁ φ₂ : FTy} (A : FVec Ideal S1000x80 φ₁) (B : FVec Ideal S100x80 φ₂) (q : Fin 1000) (t : Fin 100) :
    matmul dot_S1000x80_S100x80_S1000x100_1_1_0_0_n_n none A B (constant (F := Ideal) S1000x100 .f32 0x00000000#32) (ix2 q t)
      = ∑ k : Fin 80, A (ix2 q k) * B (ix2 t k) := by
  show FloatOps.matmul _ none A B _ (ix2 q t) = _
  rw [Ideal.matmul_constant_zero_apply,
    ← Equiv.sum_comp (contrEquiv1 dot_S1000x80_S100x80_S1000x100_1_1_0_0_n_n 80 rfl rfl).symm]
  refine Finset.sum_congr rfl fun c _ => ?_
  have hc := contrEquiv1_symm_val dot_S1000x80_S100x80_S1000x100_1_1_0_0_n_n 80 rfl rfl c
  have hl : dot_S1000x80_S100x80_S1000x100_1_1_0_0_n_n.lhsIdx (ix2 q t)
      ((contrEquiv1 dot_S1000x80_S100x80_S1000x100_1_1_0_0_n_n 80 rfl rfl).symm c) = ix2 q c := by
    funext ax; apply Fin.ext
    match ax with
    | ⟨0, _⟩ => exact lhs_class_0 _ _
    | ⟨1, _⟩ => exact (lhs_class_1 _ _).trans hc
  have hr : dot_S1000x80_S100x80_S1000x100_1_1_0_0_n_n.rhsIdx (ix2 q t)
      ((contrEquiv1 dot_S1000x80_S100x80_S1000x100_1_1_0_0_n_n 80 rfl rfl).symm c) = ix2 t c := by
    funext ax; apply Fin.ext
    match ax with
    | ⟨0, _⟩ => exact rhs_class_0 _ _
    | ⟨1, _⟩ => exact (rhs_class_1 _ _).trans hc
  rw [hl, hr]

end ClassRead

open ClassRead

/-! ## The pair's class cost -/

/-- Entry (q, t) of the sum of the two matrix products, from the logits block `x0` and the indicator block `x3`:
    when row `q` of the logits is real and row `t` of the indicators marks class `kk`, it is the focal cost of
    the logistic value of logit (q, kk). -/
theorem class_block (x0 : Vec Ideal S1x1000x80 .f32) (x3 : Vec Ideal S1x100x80 .f32) (q : Fin 1000) (t : Fin 100) (kk : Fin 80)
    (hx : ∀ k : Fin 80, ∃ r : ℝ, x0 (ix3 0 q k) = (r : EReal))
    (hoh : ∀ k : Fin 80, x3 (ix3 0 t k) = if k = kk then (1 : EReal) else 0) :
    k0_pay6 (F := Ideal) (k0_pay3 (View.ld x3 r0_1)) (k0_pay4 (View.ld x0 r0_0)) (k0_pay5 (View.ld x0 r0_0) (View.ld x3 r0_1))
        (constant S1000x100 .f32 0x00000000#32) (ix2 q t)
      = focal (Ideal.logistic (x0 (ix3 0 q kk))) := by
  rw [ld_logits, ld_indicators]
  unfold k0_pay6 k0_pay5
  simp only [addf_apply, matmul_class_apply, truncf_apply, focal_block_apply, residual_apply, indicator_apply]
  -- every focal cost of row q is a real number, the logits of the row being real
  have hf : ∀ k : Fin 80, ∃ r : ℝ, focalClip (Ideal.logistic (x0 (ix3 0 q k))) = (r : EReal) := fun k => by
    obtain ⟨r, hr⟩ := hx k
    rw [hr]
    exact focalClip_logistic_real r
  -- so the residual's product vanishes and the leading part's product picks the entry at the target's label
  refine (sum_indicator_residual (fun k => focalClip (Ideal.logistic (x0 (ix3 0 q k)))) (fun k => x3 (ix3 0 t k)) kk hf
    hoh).trans ?_
  obtain ⟨r, hr⟩ := hx kk
  show focalClip (Ideal.logistic (x0 (ix3 0 q kk))) = _
  rw [hr]
  exact focalClip_logistic r

end Cert.KernelIdeal.Bridge

end
-- ==== Proof.KernelCost.lean ====
/-
  What the kernel leaves in the cost window at one grid point, entry by entry: the matching cost of query `q` and
  target `t` of that image, read off the blocks the point loads. The box terms are the body's own operations read at
  the entry (column slices of the query boxes against row slices of the transposed target boxes, broadcast to the
  pair); the class term is the class leg's.
-/
import proofs.«406872_j85916525789875_2_alg».proof.Proof.Gen.KernelIdeal.Frame
import proofs.«406872_j85916525789875_2_alg».proof.Proof.Spec
import proofs.«406872_j85916525789875_2_alg».proof.Proof.Algebra
import proofs.«406872_j85916525789875_2_alg».proof.Proof.KernelClass
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Gen Cert.Matching

namespace CostRead

/-! ## Layout operations at an entry -/

/-- The offsets of a whole block are zero on every axis. -/
theorem zero_offsets3 : (![0, 0, 0] : Fin 3 → Nat) = fun _ => 0 :=
  funext fun a => match a with | ⟨0, _⟩ => rfl | ⟨1, _⟩ => rfl | ⟨2, _⟩ => rfl

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `c` of a four-column matrix, cut out as a one-column matrix, read at row `q`. -/
theorem col_apply {α : Type} (X : S1000x4.Idx → α) (o : Nat) (h : S1000x4.Slices ![0, o] S1000x1) (q : Fin 1000) (c : Fin 4)
    (hc : c.val = o) : extractStridedSlice S1000x1 ![0, o] X h (ix2 q (0 : Fin 1)) = X (ix2 q c) :=
  slice2_axis1_apply o X h q 0 c (by rw [hc]; rfl)

/-- Row `c` of a four-row matrix, cut out as a one-row matrix, read at column `t`. -/
theorem row_apply {α : Type} (X : S4x100.Idx → α) (o : Nat) (h : S4x100.Slices ![o, 0] S1x100) (t : Fin 100) (c : Fin 4)
    (hc : c.val = o) : extractStridedSlice S1x100 ![o, 0] X h (ix2 (0 : Fin 1) t) = X (ix2 c t) :=
  slice2_axis0_apply o X h 0 t c (by rw [hc]; rfl)

/-- The absolute value of a vector at an entry. -/
theorem absf_apply {s : Shape} {φ : FTy} (a : FVec Ideal s φ) (i : s.Idx) : absf a i = absE (a i) := rfl

/-! ## The blocks without their unit axis -/

theorem pay7_apply (x1 : Vec Ideal S1x1000x4 .f32) (q : Fin 1000) (k : Fin 4) : k0_pay7 x1 (ix2 q k) = x1 (ix3 0 q k) :=
  shapeCast_1ab_ab_apply _ _ q k

theorem pay8_apply (x2 : Vec Ideal S1x100x4 .f32) (t : Fin 100) (k : Fin 4) : k0_pay8 x2 (ix2 t k) = x2 (ix3 0 t k) :=
  shapeCast_1ab_ab_apply _ _ t k

theorem pay10_apply (x5 : Vec Ideal S1x1x4 .f32) (k : Fin 4) : k0_pay10 x5 (ix2 0 k) = x5 (ix3 0 0 k) :=
  shapeCast_1ab_ab_apply _ _ 0 k

theorem pay11_apply (x6 : Vec Ideal S1x100x4 .f32) (t : Fin 100) (k : Fin 4) : k0_pay11 x6 (ix2 t k) = x6 (ix3 0 t k) :=
  shapeCast_1ab_ab_apply _ _ t k

/-! ## The boxes divided by their image sizes -/

/-- The query boxes over the image size, at row `q` and coordinate `k`. -/
theorem pay26_apply (v43 : FVec Ideal S1000x4 .f32) (v49 : FVec Ideal S1x4 .f32) (q : Fin 1000) (k : Fin 4) :
    k0_pay26 v43 v49 (ix2 q k) = Ideal.div (v43 (ix2 q k)) (v49 (ix2 0 k)) := by
  unfold k0_pay26
  show Ideal.div (v43 (ix2 q k)) (broadcastTo S1000x4 v49 _ (ix2 q k)) = _
  rw [broadcastTo_1b_ab_apply]

/-- The target boxes over their image sizes, transposed: at coordinate `k` and target `t`. -/
theorem pay28_apply (v45 v51 : FVec Ideal S100x4 .f32) (k : Fin 4) (t : Fin 100) :
    k0_pay28 v45 v51 (ix2 k t) = Ideal.div (v45 (ix2 t k)) (v51 (ix2 t k)) := by
  unfold k0_pay28
  exact transpose_ix2_apply _ _ k t

theorem pay27_apply (v43 : FVec Ideal S1000x4 .f32) (v49 : FVec Ideal S1x4 .f32) (q : Fin 1000) :
    k0_pay27 v43 v49 (ix2 q 0) = Ideal.div (v43 (ix2 q 3)) (v49 (ix2 0 3)) := by
  unfold k0_pay27
  exact (col_apply _ 3 _ q 3 rfl).trans (pay26_apply v43 v49 q 3)

theorem pay29_apply (v45 v51 : FVec Ideal S100x4 .f32) (t : Fin 100) :
    k0_pay29 v45 v51 (ix2 0 t) = Ideal.div (v45 (ix2 t 3)) (v51 (ix2 t 3)) := by
  unfold k0_pay29
  exact (row_apply _ 3 _ t 3 rfl).trans (pay28_apply v45 v51 3 t)

/-- The first two terms of the L1 distance. -/
theorem pay30_apply (v43 : FVec Ideal S1000x4 .f32) (v45 : FVec Ideal S100x4 .f32) (v49 : FVec Ideal S1x4 .f32)
    (v51 : FVec Ideal S100x4 .f32) (q : Fin 1000) (t : Fin 100) :
    k0_pay30 v43 v45 v49 v51 (ix2 q t)
      = absE (Ideal.div (v43 (ix2 q 0)) (v49 (ix2 0 0)) - Ideal.div (v45 (ix2 t 0)) (v51 (ix2 t 0)))
        + absE (Ideal.div (v43 (ix2 q 1)) (v49 (ix2 0 1)) - Ideal.div (v45 (ix2 t 1)) (v51 (ix2 t 1))) := by
  unfold k0_pay30
  simp only [addf_apply, absf_apply, subf_apply, broadcastTo_a1_ab_apply, broadcastTo_1b_ab_apply]
  rw [col_apply _ 0 _ q 0 rfl, col_apply _ 1 _ q 1 rfl, row_apply _ 0 _ t 0 rfl, row_apply _ 1 _ t 1 rfl]
  simp only [pay26_apply, pay28_apply]

/-- The third term of the L1 distance. -/
theorem pay31_apply (v43 : FVec Ideal S1000x4 .f32) (v45 : FVec Ideal S100x4 .f32) (v49 : FVec Ideal S1x4 .f32)
    (v51 : FVec Ideal S100x4 .f32) (q : Fin 1000) (t : Fin 100) :
    k0_pay31 v43 v45 v49 v51 (ix2 q t)
      = absE (Ideal.div (v43 (ix2 q 2)) (v49 (ix2 0 2)) - Ideal.div (v45 (ix2 t 2)) (v51 (ix2 t 2))) := by
  unfold k0_pay31
  simp only [absf_apply, subf_apply, broadcastTo_a1_ab_apply, broadcastTo_1b_ab_apply]
  rw [col_apply _ 2 _ q 2 rfl, row_apply _ 2 _ t 2 rfl]
  simp only [pay26_apply, pay28_apply]

/-! ## The corner coordinates -/

theorem pay12_apply (x1 : Vec Ideal S1x1000x4 .f32) (q : Fin 1000) : k0_pay12 x1 (ix2 q 0) = x1 (ix3 0 q 0) := by
  unfold k0_pay12
  exact (col_apply _ 0 _ q 0 rfl).trans (pay7_apply x1 q 0)

theorem pay13_apply (x1 : Vec Ideal S1x1000x4 .f32) (q : Fin 1000) : k0_pay13 x1 (ix2 q 0) = x1 (ix3 0 q 1) := by
  unfold k0_pay13
  exact (col_apply _ 1 _ q 1 rfl).trans (pay7_apply x1 q 1)

theorem pay14_apply (x1 : Vec Ideal S1x1000x4 .f32) (q : Fin 1000) : k0_pay14 x1 (ix2 q 0) = x1 (ix3 0 q 2) := by
  unfold k0_pay14
  exact (col_apply _ 2 _ q 2 rfl).trans (pay7_apply x1 q 2)

theorem pay15_apply (x1 : Vec Ideal S1x1000x4 .f32) (q : Fin 1000) : k0_pay15 x1 (ix2 q 0) = x1 (ix3 0 q 3) := by
  unfold k0_pay15
  exact (col_apply _ 3 _ q 3 rfl).trans (pay7_apply x1 q 3)

/-- The target boxes transposed: coordinate `k` of target `t`. -/
theorem pay17_apply (x2 : Vec Ideal S1x100x4 .f32) (k : Fin 4) (t : Fin 100) : k0_pay17 x2 (ix2 k t) = x2 (ix3 0 t k) := by
  unfold k0_pay17
  exact (transpose_ix2_apply _ _ k t).trans (pay8_apply x2 t k)

theorem pay18_apply (x2 : Vec Ideal S1x100x4 .f32) (t : Fin 100) : k0_pay18 x2 (ix2 0 t) = x2 (ix3 0 t 0) := by
  unfold k0_pay18
  exact (row_apply _ 0 _ t 0 rfl).trans (pay17_apply x2 0 t)

theorem pay19_apply (x2 : Vec Ideal S1x100x4 .f32) (t : Fin 100) : k0_pay19 x2 (ix2 0 t) = x2 (ix3 0 t 1) := by
  unfold k0_pay19
  exact (row_apply _ 1 _ t 1 rfl).trans (pay17_apply x2 1 t)

theorem pay20_apply (x2 : Vec Ideal S1x100x4 .f32) (t : Fin 100) : k0_pay20 x2 (ix2 0 t) = x2 (ix3 0 t 2) := by
  unfold k0_pay20
  exact (row_apply _ 2 _ t 2 rfl).trans (pay17_apply x2 2 t)

theorem pay21_apply (x2 : Vec Ideal S1x100x4 .f32) (t : Fin 100) : k0_pay21 x2 (ix2 0 t) = x2 (ix3 0 t 3) := by
  unfold k0_pay21
  exact (row_apply _ 3 _ t 3 rfl).trans (pay17_apply x2 3 t)

/-! ## Areas, overlap and the generalised intersection over union -/

/-- The query box's area. -/
theorem pay16_apply (x1 : Vec Ideal S1x1000x4 .f32) (q : Fin 1000) :
    k0_pay16 x1 (ix2 q 0) = area (fun k => x1 (ix3 0 q k)) := by
  unfold k0_pay16
  simp only [mulf_apply, subf_apply, pay12_apply, pay13_apply, pay14_apply, pay15_apply]
  rfl

/-- The target box's area. -/
theorem pay22_apply (x2 : Vec Ideal S1x100x4 .f32) (t : Fin 100) :
    k0_pay22 x2 (ix2 0 t) = area (fun k => x2 (ix3 0 t k)) := by
  unfold k0_pay22
  simp only [mulf_apply, subf_apply, pay18_apply, pay19_apply, pay20_apply, pay21_apply]
  rfl

/-- The overlap of the x-ranges, clipped at zero. -/
theorem pay23_apply (x1 : Vec Ideal S1x1000x4 .f32) (x2 : Vec Ideal S1x100x4 .f32) (q : Fin 1000) (t : Fin 100) :
    k0_pay23 x1 x2 (ix2 q t)
      = max w0 (min (x1 (ix3 0 q 2)) (x2 (ix3 0 t 2)) - max (x1 (ix3 0 q 0)) (x2 (ix3 0 t 0))) := by
  unfold k0_pay23
  simp only [maximumf_apply, minimumf_apply, subf_apply, broadcast_apply, broadcastTo_a1_ab_apply, broadcastTo_1b_ab_apply,
    pay12_apply, pay14_apply, pay18_apply, pay20_apply]
  rfl

/-- The overlap of the y-ranges, before the clip. -/
theorem pay24_apply (x1 : Vec Ideal S1x1000x4 .f32) (x2 : Vec Ideal S1x100x4 .f32) (q : Fin 1000) (t : Fin 100) :
    k0_pay24 x1 x2 (ix2 q t) = min (x1 (ix3 0 q 3)) (x2 (ix3 0 t 3)) - max (x1 (ix3 0 q 1)) (x2 (ix3 0 t 1)) := by
  unfold k0_pay24
  simp only [maximumf_apply, minimumf_apply, subf_apply, broadcastTo_a1_ab_apply, broadcastTo_1b_ab_apply,
    pay13_apply, pay15_apply, pay19_apply, pay21_apply]

/-- The generalised intersection over union's leg from its parts at the entry: corner coordinates, the two areas and the
    two range overlaps. -/
theorem pay25_apply (v52 v53 v54 v55 v58 : FVec Ideal S1000x1 .f32) (v60 v61 v62 v63 v66 : FVec Ideal S1x100 .f32)
    (v81 v82 : FVec Ideal S1000x100 .f32) (q : Fin 1000) (t : Fin 100) (a b : Fin 4 → EReal)
    (h52 : v52 (ix2 q 0) = a 0) (h53 : v53 (ix2 q 0) = a 1) (h54 : v54 (ix2 q 0) = a 2) (h55 : v55 (ix2 q 0) = a 3)
    (h60 : v60 (ix2 0 t) = b 0) (h61 : v61 (ix2 0 t) = b 1) (h62 : v62 (ix2 0 t) = b 2) (h63 : v63 (ix2 0 t) = b 3)
    (h58 : v58 (ix2 q 0) = area a) (h66 : v66 (ix2 0 t) = area b)
    (h81 : v81 (ix2 q t) = max w0 (min (a 2) (b 2) - max (a 0) (b 0)))
    (h82 : v82 (ix2 q t) = min (a 3) (b 3) - max (a 1) (b 1)) :
    k0_pay25 v52 v53 v54 v55 v58 v60 v61 v62 v63 v66 v81 v82 (Scalar.ofBits .f32 0x00000000#32) (ix2 q t)
      = w0 - giou a b := by
  unfold k0_pay25
  simp only [maximumf_apply, minimumf_apply, subf_apply, addf_apply, mulf_apply, divf_apply, broadcast_apply,
    broadcastTo_a1_ab_apply, broadcastTo_1b_ab_apply, h52, h53, h54, h55, h58, h60, h61, h62, h63, h66, h81, h82]
  rfl

/-! ## The cost entry -/

/-- The stored value at entry (0, q, t), from the class term `v41` and the four box blocks. -/
theorem pay32_apply (v41 : FVec Ideal S1000x100 .f32) (x1 : Vec Ideal S1x1000x4 .f32) (x2 : Vec Ideal S1x100x4 .f32)
    (x5 : Vec Ideal S1x1x4 .f32) (x6 : Vec Ideal S1x100x4 .f32) (q : Fin 1000) (t : Fin 100) :
    k0_pay32 v41
        (k0_pay25 (k0_pay12 x1) (k0_pay13 x1) (k0_pay14 x1) (k0_pay15 x1) (k0_pay16 x1) (k0_pay18 x2) (k0_pay19 x2)
          (k0_pay20 x2) (k0_pay21 x2) (k0_pay22 x2) (k0_pay23 x1 x2) (k0_pay24 x1 x2) (Scalar.ofBits .f32 0x00000000#32))
        (k0_pay27 (k0_pay7 x1) (k0_pay10 x5)) (k0_pay29 (k0_pay8 x2) (k0_pay11 x6))
        (k0_pay30 (k0_pay7 x1) (k0_pay8 x2) (k0_pay10 x5) (k0_pay11 x6))
        (k0_pay31 (k0_pay7 x1) (k0_pay8 x2) (k0_pay10 x5) (k0_pay11 x6)) (ix3 0 q t)
      = w5 * l1 (fun k => x1 (ix3 0 q k)) (fun k => x2 (ix3 0 t k)) (fun k => x5 (ix3 0 0 k)) (fun k => x6 (ix3 0 t k))
        + w2 * v41 (ix2 q t)
        + w2 * (w0 - giou (fun k => x1 (ix3 0 q k)) (fun k => x2 (ix3 0 t k))) := by
  unfold k0_pay32
  rw [shapeCast_ab_1ab_apply]
  simp only [addf_apply, mulf_apply, subf_apply, absf_apply, broadcast_apply, broadcastTo_a1_ab_apply, broadcastTo_1b_ab_apply]
  rw [pay25_apply _ _ _ _ _ _ _ _ _ _ _ _ q t (fun k => x1 (ix3 0 q k)) (fun k => x2 (ix3 0 t k))
    (pay12_apply x1 q) (pay13_apply x1 q) (pay14_apply x1 q) (pay15_apply x1 q)
    (pay18_apply x2 t) (pay19_apply x2 t) (pay20_apply x2 t) (pay21_apply x2 t)
    (pay16_apply x1 q) (pay22_apply x2 t) (pay23_apply x1 x2 q t) (pay24_apply x1 x2 q t)]
  rw [pay27_apply, pay29_apply, pay30_apply, pay31_apply]
  simp only [pay7_apply, pay8_apply, pay10_apply, pay11_apply]
  rfl

end CostRead

open CostRead

/-- Entry (0, q, t) of the cost window's buffer after the body. -/
theorem cost_block (x0 : Vec Ideal S1x1000x80 .f32) (x1 : Vec Ideal S1x1000x4 .f32) (x2 : Vec Ideal S1x100x4 .f32)
    (x3 : Vec Ideal S1x100x80 .f32) (x4 : Vec Ideal S1x8x4 .f32) (x5 : Vec Ideal S1x1x4 .f32) (x6 : Vec Ideal S1x100x4 .f32)
    (q : Fin 1000) (t : Fin 100) (kk : Fin 80)
    (hx : ∀ k : Fin 80, ∃ r : ℝ, x0 (ix3 0 q k) = (r : EReal))
    (hoh : ∀ k : Fin 80, x3 (ix3 0 t k) = if k = kk then (1 : EReal) else 0) :
    out0_7 (F := Ideal) x0 x1 x2 x3 x4 x5 x6 (ix3 0 q t)
      = cost (x0 (ix3 0 q kk)) (fun k => x1 (ix3 0 q k)) (fun k => x2 (ix3 0 t k)) (fun k => x5 (ix3 0 0 k)) (fun k => x6 (ix3 0 t k)) := by
  unfold out0_7
  rw [View.canon_unit_zero zero_offsets3]
  simp only [View.ld_unit_zero (S := S1x1000x4) zero_offsets3, View.ld_unit_zero (S := S1x100x4) zero_offsets3,
    View.ld_unit_zero (S := S1x1x4) zero_offsets3]
  rw [pay32_apply, class_block x0 x3 q t kk hx hoh]
  rfl

end Cert.KernelIdeal.Bridge

end
-- ==== Proof.KernelIoa.lean ====
/-
  What the kernel leaves in the overlap window at one grid point: entry (j, q) is the part of query box `q` that
  ignore box `j` covers. The body multiplies the shared area by the reciprocal of the query box's area; off a zero
  area that is the quotient.
-/
import proofs.«406872_j85916525789875_2_alg».proof.Proof.Gen.KernelIdeal.Frame
import proofs.«406872_j85916525789875_2_alg».proof.Proof.Spec
import proofs.«406872_j85916525789875_2_alg».proof.Proof.Algebra
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Bridge

open Idealize.ShloMosaic Idealize.ShloMosaic.ValueIdx Cert.KernelIdeal Cert.KernelIdeal.Gen Cert.Matching

namespace IoaRead

/-! ## One column broadcast over many -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The boxes as the body reads them -/

/-- The query boxes with the unit axis dropped: box `q`, corner coordinate `k`. -/
theorem pay7_apply (x1 : Vec Ideal S1x1000x4 .f32) (q : Fin 1000) (k : Fin 4) :
    k0_pay7 (F := Ideal) x1 (ix2 q k) = x1 (ix3 0 q k) := by
  unfold k0_pay7
  exact shapeCast_1ab_ab_apply x1 _ q k

/-- The ignore boxes with the unit axis dropped: box `j`, corner coordinate `k`. -/
theorem pay9_apply (x4 : Vec Ideal S1x8x4 .f32) (j : Fin 8) (k : Fin 4) :
    k0_pay9 (F := Ideal) x4 (ix2 j k) = x4 (ix3 0 j k) := by
  unfold k0_pay9
  exact shapeCast_1ab_ab_apply x4 _ j k

/-- The query boxes transposed: corner coordinate `k` of box `q` sits at `(k, q)`. -/
theorem pay33_apply (v43 : FVec Ideal S1000x4 .f32) (k : Fin 4) (q : Fin 1000) :
    k0_pay33 (F := Ideal) v43 (ix2 k q) = v43 (ix2 q k) := by
  unfold k0_pay33
  exact transpose_ix2_apply v43 _ k q

/-- Row 0 of the transposed boxes: the left edges. -/
theorem pay34_apply (v43 : FVec Ideal S1000x4 .f32) (q : Fin 1000) :
    k0_pay34 (F := Ideal) v43 (ix2 (0 : Fin 1) q) = v43 (ix2 q 0) := by
  unfold k0_pay34
  exact (slice2_axis0_apply 0 (k0_pay33 v43) _ (0 : Fin 1) q (0 : Fin 4) rfl).trans (pay33_apply v43 0 q)

/-- Row 1: the top edges. -/
theorem pay35_apply (v43 : FVec Ideal S1000x4 .f32) (q : Fin 1000) :
    k0_pay35 (F := Ideal) v43 (ix2 (0 : Fin 1) q) = v43 (ix2 q 1) := by
  unfold k0_pay35
  exact (slice2_axis0_apply 1 (k0_pay33 v43) _ (0 : Fin 1) q (1 : Fin 4) rfl).trans (pay33_apply v43 1 q)

/-- Row 2: the right edges. -/
theorem pay36_apply (v43 : FVec Ideal S1000x4 .f32) (q : Fin 1000) :
    k0_pay36 (F := Ideal) v43 (ix2 (0 : Fin 1) q) = v43 (ix2 q 2) := by
  unfold k0_pay36
  exact (slice2_axis0_apply 2 (k0_pay33 v43) _ (0 : Fin 1) q (2 : Fin 4) rfl).trans (pay33_apply v43 2 q)

/-- Row 3: the bottom edges. -/
theorem pay37_apply (v43 : FVec Ideal S1000x4 .f32) (q : Fin 1000) :
    k0_pay37 (F := Ideal) v43 (ix2 (0 : Fin 1) q) = v43 (ix2 q 3) := by
  unfold k0_pay37
  exact (slice2_axis0_apply 3 (k0_pay33 v43) _ (0 : Fin 1) q (3 : Fin 4) rfl).trans (pay33_apply v43 3 q)

/-- Column `k` of the ignore boxes, cut out as an `[8, 1]` array. -/
theorem col_apply (o : ℕ) (v47 : FVec Ideal S8x4 .f32) (h : S8x4.Slices ![0, o] S8x1) (j : Fin 8) (k : Fin 4)
    (hk : k.val = o) : extractStridedSlice S8x1 ![0, o] v47 h (ix2 j (0 : Fin 1)) = v47 (ix2 j k) :=
  slice2_axis1_apply o v47 h j (0 : Fin 1) k hk

/-- The reciprocal of the query box's area. -/
theorem pay38_apply (v43 : FVec Ideal S1000x4 .f32) (q : Fin 1000) :
    k0_pay38 (F := Ideal) v43 (ix2 (0 : Fin 1) q)
      = Ideal.div w1 ((v43 (ix2 q 2) - v43 (ix2 q 0)) * (v43 (ix2 q 3) - v43 (ix2 q 1))) := by
  unfold k0_pay38
  simp only [divf_apply, mulf_apply, subf_apply, broadcast_apply, pay34_apply, pay35_apply, pay36_apply, pay37_apply]
  rfl

/-- The area ignore box `j` and query box `q` share, the ignore box's edge first in each maximum and minimum. -/
theorem pay39_apply (v43 : FVec Ideal S1000x4 .f32) (v47 : FVec Ideal S8x4 .f32) (j : Fin 8) (q : Fin 1000) :
    k0_pay39 (F := Ideal) v43 v47 (ix2 j q)
      = max w0 (min (v47 (ix2 j 2)) (v43 (ix2 q 2)) - max (v47 (ix2 j 0)) (v43 (ix2 q 0)))
        * max w0 (min (v47 (ix2 j 3)) (v43 (ix2 q 3)) - max (v47 (ix2 j 1)) (v43 (ix2 q 1))) := by
  unfold k0_pay39
  simp only [mulf_apply, maximumf_apply, minimumf_apply, subf_apply, broadcast_apply, broadcastTo_1b_ab_apply,
    broadcastTo_a1_ab_apply, pay34_apply, pay35_apply, pay36_apply, pay37_apply,
    col_apply 0 v47 _ j 0 rfl, col_apply 1 v47 _ j 1 rfl, col_apply 2 v47 _ j 2 rfl, col_apply 3 v47 _ j 3 rfl]
  rfl

/-- The stored value: the shared area times the reciprocal, with a unit axis put in front. -/
theorem pay1_apply (v166 : FVec Ideal S1x1000 .f32) (v189 : FVec Ideal S8x1000 .f32) (j : Fin 8) (q : Fin 1000) :
    k0_pay1 (F := Ideal) v166 v189 (ix3 (0 : Fin 1) j q) = v189 (ix2 j q) * v166 (ix2 (0 : Fin 1) q) := by
  unfold k0_pay1
  refine (shapeCast_ab_1ab_apply _ _ (0 : Fin 1) j q).trans ?_
  rw [mulf_apply, broadcastTo_1b_ab_apply]

/-- The three zero offsets of a whole-buffer access. -/
theorem hz3 : (![0, 0, 0] : Fin 3 → Nat) = fun _ => 0 :=
  funext fun a => match a with | ⟨0, _⟩ => rfl | ⟨1, _⟩ => rfl | ⟨2, _⟩ => rfl

end IoaRead

/-! ## The entry -/

open IoaRead

/-- Entry (0, j, q) of the overlap window's buffer after the body, for a query box of nonzero area. -/
theorem ioa_block (x0 : Vec Ideal S1x1000x80 .f32) (x1 : Vec Ideal S1x1000x4 .f32) (x2 : Vec Ideal S1x100x4 .f32)
    (x3 : Vec Ideal S1x100x80 .f32) (x4 : Vec Ideal S1x8x4 .f32) (x5 : Vec Ideal S1x1x4 .f32) (x6 : Vec Ideal S1x100x4 .f32)
    (j : Fin 8) (q : Fin 1000) (ha : area (fun k => x1 (ix3 0 q k)) ≠ 0) :
    out0_8 (F := Ideal) x0 x1 x2 x3 x4 x5 x6 (ix3 0 j q)
      = ioa (fun k => x1 (ix3 0 q k)) (fun k => x4 (ix3 0 j k)) := by
  unfold out0_8
  rw [View.canon_unit_zero hz3]
  simp only [View.ld_unit_zero (S := S1x1000x4) hz3, View.ld_unit_zero (S := S1x8x4) hz3]
  rw [pay1_apply, pay38_apply, pay39_apply]
  simp only [pay7_apply, pay9_apply]
  -- the shared area with the ignore box first, times the reciprocal of the query box's area
  show inter (fun k => x4 (ix3 0 j k)) (fun k => x1 (ix3 0 q k)) * Ideal.div w1 (area fun k => x1 (ix3 0 q k))
    = Ideal.div (inter (fun k => x1 (ix3 0 q k)) (fun k => x4 (ix3 0 j k))) (area fun k => x1 (ix3 0 q k))
  rw [inter_comm, mul_recip _ _ ha]

end Cert.KernelIdeal.Bridge

end
-- ==== Proof.KernelArrays.lean ====
/-
  The kernel's two results as whole arrays.

  The grid has one point per image. At point t every window's block is image t of its array: the logits and query
  boxes of the arguments, and of the arrays the host lines before the region prepare, which are the target boxes, the
  ignore boxes and the two image-size tables regrouped by image (entry (b, t, k) of a regrouped table is entry
  (100 b + t, k), or (8 b + j, k), or (b, k), of the argument), and the indicator rows: row (b, t) holds, at class
  k, the word-equality of target (b, t)'s label with k turned into a float, which for a label that is a class index
  is 1 at that class and 0 elsewhere.

  So what the body leaves in the cost window at point t is, entry by entry, the matching cost of image t's queries
  and targets, and in the overlap window the overlaps of image t's queries and ignore boxes, queries along the last
  axis. Each output block is written back at every point and the sixteen blocks tile their array, so after the
  region the first array is the cost array and the second is the overlaps in that layout; the host line after the
  region exchanges its last two axes. The three facts used of the arguments are that the logits are real numbers,
  that labels are class indices, and that no query box has zero area.
-/
import proofs.«406872_j85916525789875_2_alg».proof.Proof.Gen.KernelIdeal.Frame
import proofs.«406872_j85916525789875_2_alg».proof.Proof.Spec
import proofs.«406872_j85916525789875_2_alg».proof.Proof.Results
import proofs.«406872_j85916525789875_2_alg».proof.Proof.KernelCost
import proofs.«406872_j85916525789875_2_alg».proof.Proof.KernelIoa
import Idealize.ShloMosaic.Lib.ValueIdx
import Idealize.ShloMosaic.Lib.ValueLayout
import Idealize.ShloMosaic.Lib.Pipeline.Value
import Idealize.ShloMosaic.Lib.StableHlo.Run
import Idealize.ShloMosaic.Lib.IdealHost
import Idealize.ShloMosaic.Lib.Tactic
import Idealize.ShloMosaic.Lib.StableHlo.Predicate

noncomputable section

open Idealize.ShloMosaic Idealize.ShloMosaic.TcCoe Idealize.SL.Sem Idealize.ShloMosaic.ValueIdx
open Idealize.ShloMosaic.Pipeline (Dat)

namespace Cert.KernelIdeal.Bridge

open Cert.KernelIdeal Cert.KernelIdeal.Gen Cert.Matching

variable (m : (ℓ : Loc nD τ sig) → Buf (Elt Ideal) ℓ) (ρ : Dev nD → PrngReg)

/-! ## The arrays by their literal types -/

abbrev A0 (c : Dev nD) : S16x1000x80.Idx → EReal := m ((c : Thread nD τ).loc main_arg0)
abbrev A1 (c : Dev nD) : S16x1000x4.Idx → EReal := m ((c : Thread nD τ).loc main_arg1)
abbrev A2 (c : Dev nD) : S1600x4.Idx → EReal := m ((c : Thread nD τ).loc main_arg2)
abbrev A3 (c : Dev nD) : S128x4.Idx → EReal := m ((c : Thread nD τ).loc main_arg3)
abbrev A4 (c : Dev nD) : S16x4.Idx → EReal := m ((c : Thread nD τ).loc main_arg4)
abbrev A5 (c : Dev nD) : S1600x4.Idx → EReal := m ((c : Thread nD τ).loc main_arg5)
abbrev A6 (c : Dev nD) : S1600.Idx → BitVec 32 := m ((c : Thread nD τ).loc main_arg6)

/-! ## Where each window's block sits: block t is image t -/

/-- Every window's block index at grid point t is (t, 0, 0). -/
theorem idx_all : ∀ t : Fin cfg0.N,
    (win0_0.index t (0 : Fin 3) = t.val ∧ win0_0.index t (1 : Fin 3) = 0 ∧ win0_0.index t (2 : Fin 3) = 0)
    ∧ (win0_1.index t (0 : Fin 3) = t.val ∧ win0_1.index t (1 : Fin 3) = 0 ∧ win0_1.index t (2 : Fin 3) = 0)
    ∧ (win0_2.index t (0 : Fin 3) = t.val ∧ win0_2.index t (1 : Fin 3) = 0 ∧ win0_2.index t (2 : Fin 3) = 0)
    ∧ (win0_3.index t (0 : Fin 3) = t.val ∧ win0_3.index t (1 : Fin 3) = 0 ∧ win0_3.index t (2 : Fin 3) = 0)
    ∧ (win0_4.index t (0 : Fin 3) = t.val ∧ win0_4.index t (1 : Fin 3) = 0 ∧ win0_4.index t (2 : Fin 3) = 0)
    ∧ (win0_5.index t (0 : Fin 3) = t.val ∧ win0_5.index t (1 : Fin 3) = 0 ∧ win0_5.index t (2 : Fin 3) = 0)
    ∧ (win0_6.index t (0 : Fin 3) = t.val ∧ win0_6.index t (1 : Fin 3) = 0 ∧ win0_6.index t (2 : Fin 3) = 0)
    ∧ (win0_7.index t (0 : Fin 3) = t.val ∧ win0_7.index t (1 : Fin 3) = 0 ∧ win0_7.index t (2 : Fin 3) = 0)
    ∧ (win0_8.index t (0 : Fin 3) = t.val ∧ win0_8.index t (1 : Fin 3) = 0 ∧ win0_8.index t (2 : Fin 3) = 0) :=
  (by decide +kernel : ∀ t : Fin grid0.N, _)

/-- The image a grid point works on. -/
def img (t : Fin cfg0.N) : Fin 16 := ⟨t.val, by have h := t.isLt; have e : cfg0.N = 16 := N_0; omega⟩

/-- The grid point that works on an image. -/
def pt (b : Fin 16) : Fin cfg0.N := ⟨b.val, by have h := b.isLt; have e : cfg0.N = 16 := N_0; omega⟩

theorem img_pt (b : Fin 16) : img (pt b) = b := rfl

theorem blk0_apply (c : Dev nD) (t : Fin cfg0.N) (q : Fin 1000) (k : Fin 80) :
    (iblk m c 0 t : Vec Ideal S1x1000x80 .f32) (ix3 0 q k) = A0 m c (ix3 (img t) q k) := by
  obtain ⟨⟨e0, e1, e2⟩, -⟩ := idx_all t
  unfold iblk
  rw [View.read_apply]
  show V m c main_arg0 _ = A0 m c _
  rw [show A0 m c = V m c main_arg0 from (V_main_arg0 m c).symm]
  congr 1
  funext a
  apply Fin.ext
  match a with
  | ⟨0, _⟩ => show win0_0.index t (0 : Fin 3) * 1 + 1 * 0 = t.val; omega
  | ⟨1, _⟩ => show win0_0.index t (1 : Fin 3) * 1000 + 1 * q.val = q.val; omega
  | ⟨2, _⟩ => show win0_0.index t (2 : Fin 3) * 80 + 1 * k.val = k.val; omega

theorem blk1_apply (c : Dev nD) (t : Fin cfg0.N) (q : Fin 1000) (k : Fin 4) :
    (iblk m c 1 t : Vec Ideal S1x1000x4 .f32) (ix3 0 q k) = A1 m c (ix3 (img t) q k) := by
  obtain ⟨-, ⟨e0, e1, e2⟩, -⟩ := idx_all t
  unfold iblk
  rw [View.read_apply]
  show V m c main_arg1 _ = A1 m c _
  rw [show A1 m c = V m c main_arg1 from (V_main_arg1 m c).symm]
  congr 1
  funext a
  apply Fin.ext
  match a with
  | ⟨0, _⟩ => show win0_1.index t (0 : Fin 3) * 1 + 1 * 0 = t.val; omega
  | ⟨1, _⟩ => show win0_1.index t (1 : Fin 3) * 1000 + 1 * q.val = q.val; omega
  | ⟨2, _⟩ => show win0_1.index t (2 : Fin 3) * 4 + 1 * k.val = k.val; omega

theorem blk2_apply (c : Dev nD) (t : Fin cfg0.N) (tt : Fin 100) (k : Fin 4) :
    (iblk m c 2 t : Vec Ideal S1x100x4 .f32) (ix3 0 tt k) = (V m c main_v7 : S16x100x4.Idx → EReal) (ix3 (img t) tt k) := by
  obtain ⟨-, -, ⟨e0, e1, e2⟩, -⟩ := idx_all t
  unfold iblk
  rw [View.read_apply]
  show V m c main_v7 _ = V m c main_v7 _
  congr 1
  funext a
  apply Fin.ext
  match a with
  | ⟨0, _⟩ => show win0_2.index t (0 : Fin 3) * 1 + 1 * 0 = t.val; omega
  | ⟨1, _⟩ => show win0_2.index t (1 : Fin 3) * 100 + 1 * tt.val = tt.val; omega
  | ⟨2, _⟩ => show win0_2.index t (2 : Fin 3) * 4 + 1 * k.val = k.val; omega

theorem blk3_apply (c : Dev nD) (t : Fin cfg0.N) (tt : Fin 100) (k : Fin 80) :
    (iblk m c 3 t : Vec Ideal S1x100x80 .f32) (ix3 0 tt k) = (V m c main_v8 : S16x100x80.Idx → EReal) (ix3 (img t) tt k) := by
  obtain ⟨-, -, -, ⟨e0, e1, e2⟩, -⟩ := idx_all t
  unfold iblk
  rw [View.read_apply]
  show V m c main_v8 _ = V m c main_v8 _
  congr 1
  funext a
  apply Fin.ext
  match a with
  | ⟨0, _⟩ => show win0_3.index t (0 : Fin 3) * 1 + 1 * 0 = t.val; omega
  | ⟨1, _⟩ => show win0_3.index t (1 : Fin 3) * 100 + 1 * tt.val = tt.val; omega
  | ⟨2, _⟩ => show win0_3.index t (2 : Fin 3) * 80 + 1 * k.val = k.val; omega

theorem blk4_apply (c : Dev nD) (t : Fin cfg0.N) (j : Fin 8) (k : Fin 4) :
    (iblk m c 4 t : Vec Ideal S1x8x4 .f32) (ix3 0 j k) = (V m c main_v9 : S16x8x4.Idx → EReal) (ix3 (img t) j k) := by
  obtain ⟨-, -, -, -, ⟨e0, e1, e2⟩, -⟩ := idx_all t
  unfold iblk
  rw [View.read_apply]
  show V m c main_v9 _ = V m c main_v9 _
  congr 1
  funext a
  apply Fin.ext
  match a with
  | ⟨0, _⟩ => show win0_4.index t (0 : Fin 3) * 1 + 1 * 0 = t.val; omega
  | ⟨1, _⟩ => show win0_4.index t (1 : Fin 3) * 8 + 1 * j.val = j.val; omega
  | ⟨2, _⟩ => show win0_4.index t (2 : Fin 3) * 4 + 1 * k.val = k.val; omega

theorem blk5_apply (c : Dev nD) (t : Fin cfg0.N) (k : Fin 4) :
    (iblk m c 5 t : Vec Ideal S1x1x4 .f32) (ix3 0 0 k) = (V m c main_v10 : S16x1x4.Idx → EReal) (ix3 (img t) 0 k) := by
  obtain ⟨-, -, -, -, -, ⟨e0, e1, e2⟩, -⟩ := idx_all t
  unfold iblk
  rw [View.read_apply]
  show V m c main_v10 _ = V m c main_v10 _
  congr 1
  funext a
  apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 4 + 1 * k.val = k.val; omega

theorem blk6_apply (c : Dev nD) (t : Fin cfg0.N) (tt : Fin 100) (k : Fin 4) :
    (iblk m c 6 t : Vec Ideal S1x100x4 .f32) (ix3 0 tt k) = (V m c main_v11 : S16x100x4.Idx → EReal) (ix3 (img t) tt k) := by
  obtain ⟨-, -, -, -, -, -, ⟨e0, e1, e2⟩, -⟩ := idx_all t
  unfold iblk
  rw [View.read_apply]
  show V m c main_v11 _ = V m c main_v11 _
  congr 1
  funext a
  apply Fin.ext
  match a with
  | ⟨0, _⟩ => show win0_6.index t (0 : Fin 3) * 1 + 1 * 0 = t.val; omega
  | ⟨1, _⟩ => show win0_6.index t (1 : Fin 3) * 100 + 1 * tt.val = tt.val; omega
  | ⟨2, _⟩ => show win0_6.index t (2 : Fin 3) * 4 + 1 * k.val = k.val; omega

/-! ## The arrays the host prepares before the region, read at an entry -/

theorem V_v7 (c : Dev nD) : (V m c main_v7 : S16x100x4.Idx → EReal)
    = shapeCast S16x100x4 (A2 m c) shapeCasts_S1600x4_S16x100x4 := by
  show StableHlo.after hostOps0 (fun b => m (c, b)) (Proc.devRef .tc main_v7) = _
  after_results
  rfl

/-- Target t of image b is row `tRow b t` of the target boxes. -/
theorem V_v7_apply (c : Dev nD) (b : Fin 16) (t : Fin 100) (k : Fin 4) :
    (V m c main_v7 : S16x100x4.Idx → EReal) (ix3 b t k) = A2 m c (ix2 (tRow b t) k) := by
  rw [V_v7]
  refine shapeCast_apply _ _ _ _ ?_
  show ((⟨2, ![1600, 4]⟩ : Shape).rowMajor (ix2 (tRow b t) k)).val = ((⟨3, ![16, 100, 4]⟩ : Shape).rowMajor (ix3 b t k)).val
  rw [Shape.rowMajor_val_two, Shape.rowMajor_val_three]; rfl

theorem V_v9 (c : Dev nD) : (V m c main_v9 : S16x8x4.Idx → EReal)
    = shapeCast S16x8x4 (A3 m c) shapeCasts_S128x4_S16x8x4 := by
  show StableHlo.after hostOps0 (fun b => m (c, b)) (Proc.devRef .tc main_v9) = _
  after_results
  rfl

/-- Ignore box j of image b is row `gRow b j` of the ignore boxes. -/
theorem V_v9_apply (c : Dev nD) (b : Fin 16) (j : Fin 8) (k : Fin 4) :
    (V m c main_v9 : S16x8x4.Idx → EReal) (ix3 b j k) = A3 m c (ix2 (gRow b j) k) := by
  rw [V_v9]
  refine shapeCast_apply _ _ _ _ ?_
  show ((⟨2, ![128, 4]⟩ : Shape).rowMajor (ix2 (gRow b j) k)).val = ((⟨3, ![16, 8, 4]⟩ : Shape).rowMajor (ix3 b j k)).val
  rw [Shape.rowMajor_val_two, Shape.rowMajor_val_three]; rfl

theorem V_v10 (c : Dev nD) : (V m c main_v10 : S16x1x4.Idx → EReal)
    = shapeCast S16x1x4 (A4 m c) shapeCasts_S16x4_S16x1x4 := by
  show StableHlo.after hostOps0 (fun b => m (c, b)) (Proc.devRef .tc main_v10) = _
  after_results
  rfl

/-- Image b's size is row b of the image sizes. -/
theorem V_v10_apply (c : Dev nD) (b : Fin 16) (k : Fin 4) :
    (V m c main_v10 : S16x1x4.Idx → EReal) (ix3 b 0 k) = A4 m c (ix2 b k) := by
  rw [V_v10]
  refine shapeCast_apply _ _ _ _ ?_
  show ((⟨2, ![16, 4]⟩ : Shape).rowMajor (ix2 b k)).val = ((⟨3, ![16, 1, 4]⟩ : Shape).rowMajor (ix3 b (0 : Fin 1) k)).val
  rw [Shape.rowMajor_val_two, Shape.rowMajor_val_three]
  show b.val * 4 + k.val = (b.val * 1 + 0) * 4 + k.val
  omega

theorem V_v11 (c : Dev nD) : (V m c main_v11 : S16x100x4.Idx → EReal)
    = shapeCast S16x100x4 (A5 m c) shapeCasts_S1600x4_S16x100x4 := by
  show StableHlo.after hostOps0 (fun b => m (c, b)) (Proc.devRef .tc main_v11) = _
  after_results
  rfl

theorem V_v11_apply (c : Dev nD) (b : Fin 16) (t : Fin 100) (k : Fin 4) :
    (V m c main_v11 : S16x100x4.Idx → EReal) (ix3 b t k) = A5 m c (ix2 (tRow b t) k) := by
  rw [V_v11]
  refine shapeCast_apply _ _ _ _ ?_
  show ((⟨2, ![1600, 4]⟩ : Shape).rowMajor (ix2 (tRow b t) k)).val = ((⟨3, ![16, 100, 4]⟩ : Shape).rowMajor (ix3 b t k)).val
  rw [Shape.rowMajor_val_two, Shape.rowMajor_val_three]; rfl

/-- The indicator rows: each label compared with every class index, as a float. -/
theorem V_v8 (c : Dev nD) : (V m c main_v8 : S16x100x80.Idx → EReal)
    = shapeCast S16x100x80 (uitofp (F := Ideal) .f32 (cmpi .eq
        (broadcastInDim S1600x80 ![0, 1] bcast_S1600x1_S1600x80_0_1 (broadcastInDim S1600x1 ![0] bcast_S1600_S1600x1_0 (A6 m c)))
        (broadcastInDim S1600x80 ![0, 1] bcast_S1x80_S1600x80_0_1 (broadcastInDim S1x80 ![1] bcast_S80_S1x80_1 (iotaInDim S80 32 0)))))
      shapeCasts_S1600x80_S16x100x80 := by
  show StableHlo.after hostOps0 (fun b => m (c, b)) (Proc.devRef .tc main_v8) = _
  after_results
  rfl

/-- A 32-bit word whose signed value is a class index is that index's word. -/
theorem word_of_toInt (x : BitVec 32) (kk : Fin 80) (h : x.toInt = (kk.val : ℤ)) : x = BitVec.ofNat 32 kk.val := by
  apply BitVec.eq_of_toNat_eq
  have e := BitVec.toInt_eq_toNat_cond x
  have hx := x.isLt
  have hk := kk.isLt
  rw [BitVec.toNat_ofNat]
  omega

/-- Row (b, t) of the indicators marks exactly the class the target is labelled with. -/
theorem V_v8_apply (c : Dev nD) (b : Fin 16) (t : Fin 100) (k kk : Fin 80)
    (hkk : (A6 m c (ix1 (tRow b t))).toInt = (kk.val : ℤ)) :
    (V m c main_v8 : S16x100x80.Idx → EReal) (ix3 b t k) = if k = kk then (1 : EReal) else 0 := by
  rw [V_v8]
  rw [shapeCast_apply _ _ (ix3 b t k) (ix2 (tRow b t) k) (by
    show ((⟨2, ![1600, 80]⟩ : Shape).rowMajor (ix2 (tRow b t) k)).val = ((⟨3, ![16, 100, 80]⟩ : Shape).rowMajor (ix3 b t k)).val
    rw [Shape.rowMajor_val_two, Shape.rowMajor_val_three]; rfl)]
  show (((IntOp.cmpi .eq
      (broadcastInDim S1600x80 ![0, 1] bcast_S1600x1_S1600x80_0_1 (broadcastInDim S1600x1 ![0] bcast_S1600_S1600x1_0 (A6 m c)) (ix2 (tRow b t) k))
      (broadcastInDim S1600x80 ![0, 1] bcast_S1x80_S1600x80_0_1 (broadcastInDim S1x80 ![1] bcast_S80_S1x80_1 (iotaInDim S80 32 0)) (ix2 (tRow b t) k))).toNat : ℝ) : EReal) = _
  rw [broadcastInDim_apply _ _ _ (ix2 (tRow b t) k) (ix2 (tRow b t) (0 : Fin 1)) (fun a => match a with | ⟨0, _⟩ => rfl | ⟨1, _⟩ => rfl),
    broadcastInDim_apply _ _ _ (ix2 (tRow b t) (0 : Fin 1)) (ix1 (tRow b t)) (fun a => match a with | ⟨0, _⟩ => rfl),
    broadcastInDim_apply _ _ _ (ix2 (tRow b t) k) (ix2 (0 : Fin 1) k) (fun a => match a with | ⟨0, _⟩ => rfl | ⟨1, _⟩ => rfl),
    broadcastInDim_apply _ _ _ (ix2 (0 : Fin 1) k) (ix1 k) (fun a => match a with | ⟨0, _⟩ => rfl),
    iotaInDim_apply, word_of_toInt _ kk hkk]
  show (((IntOp.cmpi .eq (BitVec.ofNat 32 kk.val) (BitVec.ofNat 32 k.val)).toNat : ℝ) : EReal) = _
  by_cases h : k = kk
  · subst h
    rw [if_pos rfl, StableHlo.Predicate.cmpi_eq_iff.mpr rfl]
    simp
  · rw [if_neg h]
    have hne : IntOp.cmpi .eq (BitVec.ofNat 32 kk.val) (BitVec.ofNat 32 k.val) ≠ 1#1 := by
      intro e1
      have e := StableHlo.Predicate.cmpi_eq_iff.mp e1
      have := congrArg BitVec.toNat e
      rw [BitVec.toNat_ofNat, BitVec.toNat_ofNat] at this
      have hk := k.isLt; have hkk' := kk.isLt
      exact h (Fin.ext (by omega))
    rw [eq_zero_of_ne_one hne]
    simp

/-! ## What a grid point leaves in the two output windows -/

/-- The three facts of the arrays the kernel's cost needs: real logits, labels that are class indices, query boxes of
    nonzero area. -/
structure Admits : Prop where
  real : ∀ (c : Dev nD) (i : S16x1000x80.Idx), ∃ r : ℝ, A0 m c i = (r : EReal)
  label : ∀ (c : Dev nD) (T : Fin 1600), 0 ≤ (A6 m c (ix1 T)).toInt ∧ (A6 m c (ix1 T)).toInt < 80
  area : ∀ (c : Dev nD) (b : Fin 16) (q : Fin 1000), area (fun k => A1 m c (ix3 b q k)) ≠ 0

/-- Entry (q, tt) of the cost window after the body at point t: the matching cost of image t's query q and target tt. -/
theorem out7_at (h : Admits m) (c : Dev nD) (t : Fin cfg0.N) (q : Fin 1000) (tt : Fin 100) :
    out0_7 (F := Ideal) (iblk m c 0 t) (iblk m c 1 t) (iblk m c 2 t) (iblk m c 3 t) (iblk m c 4 t) (iblk m c 5 t) (iblk m c 6 t) (ix3 0 q tt)
      = costArr (A0 m c) (A1 m c) (A2 m c) (A4 m c) (A5 m c) (A6 m c) (ix3 (img t) q tt) := by
  have hkk := labelOf_val (A6 m c) (img t) tt (h.label c (tRow (img t) tt))
  rw [cost_block (iblk m c 0 t) (iblk m c 1 t) (iblk m c 2 t) (iblk m c 3 t) (iblk m c 4 t) (iblk m c 5 t) (iblk m c 6 t) q tt
    (labelOf (A6 m c) (img t) tt)
    (fun k => by rw [blk0_apply]; exact h.real c _)
    (fun k => by rw [blk3_apply, V_v8_apply m c (img t) tt k _ hkk])]
  show cost _ _ _ _ _ = cost _ _ _ _ _
  congr 1
  · exact blk0_apply m c t q _
  · funext k; exact blk1_apply m c t q k
  · funext k; exact (blk2_apply m c t tt k).trans (V_v7_apply m c (img t) tt k)
  · funext k; exact (blk5_apply m c t k).trans (V_v10_apply m c (img t) k)
  · funext k; exact (blk6_apply m c t tt k).trans (V_v11_apply m c (img t) tt k)

/-- The overlaps as the kernel lays them out: ignore boxes along the second axis, queries along the last. -/
def ioaT (a1 : S16x1000x4.Idx → EReal) (a3 : S128x4.Idx → EReal) : S16x8x1000.Idx → EReal :=
  fun i => ioa (fun k => a1 (ix3 (i 0) (i 2) k)) (fun k => a3 (ix2 (gRow (i 0) (i 1)) k))

/-- Entry (j, q) of the overlap window after the body at point t. -/
theorem out8_at (h : Admits m) (c : Dev nD) (t : Fin cfg0.N) (j : Fin 8) (q : Fin 1000) :
    out0_8 (F := Ideal) (iblk m c 0 t) (iblk m c 1 t) (iblk m c 2 t) (iblk m c 3 t) (iblk m c 4 t) (iblk m c 5 t) (iblk m c 6 t) (ix3 0 j q)
      = ioaT (A1 m c) (A3 m c) (ix3 (img t) j q) := by
  have e1 : (fun k => (iblk m c 1 t : Vec Ideal S1x1000x4 .f32) (ix3 0 q k)) = fun k => A1 m c (ix3 (img t) q k) :=
    funext fun k => blk1_apply m c t q k
  rw [ioa_block (iblk m c 0 t) (iblk m c 1 t) (iblk m c 2 t) (iblk m c 3 t) (iblk m c 4 t) (iblk m c 5 t) (iblk m c 6 t) j q
    (by rw [e1]; exact h.area c (img t) q)]
  show ioa _ _ = ioa _ _
  congr 1
  funext k; exact (blk4_apply m c t j k).trans (V_v9_apply m c (img t) j k)

/-! ## From blocks to arrays -/

theorem hblk_idx (j : (⟨3, ![1, 1000, 100]⟩ : Shape).Idx) : j = ix3 (0 : Fin 1) (j 1) (j 2) := by
  funext a
  match a with
  | ⟨0, _⟩ => exact Fin.ext (Nat.lt_one_iff.mp (j 0).isLt)
  | ⟨1, _⟩ => rfl
  | ⟨2, _⟩ => rfl

theorem hblk_idx8 (j : (⟨3, ![1, 8, 1000]⟩ : Shape).Idx) : j = ix3 (0 : Fin 1) (j 1) (j 2) := by
  funext a
  match a with
  | ⟨0, _⟩ => exact Fin.ext (Nat.lt_one_iff.mp (j 0).isLt)
  | ⟨1, _⟩ => rfl
  | ⟨2, _⟩ => rfl

/-- What point t writes back to the cost array is block t of the cost array. -/
theorem flushed7_eq (h : Admits m) (c : Dev nD) (t : Fin cfg0.N) :
    (dats m 0 c).flushed 7 t = ((cfg0.win 7).blk t).view.read (Elt Ideal)
      (costArr (A0 m c) (A1 m c) (A2 m c) (A4 m c) (A5 m c) (A6 m c)) := by
  obtain ⟨-, -, -, -, -, -, -, ⟨e0, e1, e2⟩, -⟩ := idx_all t
  show (cfg0.win 7).cut (grid0.coords t) ((dats m 0 c).after 7 t) = _
  rw [after0_7]
  funext j
  rw [hblk_idx j]
  show out0_7 (F := Ideal) (iblk m c 0 t) (iblk m c 1 t) (iblk m c 2 t) (iblk m c 3 t) (iblk m c 4 t) (iblk m c 5 t) (iblk m c 6 t) (ix3 0 (j 1) (j 2))
    = costArr (A0 m c) (A1 m c) (A2 m c) (A4 m c) (A5 m c) (A6 m c) (((cfg0.win 7).blk t).view.emb (ix3 0 (j 1) (j 2)))
  rw [out7_at m h c t (j 1) (j 2)]
  congr 1
  funext a
  apply Fin.ext
  match a with
  | ⟨0, _⟩ => show t.val = win0_7.index t (0 : Fin 3) * 1 + 1 * 0; omega
  | ⟨1, _⟩ => show (j 1).val = win0_7.index t (1 : Fin 3) * 1000 + 1 * (j 1).val; omega
  | ⟨2, _⟩ => show (j 2).val = win0_7.index t (2 : Fin 3) * 100 + 1 * (j 2).val; omega

/-- What point t writes back to the overlap array is block t of the overlaps in the kernel's layout. -/
theorem flushed8_eq (h : Admits m) (c : Dev nD) (t : Fin cfg0.N) :
    (dats m 0 c).flushed 8 t = ((cfg0.win 8).blk t).view.read (Elt Ideal) (ioaT (A1 m c) (A3 m c)) := by
  obtain ⟨-, -, -, -, -, -, -, -, ⟨e0, e1, e2⟩⟩ := idx_all t
  show (cfg0.win 8).cut (grid0.coords t) ((dats m 0 c).after 8 t) = _
  rw [after0_8]
  funext j
  rw [hblk_idx8 j]
  show out0_8 (F := Ideal) (iblk m c 0 t) (iblk m c 1 t) (iblk m c 2 t) (iblk m c 3 t) (iblk m c 4 t) (iblk m c 5 t) (iblk m c 6 t) (ix3 0 (j 1) (j 2))
    = ioaT (A1 m c) (A3 m c) (((cfg0.win 8).blk t).view.emb (ix3 0 (j 1) (j 2)))
  rw [out8_at m h c t (j 1) (j 2)]
  congr 1
  funext a
  apply Fin.ext
  match a with
  | ⟨0, _⟩ => show t.val = win0_8.index t (0 : Fin 3) * 1 + 1 * 0; omega
  | ⟨1, _⟩ => show (j 1).val = win0_8.index t (1 : Fin 3) * 8 + 1 * (j 1).val; omega
  | ⟨2, _⟩ => show (j 2).val = win0_8.index t (2 : Fin 3) * 1000 + 1 * (j 2).val; omega

/-- An entry of the cost array is in point t's block iff each coordinate is in the block's range on its axis. -/
theorem mem_blk7 (t : Fin cfg0.N) (i : S16x1000x100.Idx) :
    i ∈ ((cfg0.win 7).blk t).view.set ↔ ∀ a : Fin 3, win0_7.index t a * S1x1000x100.size a ≤ (i a).val
      ∧ (i a).val < win0_7.index t a * S1x1000x100.size a + S1x1000x100.size a := by
  show i ∈ ((View.whole main_v12_0).slice (win0_7.rect t)).set ↔ _
  rw [View.set_slice_whole, Rect.mem_set_unit]
  exact Iff.rfl

theorem mem_blk8 (t : Fin cfg0.N) (i : S16x8x1000.Idx) :
    i ∈ ((cfg0.win 8).blk t).view.set ↔ ∀ a : Fin 3, win0_8.index t a * S1x8x1000.size a ≤ (i a).val
      ∧ (i a).val < win0_8.index t a * S1x8x1000.size a + S1x8x1000.size a := by
  show i ∈ ((View.whole main_v12_1).slice (win0_8.rect t)).set ↔ _
  rw [View.set_slice_whole, Rect.mem_set_unit]
  exact Iff.rfl

/-- Every entry of the cost array is written back by the point of its image. -/
theorem cover7 (i : S16x1000x100.Idx) : ∃ t : Fin cfg0.N, (cfg0.win 7).flush t = true ∧ i ∈ ((cfg0.win 7).blk t).view.set := by
  refine ⟨pt (i 0), flush0_7 _, ?_⟩
  obtain ⟨-, -, -, -, -, -, -, ⟨e0, e1, e2⟩, -⟩ := idx_all (pt (i 0))
  have hp : (pt (i 0)).val = (i 0).val := rfl
  have h1 : (i 1).val < 1000 := (i 1).isLt
  have h2 : (i 2).val < 100 := (i 2).isLt
  rw [mem_blk7]
  intro a
  match a with
  | ⟨0, _⟩ => show win0_7.index (pt (i 0)) (0 : Fin 3) * 1 ≤ (i 0).val ∧ (i 0).val < win0_7.index (pt (i 0)) (0 : Fin 3) * 1 + 1; omega
  | ⟨1, _⟩ => show win0_7.index (pt (i 0)) (1 : Fin 3) * 1000 ≤ (i 1).val ∧ (i 1).val < win0_7.index (pt (i 0)) (1 : Fin 3) * 1000 + 1000; omega
  | ⟨2, _⟩ => show win0_7.index (pt (i 0)) (2 : Fin 3) * 100 ≤ (i 2).val ∧ (i 2).val < win0_7.index (pt (i 0)) (2 : Fin 3) * 100 + 100; omega

theorem cover8 (i : S16x8x1000.Idx) : ∃ t : Fin cfg0.N, (cfg0.win 8).flush t = true ∧ i ∈ ((cfg0.win 8).blk t).view.set := by
  refine ⟨pt (i 0), flush0_8 _, ?_⟩
  obtain ⟨-, -, -, -, -, -, -, -, ⟨e0, e1, e2⟩⟩ := idx_all (pt (i 0))
  have hp : (pt (i 0)).val = (i 0).val := rfl
  have h1 : (i 1).val < 8 := (i 1).isLt
  have h2 : (i 2).val < 1000 := (i 2).isLt
  rw [mem_blk8]
  intro a
  match a with
  | ⟨0, _⟩ => show win0_8.index (pt (i 0)) (0 : Fin 3) * 1 ≤ (i 0).val ∧ (i 0).val < win0_8.index (pt (i 0)) (0 : Fin 3) * 1 + 1; omega
  | ⟨1, _⟩ => show win0_8.index (pt (i 0)) (1 : Fin 3) * 8 ≤ (i 1).val ∧ (i 1).val < win0_8.index (pt (i 0)) (1 : Fin 3) * 8 + 8; omega
  | ⟨2, _⟩ => show win0_8.index (pt (i 0)) (2 : Fin 3) * 1000 ≤ (i 2).val ∧ (i 2).val < win0_8.index (pt (i 0)) (2 : Fin 3) * 1000 + 1000; omega

/-- The cost array after the run. -/
theorem final7 (h : Admits m) (c : Dev nD) :
    (dats m 0 c).arrAt 7 cfg0.N = costArr (A0 m c) (A1 m c) (A2 m c) (A4 m c) (A5 m c) (A6 m c) :=
  (dats m 0 c).arrAt_eq_of_cover 7 (costArr (A0 m c) (A1 m c) (A2 m c) (A4 m c) (A5 m c) (A6 m c))
    (fun t _ => flushed7_eq m h c t) cover7

/-- The overlap array after the region, in the kernel's layout. -/
theorem final8 (h : Admits m) (c : Dev nD) : (dats m 0 c).arrAt 8 cfg0.N = ioaT (A1 m c) (A3 m c) :=
  (dats m 0 c).arrAt_eq_of_cover 8 (ioaT (A1 m c) (A3 m c)) (fun t _ => flushed8_eq m h c t) cover8

/-! ## The host's transpose after the region, and the run -/

/-- Exchanging the last two axes of the kernel's layout gives the overlaps queries first. -/
theorem transpose_ioaT (a1 : S16x1000x4.Idx → EReal) (a3 : S128x4.Idx → EReal) :
    transpose S16x1000x8 [0, 2, 1] (ioaT a1 a3) transposes_S16x8x1000_S16x1000x8_0_2_1 = ioaArr a1 a3 := by
  funext i
  obtain ⟨b, q, j, rfl⟩ : ∃ (b : Fin 16) (q : Fin 1000) (j : Fin 8), i = ix3 b q j := ⟨i 0, i 1, i 2, eq_ix3 i⟩
  exact (transpose_ix3_021_apply (ioaT a1 a3) transposes_S16x8x1000_S16x1000x8_0_2_1 b q j).trans rfl

/-- The second result after the host's transpose. -/
theorem tail_v13 (h : Admits m) (c : Dev nD) :
    Pipeline.afterTail₀ cfgs (dats m) 0 (V0 m) [hostOps1] c main_v13 = ioaArr (A1 m c) (A3 m c) := by
  unfold Pipeline.afterTail₀
  show StableHlo.after hostOps1 _ (Proc.devRef .tc main_v13) = _
  after_results
  have e : Pipeline.withArrays (cfgs 0).spec c (V0 m c) (fun w => (dats m 0 c).arrAt w (cfgs 0).N) (Proc.devRef .tc main_v12_1)
      = ioaT (A1 m c) (A3 m c) :=
    (Pipeline.withArrays_arr spec0 launch0.win.arr_inj c _ _ 8).trans (final8 m h c)
  exact (congrArg (fun x => transpose S16x1000x8 [0, 2, 1] x transposes_S16x8x1000_S16x1000x8_0_2_1) e).trans (transpose_ioaT _ _)

/-- The kernel's run, read: the two results at their functions of the argument arrays, the arguments unchanged. -/
theorem run (h : Admits m) : θ_run defs (onTc (τ := τ) (main (F := Ideal))) ⟨m, fun _ => 0, ρ⟩ fun r => ∀ c : Dev nD,
      r.2.mem ((c : Thread nD τ).loc main_v12_0) = costArr (A0 m c) (A1 m c) (A2 m c) (A4 m c) (A5 m c) (A6 m c)
      ∧ r.2.mem ((c : Thread nD τ).loc main_v13) = ioaArr (A1 m c) (A3 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ hr c =>
    ⟨((hr c).1 7).trans (final7 m h c),
      ((hr c).2 main_v13 (Pipeline.mem_restRefs_of main_v13 (by decide) (by decide))).trans (tail_v13 m h c),
      ((hr c).1 0).trans (((dats m 0 c).arrAt_in 0 rfl _).trans ((A_eq m c 0).trans (V_main_arg0 m c))),
      ((hr c).1 1).trans (((dats m 0 c).arrAt_in 1 rfl _).trans ((A_eq m c 1).trans (V_main_arg1 m c))),
      ((hr c).2 main_arg2 (Pipeline.mem_restRefs_of main_arg2 (by decide) (by decide))).trans (W_main_arg2 m (dats m) c),
      ((hr c).2 main_arg3 (Pipeline.mem_restRefs_of main_arg3 (by decide) (by decide))).trans (W_main_arg3 m (dats m) c),
      ((hr c).2 main_arg4 (Pipeline.mem_restRefs_of main_arg4 (by decide) (by decide))).trans (W_main_arg4 m (dats m) c),
      ((hr c).2 main_arg5 (Pipeline.mem_restRefs_of main_arg5 (by decide) (by decide))).trans (W_main_arg5 m (dats m) c),
      ((hr c).2 main_arg6 (Pipeline.mem_restRefs_of main_arg6 (by decide) (by decide))).trans (W_main_arg6 m (dats m) c)⟩)
    (run_main m ρ)

end Cert.KernelIdeal.Bridge

end
-- ==== Proof.RefClass.lean ====
/-
  The reference's class cost of one (query, target) pair: the logistic values of all queries, gathered at the
  targets' labels along the class axis, then the focal cost. With the label a class index the gather reads that class.
-/
import proofs.«406872_j85916525789875_2_alg».proof.Proof.Gen.ReferenceIdeal.Read
import proofs.«406872_j85916525789875_2_alg».proof.Proof.Spec
import proofs.«406872_j85916525789875_2_alg».proof.Proof.Algebra
import Idealize.ShloMosaic.Lib.ValueIdx
import Idealize.ShloMosaic.Lib.ValueLayout
import Idealize.ShloMosaic.Lib.Pipeline.Value
import Idealize.ShloMosaic.Lib.StableHlo.Predicate

noncomputable section

namespace Cert.ReferenceIdeal.Bridge

open Idealize.ShloMosaic Idealize.ShloMosaic.ValueIdx Cert.ReferenceIdeal Cert.ReferenceIdeal.Read Cert.Matching

namespace RefClassRead

/-! ## The logistic values: the flattened logits at (row, class), then 1 / (1 + exp (−x)) -/

/-- Row `qRow b q`, class `kk` of the logits flattened to [16000, 80] is query `q` of image `b` at class `kk`. -/
theorem idx_v0_at (b : Fin 16) (q : Fin 1000) (kk : Fin 80) : idx_main_v0 (ix2 (qRow b q) kk) = ix3 b q kk := by
  have hb : b.val < 16 := b.isLt
  have hq : q.val < 1000 := q.isLt
  have hk : kk.val < 80 := kk.isLt
  funext a
  refine Fin.ext ?_
  match a with
  | ⟨0, _⟩ => show ((b.val * 1000 + q.val) * 80 + kk.val) / 80000 = b.val; omega
  | ⟨1, _⟩ => show ((b.val * 1000 + q.val) * 80 + kk.val) / 80 % 1000 = q.val; omega
  | ⟨2, _⟩ => show ((b.val * 1000 + q.val) * 80 + kk.val) % 80 = kk.val; omega

/-- The reference's logistic value at (row `qRow b q`, class `kk`): the logistic function of that logit. -/
theorem v6_at (a0 : (⟨S16x1000x80, .f32⟩ : BufTy).Contents (Elt Ideal)) (b : Fin 16) (q : Fin 1000) (kk : Fin 80) :
    val_main_v6 (F := Ideal) a0 (ix2 (qRow b q) kk) = Ideal.logistic (a0 (ix3 b q kk)) := by
  rw [val_main_v6_apply, val_main_v5_apply, val_main_cst_0_apply, val_main_v4_apply, val_main_v3_apply, val_main_cst_apply,
    val_main_v2_apply, val_main_v1_apply, val_main_v0_apply, idx_v0_at]
  simp only [Ideal.hostDivf_def, Ideal.ofBits_def, Ideal.addf_def, Ideal.hostUnary_exp_def, Ideal.hostNegf_def, Ideal.negf_def]
  show Ideal.div w1 (w1 + Ideal.exp (-(a0 (ix3 b q kk)))) = _
  rw [w1_eq]
  rfl

/-! ## The labels: a class index is not negative, so the wrap of negative labels leaves it -/

/-- Row `T` of the label column read by the reference's gather is target row `T`'s label. -/
theorem idx_v13_at (T : Fin 1600) : idx_main_v13 (ix2 T (0 : Fin 1)) = ix1 T := by
  funext a
  match a with
  | ⟨0, _⟩ => rfl

/-- A label that is not negative passes the reference's wrap (add 80 to a negative label) unchanged. -/
theorem v13_at (a6 : (⟨S1600, .i32⟩ : BufTy).Contents (Elt Ideal)) (T : Fin 1600) (h0 : 0 ≤ (a6 (ix1 T)).toInt) :
    val_main_v13 (F := Ideal) a6 (ix2 T (0 : Fin 1)) = a6 (ix1 T) := by
  rw [val_main_v13_apply, idx_v13_at, val_main_v12_apply, val_main_v9_apply, val_main_v8_apply, val_main_c_apply]
  have hz : (0#32 : BitVec 32).toInt = 0 := by decide
  have hlt : (a6 (ix1 T)).slt 0#32 = false := by
    unfold BitVec.slt
    rw [hz]
    exact decide_eq_false (by omega)
  have hc : IntOp.cmpi .slt (a6 (ix1 T)) 0#32 = 0#1 := by
    show BitVec.ofBool ((a6 (ix1 T)).slt 0#32) = 0#1
    rw [hlt]
    rfl
  rw [hc, select_zero]

/-! ## The gather along the class axis -/

/-- The gather's dimension numbers: the row axis is kept (the one offset axis), the class axis is collapsed and is the
    one axis the start indices name; the start indices are a [1600, 1] column, one index per target row. -/
abbrev gd := gather_S16000x80_S1600x1_S16000x1600_0_1_n_n_1_1_160001

/-- On the row axis the gather reads the result's own row: no start, no batching, the offset coordinate. -/
theorem gather_axis0 (idx : IVec S1600x1 32) (n : Fin 16000) (T : Fin 1600) :
    (gd.operandIdx (ix2 n T) idx 0).val = n.val := by
  have hs : gd.start (ix2 n T) idx 0 = 0 := rfl
  have hb : gd.batchCoord (ix2 n T) 0 = 0 := rfl
  have ho : gd.offCoord (ix2 n T) 0 = n.val := rfl
  show gd.start (ix2 n T) idx 0 + gd.batchCoord (ix2 n T) 0 + gd.offCoord (ix2 n T) 0 = n.val
  rw [hs, hb, ho]
  omega

/-- The start index of result (n, T) is read at row `T` of the column: the result's batch coordinate. -/
theorem gather_siIdx (n : Fin 16000) (T : Fin 1600) (h : 0 < gd.startIndexMap.length) :
    gd.siIdx (ix2 n T) ⟨0, h⟩ = ix2 T (0 : Fin 1) := by
  funext b
  refine Fin.ext ?_
  match b with
  | ⟨0, _⟩ => rfl
  | ⟨1, _⟩ => rfl

/-- On the class axis it reads the target's start index, signed and clamped into [0, 79]. -/
theorem gather_axis1 (idx : IVec S1600x1 32) (n : Fin 16000) (T : Fin 1600) :
    (gd.operandIdx (ix2 n T) idx 1).val = min (idx (ix2 T (0 : Fin 1))).toInt.toNat 79 := by
  have hb : gd.batchCoord (ix2 n T) 1 = 0 := rfl
  have ho : gd.offCoord (ix2 n T) 1 = 0 := rfl
  have hs : gd.start (ix2 n T) idx 1 = min (idx (gd.siIdx (ix2 n T) ⟨0, by decide⟩)).toInt.toNat 79 := rfl
  show gd.start (ix2 n T) idx 1 + gd.batchCoord (ix2 n T) 1 + gd.offCoord (ix2 n T) 1 = _
  rw [hs, hb, ho, gather_siIdx]
  omega

/-- The gather read at (row `n`, target `T`): row `n` of the operand at the class `k` the clamped start index names. -/
theorem gather_at {α : Type} (x : S16000x80.Idx → α) (idx : IVec S1600x1 32) (n : Fin 16000) (T : Fin 1600) (k : Fin 80)
    (hk : min (idx (ix2 T (0 : Fin 1))).toInt.toNat 79 = k.val) :
    Host.gather gd x idx (ix2 n T) = x (ix2 n k) := by
  unfold Host.gather
  congr 1
  funext a
  refine Fin.ext ?_
  match a with
  | ⟨0, _⟩ => exact gather_axis0 idx n T
  | ⟨1, _⟩ => exact (gather_axis1 idx n T).trans hk

/-- The gathered logistic value at (row `qRow b q`, target row `T`) when the target's label is the class `kk`. -/
theorem v14_at (a0 : (⟨S16x1000x80, .f32⟩ : BufTy).Contents (Elt Ideal)) (a6 : (⟨S1600, .i32⟩ : BufTy).Contents (Elt Ideal))
    (b : Fin 16) (q : Fin 1000) (T : Fin 1600) (kk : Fin 80) (hkk : (a6 (ix1 T)).toInt = (kk.val : ℤ)) :
    val_main_v14 (F := Ideal) a0 a6 (ix2 (qRow b q) T) = Ideal.logistic (a0 (ix3 b q kk)) := by
  have hk : kk.val < 80 := kk.isLt
  have h0 : 0 ≤ (a6 (ix1 T)).toInt := by omega
  have hcl : min (val_main_v13 (F := Ideal) a6 (ix2 T (0 : Fin 1))).toInt.toNat 79 = kk.val := by
    rw [v13_at a6 T h0, hkk]
    omega
  unfold val_main_v14
  rw [gather_at _ _ _ _ kk hcl, v6_at]

end RefClassRead

open RefClassRead

/-- The pairwise class cost at query row `qRow b q` and any target row `T` whose label is the class `kk`. -/
theorem class_at (a0 : (⟨S16x1000x80, .f32⟩ : BufTy).Contents (Elt Ideal)) (a6 : (⟨S1600, .i32⟩ : BufTy).Contents (Elt Ideal))
    (b : Fin 16) (q : Fin 1000) (T : Fin 1600) (kk : Fin 80) (hkk : (a6 (ix1 T)).toInt = (kk.val : ℤ)) :
    val_main_v37 (F := Ideal) a0 a6 (ix2 (qRow b q) T) = focal (Ideal.logistic (a0 (ix3 b q kk))) := by
  have hp := v14_at a0 a6 b q T kk hkk
  simp only [val_main_v37_apply, val_main_v36_apply, val_main_v31_apply, val_main_v30_apply, val_main_cst_8_apply,
    val_main_v29_apply, val_main_v27_apply, val_main_v26_apply, val_main_cst_6_apply, val_main_v28_apply, val_main_cst_7_apply,
    val_main_v35_apply, val_main_v34_apply, val_main_v33_apply, val_main_v32_apply, val_main_cst_9_apply,
    val_main_v25_apply, val_main_v18_apply, val_main_v17_apply, val_main_cst_3_apply, val_main_v16_apply, val_main_v15_apply,
    val_main_cst_2_apply, val_main_v24_apply, val_main_v23_apply, val_main_v22_apply, val_main_v20_apply, val_main_v19_apply,
    val_main_cst_4_apply, val_main_v21_apply, val_main_cst_5_apply, hp,
    Ideal.subf_def, Ideal.mulf_def, Ideal.addf_def, Ideal.ofBits_def, Ideal.hostPowf_def, Ideal.hostUnary_log_def,
    Ideal.hostNegf_def, Ideal.negf_def]
  rfl

end Cert.ReferenceIdeal.Bridge

end
-- ==== Proof.RefCost.lean ====
/-
  The reference's cost result, entry by entry. It computes the cost of every query of every image against every
  target of every image and keeps, for image `b`, its own queries against its own targets: entry (b, q, t) is the
  pairwise cost at query row `qRow b q` and target row `tRow b t`.
-/
import proofs.«406872_j85916525789875_2_alg».proof.Proof.Gen.ReferenceIdeal.Read
import proofs.«406872_j85916525789875_2_alg».proof.Proof.Spec
import proofs.«406872_j85916525789875_2_alg».proof.Proof.Algebra
import proofs.«406872_j85916525789875_2_alg».proof.Proof.RefClass
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.ReferenceIdeal.Bridge

open Idealize.ShloMosaic Idealize.ShloMosaic.ValueIdx Cert.ReferenceIdeal Cert.ReferenceIdeal.Read Cert.Matching

namespace RefCostRead

/-! ## The index pairs: the word of a small natural number is not negative -/

/-- The 32-bit word of a number below 16, read signed, is that number. -/
theorem toInt_word (b : Fin 16) : (BitVec.ofNat 32 b.val).toInt = (b.val : ℤ) := by
  have hb : b.val < 16 := b.isLt
  have hn : (BitVec.ofNat 32 b.val).toNat = b.val := by
    rw [BitVec.toNat_ofNat]; exact Nat.mod_eq_of_lt (by omega)
  rw [BitVec.toInt_eq_toNat_of_lt (by rw [hn]; omega), hn]

/-- The wrap of negative indices (add 16 to a negative one) leaves the word of a number below 16. -/
theorem wrap_word (b : Fin 16) :
    Scalar.select (IntOp.cmpi .slt (BitVec.ofNat 32 b.val) 0#32) (IntOp.addi (BitVec.ofNat 32 b.val) 16#32)
      (BitVec.ofNat 32 b.val) = BitVec.ofNat 32 b.val := by
  have hc : IntOp.cmpi .slt (BitVec.ofNat 32 b.val) 0#32 = 0#1 := by
    unfold IntOp.cmpi
    have : (BitVec.ofNat 32 b.val).slt 0#32 = false := by
      rw [Bool.eq_false_iff]
      intro h
      rw [BitVec.slt_iff_toInt_lt, toInt_word, BitVec.toInt_zero] at h
      omega
    simp only [this]
    rfl
  rw [hc, select_zero]

/-! ## The two index columns joined -/

/-- Column 0 of the two joined [16,1] columns is the first column. -/
theorem pair_col0 {α : Type} (x y : S16x1.Idx → α) (h : Shape.Concatenates [S16x1, S16x1] S16x2 1) (b : Fin 16) :
    concatenate S16x2 1 [⟨S16x1, x⟩, ⟨S16x1, y⟩] h (ix2 b (0 : Fin 2)) = x (ix2 b (0 : Fin 1)) :=
  concatenate_pair_apply_left 1 x y h _ rfl _ (fun c => by
    match c with
    | ⟨0, _⟩ => rfl
    | ⟨1, _⟩ => rfl)

/-- Column 1 is the second column. -/
theorem pair_col1 {α : Type} (x y : S16x1.Idx → α) (h : Shape.Concatenates [S16x1, S16x1] S16x2 1) (b : Fin 16) :
    concatenate S16x2 1 [⟨S16x1, x⟩, ⟨S16x1, y⟩] h (ix2 b (1 : Fin 2)) = y (ix2 b (0 : Fin 1)) :=
  concatenate_pair_apply_right 1 x y h _ rfl rfl _
    (fun c hc => by
      match c with
      | ⟨0, _⟩ => rfl
      | ⟨1, _⟩ => exact absurd rfl hc)
    rfl

/-! ## The gather of the diagonal blocks -/

/-- The gather's dimension numbers: the image and the image of the target are collapsed and indexed, the query and the
    target are kept. -/
abbrev cgd := gather_S16x1000x16x100_S16x2_S16x1000x100_12_02_n_n_02_1_110001100

/-- Where the gather reads component `c` of the start index of result entry (b, q, t): row `b`, column `c`. -/
theorem cgd_siIdx (b : Fin 16) (q : Fin 1000) (t : Fin 100) (c : Fin 2) (hc : c.val < cgd.startIndexMap.length) :
    cgd.siIdx (ix3 b q t) ⟨c.val, hc⟩ = ix2 b c := by
  funext a
  refine Fin.ext ?_
  match a with
  | ⟨0, _⟩ => rfl
  | ⟨1, _⟩ => rfl

/-- On the image axis the gather reads the first start index, signed and clamped into [0, 15]. -/
theorem cgd_axis0 (idx : IVec S16x2 32) (b : Fin 16) (q : Fin 1000) (t : Fin 100) :
    (cgd.operandIdx (ix3 b q t) idx 0).val = min (idx (ix2 b (0 : Fin 2))).toInt.toNat 15 := by
  have hb : cgd.batchCoord (ix3 b q t) 0 = 0 := rfl
  have ho : cgd.offCoord (ix3 b q t) 0 = 0 := rfl
  have hs : cgd.start (ix3 b q t) idx 0 = min (idx (ix2 b (0 : Fin 2))).toInt.toNat 15 := by
    unfold GatherDims.start
    rw [dif_pos (show (0 : Fin 4) ∈ cgd.startIndexMap from by decide)]
    have e := cgd_siIdx b q t 0 (by decide)
    rw [show (⟨List.idxOf (0 : Fin 4) cgd.startIndexMap, List.idxOf_lt_length_iff.2 (by decide)⟩ : Fin cgd.startIndexMap.length) = ⟨(0 : Fin 2).val, by decide⟩ from rfl, e]
    rfl
  show cgd.start (ix3 b q t) idx 0 + cgd.batchCoord (ix3 b q t) 0 + cgd.offCoord (ix3 b q t) 0 = _
  rw [hs, hb, ho]; omega

/-- On the query axis it reads the result's own query. -/
theorem cgd_axis1 (idx : IVec S16x2 32) (b : Fin 16) (q : Fin 1000) (t : Fin 100) :
    (cgd.operandIdx (ix3 b q t) idx 1).val = q.val := by
  have hs : cgd.start (ix3 b q t) idx 1 = 0 := rfl
  have hb : cgd.batchCoord (ix3 b q t) 1 = 0 := rfl
  have ho : cgd.offCoord (ix3 b q t) 1 = q.val := rfl
  show cgd.start (ix3 b q t) idx 1 + cgd.batchCoord (ix3 b q t) 1 + cgd.offCoord (ix3 b q t) 1 = _
  rw [hs, hb, ho]; omega

/-- On the axis of the target's image it reads the second start index, signed and clamped into [0, 15]. -/
theorem cgd_axis2 (idx : IVec S16x2 32) (b : Fin 16) (q : Fin 1000) (t : Fin 100) :
    (cgd.operandIdx (ix3 b q t) idx 2).val = min (idx (ix2 b (1 : Fin 2))).toInt.toNat 15 := by
  have hb : cgd.batchCoord (ix3 b q t) 2 = 0 := rfl
  have ho : cgd.offCoord (ix3 b q t) 2 = 0 := rfl
  have hs : cgd.start (ix3 b q t) idx 2 = min (idx (ix2 b (1 : Fin 2))).toInt.toNat 15 := by
    unfold GatherDims.start
    rw [dif_pos (show (2 : Fin 4) ∈ cgd.startIndexMap from by decide)]
    have e := cgd_siIdx b q t 1 (by decide)
    rw [show (⟨List.idxOf (2 : Fin 4) cgd.startIndexMap, List.idxOf_lt_length_iff.2 (by decide)⟩ : Fin cgd.startIndexMap.length) = ⟨(1 : Fin 2).val, by decide⟩ from rfl, e]
    rfl
  show cgd.start (ix3 b q t) idx 2 + cgd.batchCoord (ix3 b q t) 2 + cgd.offCoord (ix3 b q t) 2 = _
  rw [hs, hb, ho]; omega

/-- On the target axis it reads the result's own target. -/
theorem cgd_axis3 (idx : IVec S16x2 32) (b : Fin 16) (q : Fin 1000) (t : Fin 100) :
    (cgd.operandIdx (ix3 b q t) idx 3).val = t.val := by
  have hs : cgd.start (ix3 b q t) idx 3 = 0 := rfl
  have hb : cgd.batchCoord (ix3 b q t) 3 = 0 := rfl
  have ho : cgd.offCoord (ix3 b q t) 3 = t.val := rfl
  show cgd.start (ix3 b q t) idx 3 + cgd.batchCoord (ix3 b q t) 3 + cgd.offCoord (ix3 b q t) 3 = _
  rw [hs, hb, ho]; omega

/-- With both start indices of row `b` the word of `b`, entry (b, q, t) of the gather is the operand at (b, q, b, t). -/
theorem cgd_at {α : Type} (x : S16x1000x16x100.Idx → α) (idx : IVec S16x2 32) (b : Fin 16) (q : Fin 1000) (t : Fin 100)
    (h0 : idx (ix2 b (0 : Fin 2)) = BitVec.ofNat 32 b.val) (h1 : idx (ix2 b (1 : Fin 2)) = BitVec.ofNat 32 b.val) :
    Host.gather cgd x idx (ix3 b q t) = x (ix4 b q b t) := by
  have hb : b.val < 16 := b.isLt
  unfold Host.gather
  congr 1
  funext a
  refine Fin.ext ?_
  match a with
  | ⟨0, _⟩ => exact (cgd_axis0 idx b q t).trans (by rw [h0, toInt_word, Int.toNat_natCast]; show min b.val 15 = b.val; omega)
  | ⟨1, _⟩ => exact cgd_axis1 idx b q t
  | ⟨2, _⟩ => exact (cgd_axis2 idx b q t).trans (by rw [h1, toInt_word, Int.toNat_natCast]; show min b.val 15 = b.val; omega)
  | ⟨3, _⟩ => exact cgd_axis3 idx b q t

/-! ## The flattened rows: row `qRow b q` of the queries is query `q` of image `b` -/

/-- Row `qRow b q`, coordinate `k` of the query boxes flattened to [16000, 4] is query `q` of image `b` there. -/
theorem idx_v7_at (b : Fin 16) (q : Fin 1000) (k : Fin 4) : idx_main_v7 (ix2 (qRow b q) k) = ix3 b q k := by
  have hb : b.val < 16 := b.isLt
  have hq : q.val < 1000 := q.isLt
  have hk : k.val < 4 := k.isLt
  funext a
  refine Fin.ext ?_
  match a with
  | ⟨0, _⟩ => show ((b.val * 1000 + q.val) * 4 + k.val) / 4000 = b.val; omega
  | ⟨1, _⟩ => show ((b.val * 1000 + q.val) * 4 + k.val) / 4 % 1000 = q.val; omega
  | ⟨2, _⟩ => show ((b.val * 1000 + q.val) * 4 + k.val) % 4 = k.val; omega

/-- The flattened query boxes at row `qRow b q`. -/
theorem v7_at (a1 : (⟨S16x1000x4, .f32⟩ : BufTy).Contents (Elt Ideal)) (b : Fin 16) (q : Fin 1000) (k : Fin 4) :
    val_main_v7 (F := Ideal) a1 (ix2 (qRow b q) k) = a1 (ix3 b q k) := by
  rw [val_main_v7_apply, idx_v7_at]

/-- The image sizes repeated for every query and flattened: row `qRow b q` reads image `b`. -/
theorem idx_v39_at (b : Fin 16) (q : Fin 1000) (k : Fin 4) : idx_main_v38 (idx_main_v39 (ix2 (qRow b q) k)) = ix2 b k := by
  have hb : b.val < 16 := b.isLt
  have hq : q.val < 1000 := q.isLt
  have hk : k.val < 4 := k.isLt
  funext a
  refine Fin.ext ?_
  match a with
  | ⟨0, _⟩ => show ((b.val * 1000 + q.val) * 4 + k.val) / 4000 = b.val; omega
  | ⟨1, _⟩ => show ((b.val * 1000 + q.val) * 4 + k.val) % 4 = k.val; omega

/-- The queries' image sizes at row `qRow b q`. -/
theorem v39_at (a4 : (⟨S16x4, .f32⟩ : BufTy).Contents (Elt Ideal)) (b : Fin 16) (q : Fin 1000) (k : Fin 4) :
    val_main_v39 (F := Ideal) a4 (ix2 (qRow b q) k) = a4 (ix2 b k) := by
  rw [val_main_v39_apply, val_main_v38_apply, idx_v39_at]

/-! ## The L1 distance of the normalised boxes -/

/-- One coordinate's term: the absolute difference of the two normalised coordinates. -/
theorem l1_term (a1 : (⟨S16x1000x4, .f32⟩ : BufTy).Contents (Elt Ideal)) (a2 : (⟨S1600x4, .f32⟩ : BufTy).Contents (Elt Ideal)) (a4 : (⟨S16x4, .f32⟩ : BufTy).Contents (Elt Ideal)) (a5 : (⟨S1600x4, .f32⟩ : BufTy).Contents (Elt Ideal)) (n : Fin 16000) (T : Fin 1600) (k : Fin 4) :
    val_main_v47 (F := Ideal) a1 a2 a4 a5 (ix3 n T k)
      = absE (Ideal.div (val_main_v7 (F := Ideal) a1 (ix2 n k)) (val_main_v39 (F := Ideal) a4 (ix2 n k))
          - Ideal.div (a2 (ix2 T k)) (a5 (ix2 T k))) := by
  have e1 : idx_main_v42 (idx_main_v44 (ix3 n T k)) = ix2 n k := funext fun a => match a with | ⟨0, _⟩ => rfl | ⟨1, _⟩ => rfl
  have e2 : idx_main_v43 (idx_main_v45 (ix3 n T k)) = ix2 T k := funext fun a => match a with | ⟨0, _⟩ => rfl | ⟨1, _⟩ => rfl
  rw [val_main_v47_apply, val_main_v46_apply, val_main_v44_apply, val_main_v42_apply, val_main_v40_apply, e1,
    val_main_v45_apply, val_main_v43_apply, val_main_v41_apply, e2]
  rfl

/-- The sum over the four coordinates from the zero word is the L1 distance written left to right. -/
theorem l1_at (a1 : (⟨S16x1000x4, .f32⟩ : BufTy).Contents (Elt Ideal)) (a2 : (⟨S1600x4, .f32⟩ : BufTy).Contents (Elt Ideal)) (a4 : (⟨S16x4, .f32⟩ : BufTy).Contents (Elt Ideal)) (a5 : (⟨S1600x4, .f32⟩ : BufTy).Contents (Elt Ideal)) (n : Fin 16000) (T : Fin 1600) :
    val_main_v48 (F := Ideal) a1 a2 a4 a5 (ix2 n T) = l1 (fun k => val_main_v7 (F := Ideal) a1 (ix2 n k)) (fun k => a2 (ix2 T k)) (fun k => val_main_v39 (F := Ideal) a4 (ix2 n k)) (fun k => a5 (ix2 T k)) := by
  have e : ∀ k : Fin 4, idx_main_v48 (ix2 n T) k = ix3 n T k := fun k => funext fun a => match a with | ⟨0, _⟩ => rfl | ⟨1, _⟩ => rfl | ⟨2, _⟩ => rfl
  have hs : ∑ k : Fin 4, val_main_v47 (F := Ideal) a1 a2 a4 a5 (idx_main_v48 (ix2 n T) k)
      = ∑ k : Fin 4, absE (Ideal.div (val_main_v7 (F := Ideal) a1 (ix2 n k)) (val_main_v39 (F := Ideal) a4 (ix2 n k))
          - Ideal.div (a2 (ix2 T k)) (a5 (ix2 T k))) :=
    Finset.sum_congr rfl fun k _ => by rw [e k, l1_term]
  rw [val_main_v48_apply, val_main_cst_10_apply, hs]
  exact sum_four _

/-! ## Shared area, areas, union -/

/-- The clipped overlap of the x-ranges of query row `n` and target row `T`. -/
theorem inter_x (a1 : (⟨S16x1000x4, .f32⟩ : BufTy).Contents (Elt Ideal)) (a2 : (⟨S1600x4, .f32⟩ : BufTy).Contents (Elt Ideal)) (n : Fin 16000) (T : Fin 1600) :
    val_main_v64 (F := Ideal) a1 a2 (ix3 n T (0 : Fin 2))
      = max w0 (min (val_main_v7 (F := Ideal) a1 (ix2 n (2 : Fin 4))) (a2 (ix2 T (2 : Fin 4))) - max (val_main_v7 (F := Ideal) a1 (ix2 n (0 : Fin 4))) (a2 (ix2 T (0 : Fin 4)))) := by
  have e1 : idx_main_v56 (idx_main_v57 (idx_main_v60 (ix3 n T (0 : Fin 2)))) = ix2 n (2 : Fin 4) := funext fun a => match a with | ⟨0, _⟩ => rfl | ⟨1, _⟩ => rfl
  have e2 : idx_main_v58 (idx_main_v59 (idx_main_v61 (ix3 n T (0 : Fin 2)))) = ix2 T (2 : Fin 4) := funext fun a => match a with | ⟨0, _⟩ => rfl | ⟨1, _⟩ => rfl
  have e3 : idx_main_v49 (idx_main_v50 (idx_main_v53 (ix3 n T (0 : Fin 2)))) = ix2 n (0 : Fin 4) := funext fun a => match a with | ⟨0, _⟩ => rfl | ⟨1, _⟩ => rfl
  have e4 : idx_main_v51 (idx_main_v52 (idx_main_v54 (ix3 n T (0 : Fin 2)))) = ix2 T (0 : Fin 4) := funext fun a => match a with | ⟨0, _⟩ => rfl | ⟨1, _⟩ => rfl
  rw [val_main_v64_apply, val_main_call0_v1_apply, val_main_call0_v0_apply, val_main_cst_11_apply, val_main_v63_apply,
    val_main_v62_apply, val_main_v60_apply, val_main_v57_apply, val_main_v56_apply, e1, val_main_v61_apply, val_main_v59_apply, val_main_v58_apply, e2,
    val_main_v55_apply, val_main_v53_apply, val_main_v50_apply, val_main_v49_apply, e3, val_main_v54_apply, val_main_v52_apply, val_main_v51_apply, e4]
  rfl

/-- The clipped overlap of their y-ranges. -/
theorem inter_y (a1 : (⟨S16x1000x4, .f32⟩ : BufTy).Contents (Elt Ideal)) (a2 : (⟨S1600x4, .f32⟩ : BufTy).Contents (Elt Ideal)) (n : Fin 16000) (T : Fin 1600) :
    val_main_v64 (F := Ideal) a1 a2 (ix3 n T (1 : Fin 2))
      = max w0 (min (val_main_v7 (F := Ideal) a1 (ix2 n (3 : Fin 4))) (a2 (ix2 T (3 : Fin 4))) - max (val_main_v7 (F := Ideal) a1 (ix2 n (1 : Fin 4))) (a2 (ix2 T (1 : Fin 4)))) := by
  have e1 : idx_main_v56 (idx_main_v57 (idx_main_v60 (ix3 n T (1 : Fin 2)))) = ix2 n (3 : Fin 4) := funext fun a => match a with | ⟨0, _⟩ => rfl | ⟨1, _⟩ => rfl
  have e2 : idx_main_v58 (idx_main_v59 (idx_main_v61 (ix3 n T (1 : Fin 2)))) = ix2 T (3 : Fin 4) := funext fun a => match a with | ⟨0, _⟩ => rfl | ⟨1, _⟩ => rfl
  have e3 : idx_main_v49 (idx_main_v50 (idx_main_v53 (ix3 n T (1 : Fin 2)))) = ix2 n (1 : Fin 4) := funext fun a => match a with | ⟨0, _⟩ => rfl | ⟨1, _⟩ => rfl
  have e4 : idx_main_v51 (idx_main_v52 (idx_main_v54 (ix3 n T (1 : Fin 2)))) = ix2 T (1 : Fin 4) := funext fun a => match a with | ⟨0, _⟩ => rfl | ⟨1, _⟩ => rfl
  rw [val_main_v64_apply, val_main_call0_v1_apply, val_main_call0_v0_apply, val_main_cst_11_apply, val_main_v63_apply,
    val_main_v62_apply, val_main_v60_apply, val_main_v57_apply, val_main_v56_apply, e1, val_main_v61_apply, val_main_v59_apply, val_main_v58_apply, e2,
    val_main_v55_apply, val_main_v53_apply, val_main_v50_apply, val_main_v49_apply, e3, val_main_v54_apply, val_main_v52_apply, val_main_v51_apply, e4]
  rfl

/-- The shared area of query row `n` and target row `T`, at entry (n, T) of the pairwise array. -/
theorem inter_at (a1 : (⟨S16x1000x4, .f32⟩ : BufTy).Contents (Elt Ideal)) (a2 : (⟨S1600x4, .f32⟩ : BufTy).Contents (Elt Ideal)) (n : Fin 16000) (T : Fin 1600) :
    val_main_v69 (F := Ideal) a1 a2 (ix2 n T) = inter (fun k => val_main_v7 (F := Ideal) a1 (ix2 n k)) (fun k => a2 (ix2 T k)) := by
  have hn : n.val < 16000 := n.isLt
  have hT : T.val < 1600 := T.isLt
  have e0 : idx_main_v65 (idx_main_v66 (ix2 n T)) = ix3 n T (0 : Fin 2) := by
    funext a
    refine Fin.ext ?_
    match a with
    | ⟨0, _⟩ => show (n.val * 1600 + T.val) / 1600 = n.val; omega
    | ⟨1, _⟩ => show (n.val * 1600 + T.val) / 1 % 1600 = T.val; omega
    | ⟨2, _⟩ => rfl
  have e1 : idx_main_v67 (idx_main_v68 (ix2 n T)) = ix3 n T (1 : Fin 2) := by
    funext a
    refine Fin.ext ?_
    match a with
    | ⟨0, _⟩ => show (n.val * 1600 + T.val) / 1600 = n.val; omega
    | ⟨1, _⟩ => show (n.val * 1600 + T.val) / 1 % 1600 = T.val; omega
    | ⟨2, _⟩ => rfl
  rw [val_main_v69_apply, val_main_v66_apply, val_main_v65_apply, e0, val_main_v68_apply, val_main_v67_apply, e1, inter_x, inter_y]
  rfl

/-- The area of query row `n`. -/
theorem area_query_at (a1 : (⟨S16x1000x4, .f32⟩ : BufTy).Contents (Elt Ideal)) (n : Fin 16000) :
    val_main_v80 (F := Ideal) a1 (ix1 n) = area (fun k => val_main_v7 (F := Ideal) a1 (ix2 n k)) := by
  have e2 : idx_main_v70 (idx_main_v71 (ix1 n)) = ix2 n (2 : Fin 4) := by
    funext a
    refine Fin.ext ?_
    match a with
    | ⟨0, _⟩ => show n.val / 1 = n.val; omega
    | ⟨1, _⟩ => rfl
  have e0 : idx_main_v72 (idx_main_v73 (ix1 n)) = ix2 n (0 : Fin 4) := by
    funext a
    refine Fin.ext ?_
    match a with
    | ⟨0, _⟩ => show n.val / 1 = n.val; omega
    | ⟨1, _⟩ => rfl
  have e3 : idx_main_v75 (idx_main_v76 (ix1 n)) = ix2 n (3 : Fin 4) := by
    funext a
    refine Fin.ext ?_
    match a with
    | ⟨0, _⟩ => show n.val / 1 = n.val; omega
    | ⟨1, _⟩ => rfl
  have e1 : idx_main_v77 (idx_main_v78 (ix1 n)) = ix2 n (1 : Fin 4) := by
    funext a
    refine Fin.ext ?_
    match a with
    | ⟨0, _⟩ => show n.val / 1 = n.val; omega
    | ⟨1, _⟩ => rfl
  rw [val_main_v80_apply, val_main_v74_apply, val_main_v71_apply, val_main_v70_apply, e2, val_main_v73_apply, val_main_v72_apply, e0,
    val_main_v79_apply, val_main_v76_apply, val_main_v75_apply, e3, val_main_v78_apply, val_main_v77_apply, e1]
  rfl

/-- The area of target row `T`. -/
theorem area_target_at (a2 : (⟨S1600x4, .f32⟩ : BufTy).Contents (Elt Ideal)) (T : Fin 1600) :
    val_main_v92 (F := Ideal) a2 (ix1 T) = area (fun k => a2 (ix2 T k)) := by
  have e2 : idx_main_v82 (idx_main_v83 (ix1 T)) = ix2 T (2 : Fin 4) := by
    funext a
    refine Fin.ext ?_
    match a with
    | ⟨0, _⟩ => show T.val / 1 = T.val; omega
    | ⟨1, _⟩ => rfl
  have e0 : idx_main_v84 (idx_main_v85 (ix1 T)) = ix2 T (0 : Fin 4) := by
    funext a
    refine Fin.ext ?_
    match a with
    | ⟨0, _⟩ => show T.val / 1 = T.val; omega
    | ⟨1, _⟩ => rfl
  have e3 : idx_main_v87 (idx_main_v88 (ix1 T)) = ix2 T (3 : Fin 4) := by
    funext a
    refine Fin.ext ?_
    match a with
    | ⟨0, _⟩ => show T.val / 1 = T.val; omega
    | ⟨1, _⟩ => rfl
  have e1 : idx_main_v89 (idx_main_v90 (ix1 T)) = ix2 T (1 : Fin 4) := by
    funext a
    refine Fin.ext ?_
    match a with
    | ⟨0, _⟩ => show T.val / 1 = T.val; omega
    | ⟨1, _⟩ => rfl
  rw [val_main_v92_apply, val_main_v86_apply, val_main_v83_apply, val_main_v82_apply, e2, val_main_v85_apply, val_main_v84_apply, e0,
    val_main_v91_apply, val_main_v88_apply, val_main_v87_apply, e3, val_main_v90_apply, val_main_v89_apply, e1]
  rfl

/-- The union's area at entry (n, T): the two areas added, less the shared area. -/
theorem union_at (a1 : (⟨S16x1000x4, .f32⟩ : BufTy).Contents (Elt Ideal)) (a2 : (⟨S1600x4, .f32⟩ : BufTy).Contents (Elt Ideal)) (n : Fin 16000) (T : Fin 1600) :
    val_main_v97 (F := Ideal) a1 a2 (ix2 n T) = union (fun k => val_main_v7 (F := Ideal) a1 (ix2 n k)) (fun k => a2 (ix2 T k)) := by
  have e1 : idx_main_v81 (idx_main_v94 (ix2 n T)) = ix1 n := funext fun a => match a with | ⟨0, _⟩ => rfl
  have e2 : idx_main_v93 (idx_main_v95 (ix2 n T)) = ix1 T := funext fun a => match a with | ⟨0, _⟩ => rfl
  rw [val_main_v97_apply, val_main_v96_apply, val_main_v94_apply, val_main_v81_apply, e1, val_main_v95_apply, val_main_v93_apply, e2,
    area_query_at, area_target_at, inter_at]
  rfl

/-! ## The enclosing box and the generalised intersection over union -/

/-- The clipped width of the box enclosing query row `n` and target row `T`. -/
theorem hull_x (a1 : (⟨S16x1000x4, .f32⟩ : BufTy).Contents (Elt Ideal)) (a2 : (⟨S1600x4, .f32⟩ : BufTy).Contents (Elt Ideal)) (n : Fin 16000) (T : Fin 1600) :
    val_main_v114 (F := Ideal) a1 a2 (ix3 n T (0 : Fin 2))
      = max w0 (max (val_main_v7 (F := Ideal) a1 (ix2 n (2 : Fin 4))) (a2 (ix2 T (2 : Fin 4))) - min (val_main_v7 (F := Ideal) a1 (ix2 n (0 : Fin 4))) (a2 (ix2 T (0 : Fin 4)))) := by
  have e1 : idx_main_v106 (idx_main_v107 (idx_main_v110 (ix3 n T (0 : Fin 2)))) = ix2 n (2 : Fin 4) := funext fun a => match a with | ⟨0, _⟩ => rfl | ⟨1, _⟩ => rfl
  have e2 : idx_main_v108 (idx_main_v109 (idx_main_v111 (ix3 n T (0 : Fin 2)))) = ix2 T (2 : Fin 4) := funext fun a => match a with | ⟨0, _⟩ => rfl | ⟨1, _⟩ => rfl
  have e3 : idx_main_v99 (idx_main_v100 (idx_main_v103 (ix3 n T (0 : Fin 2)))) = ix2 n (0 : Fin 4) := funext fun a => match a with | ⟨0, _⟩ => rfl | ⟨1, _⟩ => rfl
  have e4 : idx_main_v101 (idx_main_v102 (idx_main_v104 (ix3 n T (0 : Fin 2)))) = ix2 T (0 : Fin 4) := funext fun a => match a with | ⟨0, _⟩ => rfl | ⟨1, _⟩ => rfl
  rw [val_main_v114_apply, val_main_call1_v1_apply, val_main_call1_v0_apply, val_main_cst_12_apply, val_main_v113_apply,
    val_main_v112_apply, val_main_v110_apply, val_main_v107_apply, val_main_v106_apply, e1, val_main_v111_apply, val_main_v109_apply, val_main_v108_apply, e2,
    val_main_v105_apply, val_main_v103_apply, val_main_v100_apply, val_main_v99_apply, e3, val_main_v104_apply, val_main_v102_apply, val_main_v101_apply, e4]
  rfl

/-- The clipped height of that box. -/
theorem hull_y (a1 : (⟨S16x1000x4, .f32⟩ : BufTy).Contents (Elt Ideal)) (a2 : (⟨S1600x4, .f32⟩ : BufTy).Contents (Elt Ideal)) (n : Fin 16000) (T : Fin 1600) :
    val_main_v114 (F := Ideal) a1 a2 (ix3 n T (1 : Fin 2))
      = max w0 (max (val_main_v7 (F := Ideal) a1 (ix2 n (3 : Fin 4))) (a2 (ix2 T (3 : Fin 4))) - min (val_main_v7 (F := Ideal) a1 (ix2 n (1 : Fin 4))) (a2 (ix2 T (1 : Fin 4)))) := by
  have e1 : idx_main_v106 (idx_main_v107 (idx_main_v110 (ix3 n T (1 : Fin 2)))) = ix2 n (3 : Fin 4) := funext fun a => match a with | ⟨0, _⟩ => rfl | ⟨1, _⟩ => rfl
  have e2 : idx_main_v108 (idx_main_v109 (idx_main_v111 (ix3 n T (1 : Fin 2)))) = ix2 T (3 : Fin 4) := funext fun a => match a with | ⟨0, _⟩ => rfl | ⟨1, _⟩ => rfl
  have e3 : idx_main_v99 (idx_main_v100 (idx_main_v103 (ix3 n T (1 : Fin 2)))) = ix2 n (1 : Fin 4) := funext fun a => match a with | ⟨0, _⟩ => rfl | ⟨1, _⟩ => rfl
  have e4 : idx_main_v101 (idx_main_v102 (idx_main_v104 (ix3 n T (1 : Fin 2)))) = ix2 T (1 : Fin 4) := funext fun a => match a with | ⟨0, _⟩ => rfl | ⟨1, _⟩ => rfl
  rw [val_main_v114_apply, val_main_call1_v1_apply, val_main_call1_v0_apply, val_main_cst_12_apply, val_main_v113_apply,
    val_main_v112_apply, val_main_v110_apply, val_main_v107_apply, val_main_v106_apply, e1, val_main_v111_apply, val_main_v109_apply, val_main_v108_apply, e2,
    val_main_v105_apply, val_main_v103_apply, val_main_v100_apply, val_main_v99_apply, e3, val_main_v104_apply, val_main_v102_apply, val_main_v101_apply, e4]
  rfl

/-- The area of the box enclosing both, at entry (n, T). -/
theorem hull_at (a1 : (⟨S16x1000x4, .f32⟩ : BufTy).Contents (Elt Ideal)) (a2 : (⟨S1600x4, .f32⟩ : BufTy).Contents (Elt Ideal)) (n : Fin 16000) (T : Fin 1600) :
    val_main_v119 (F := Ideal) a1 a2 (ix2 n T) = hull (fun k => val_main_v7 (F := Ideal) a1 (ix2 n k)) (fun k => a2 (ix2 T k)) := by
  have hn : n.val < 16000 := n.isLt
  have hT : T.val < 1600 := T.isLt
  have e0 : idx_main_v115 (idx_main_v116 (ix2 n T)) = ix3 n T (0 : Fin 2) := by
    funext a
    refine Fin.ext ?_
    match a with
    | ⟨0, _⟩ => show (n.val * 1600 + T.val) / 1600 = n.val; omega
    | ⟨1, _⟩ => show (n.val * 1600 + T.val) / 1 % 1600 = T.val; omega
    | ⟨2, _⟩ => rfl
  have e1 : idx_main_v117 (idx_main_v118 (ix2 n T)) = ix3 n T (1 : Fin 2) := by
    funext a
    refine Fin.ext ?_
    match a with
    | ⟨0, _⟩ => show (n.val * 1600 + T.val) / 1600 = n.val; omega
    | ⟨1, _⟩ => show (n.val * 1600 + T.val) / 1 % 1600 = T.val; omega
    | ⟨2, _⟩ => rfl
  rw [val_main_v119_apply, val_main_v116_apply, val_main_v115_apply, e0, val_main_v118_apply, val_main_v117_apply, e1, hull_x, hull_y]
  rfl

/-- Generalised intersection over union at entry (n, T). -/
theorem giou_at (a1 : (⟨S16x1000x4, .f32⟩ : BufTy).Contents (Elt Ideal)) (a2 : (⟨S1600x4, .f32⟩ : BufTy).Contents (Elt Ideal)) (n : Fin 16000) (T : Fin 1600) :
    val_main_v122 (F := Ideal) a1 a2 (ix2 n T) = giou (fun k => val_main_v7 (F := Ideal) a1 (ix2 n k)) (fun k => a2 (ix2 T k)) := by
  rw [val_main_v122_apply, val_main_v98_apply, val_main_v121_apply, val_main_v120_apply, inter_at, union_at, hull_at]
  rfl

/-! ## The weighted sum at query row `qRow b q` and any target row whose label is a class -/

/-- The pairwise cost at query row `qRow b q` and target row `T` labelled with the class `kk`. -/
theorem pair_cost_at (a0 : (⟨S16x1000x80, .f32⟩ : BufTy).Contents (Elt Ideal)) (a1 : (⟨S16x1000x4, .f32⟩ : BufTy).Contents (Elt Ideal)) (a2 : (⟨S1600x4, .f32⟩ : BufTy).Contents (Elt Ideal))
    (a4 : (⟨S16x4, .f32⟩ : BufTy).Contents (Elt Ideal)) (a5 : (⟨S1600x4, .f32⟩ : BufTy).Contents (Elt Ideal)) (a6 : (⟨S1600, .i32⟩ : BufTy).Contents (Elt Ideal))
    (b : Fin 16) (q : Fin 1000) (T : Fin 1600) (kk : Fin 80) (hkk : (a6 (ix1 T)).toInt = (kk.val : ℤ)) :
    val_main_v166 (F := Ideal) a0 a1 a2 a4 a5 a6 (ix2 (qRow b q) T)
      = cost (a0 (ix3 b q kk)) (fun k => a1 (ix3 b q k)) (fun k => a2 (ix2 T k)) (fun k => a4 (ix2 b k))
          (fun k => a5 (ix2 T k)) := by
  rw [val_main_v166_apply, val_main_v163_apply, val_main_v160_apply, val_main_v159_apply, val_main_cst_14_apply,
    val_main_v162_apply, val_main_v161_apply, val_main_cst_15_apply, val_main_v165_apply, val_main_v164_apply, val_main_cst_16_apply,
    val_main_v123_apply, l1_at, giou_at, class_at a0 a6 b q T kk hkk]
  simp only [v7_at, v39_at]
  unfold cost
  rw [← neg_eq_w0_sub]
  rfl

/-! ## The index pairs read by the gather: row `b` holds the word of `b` twice -/

/-- The first start index of row `b`. -/
theorem pairs_col0 (b : Fin 16) : val_main_v181 (F := Ideal) (ix2 b (0 : Fin 2)) = BitVec.ofNat 32 b.val := by
  unfold val_main_v181
  rw [pair_col0, val_main_v179_apply, val_main_v173_apply, val_main_v170_apply, val_main_v172_apply, val_main_v167_apply,
    val_main_v169_apply, val_main_c_17_apply, val_main_v171_apply, val_main_c_18_apply]
  exact wrap_word b

/-- The second start index of row `b`. -/
theorem pairs_col1 (b : Fin 16) : val_main_v181 (F := Ideal) (ix2 b (1 : Fin 2)) = BitVec.ofNat 32 b.val := by
  unfold val_main_v181
  rw [pair_col1, val_main_v180_apply, val_main_v178_apply, val_main_v175_apply, val_main_v177_apply, val_main_v167_apply,
    val_main_v174_apply, val_main_c_19_apply, val_main_v176_apply, val_main_c_20_apply]
  exact wrap_word b

/-- Entry (b, q, b, t) of the pairwise array viewed as [16, 1000, 16, 100] is its entry at query row `qRow b q` and
    target row `tRow b t`. -/
theorem idx_v168_at (b : Fin 16) (q : Fin 1000) (t : Fin 100) : idx_main_v168 (ix4 b q b t) = ix2 (qRow b q) (tRow b t) := by
  have hb : b.val < 16 := b.isLt
  have hq : q.val < 1000 := q.isLt
  have ht : t.val < 100 := t.isLt
  funext a
  refine Fin.ext ?_
  match a with
  | ⟨0, _⟩ => show (((b.val * 1000 + q.val) * 16 + b.val) * 100 + t.val) / 1600 = b.val * 1000 + q.val; omega
  | ⟨1, _⟩ => show (((b.val * 1000 + q.val) * 16 + b.val) * 100 + t.val) % 1600 = b.val * 100 + t.val; omega

end RefCostRead

open RefCostRead

/-- Entry (b, q, t) of the first result, when target `t` of image `b` is labelled with the class `kk`. -/
theorem cost_at (a0 : (⟨S16x1000x80, .f32⟩ : BufTy).Contents (Elt Ideal)) (a1 : (⟨S16x1000x4, .f32⟩ : BufTy).Contents (Elt Ideal)) (a2 : (⟨S1600x4, .f32⟩ : BufTy).Contents (Elt Ideal))
    (a4 : (⟨S16x4, .f32⟩ : BufTy).Contents (Elt Ideal)) (a5 : (⟨S1600x4, .f32⟩ : BufTy).Contents (Elt Ideal)) (a6 : (⟨S1600, .i32⟩ : BufTy).Contents (Elt Ideal))
    (b : Fin 16) (q : Fin 1000) (t : Fin 100) (kk : Fin 80) (hkk : (a6 (ix1 (tRow b t))).toInt = (kk.val : ℤ)) :
    val_main_v182 (F := Ideal) a0 a1 a2 a4 a5 a6 (ix3 b q t)
      = cost (a0 (ix3 b q kk)) (fun k => a1 (ix3 b q k)) (fun k => a2 (ix2 (tRow b t) k)) (fun k => a4 (ix2 b k))
          (fun k => a5 (ix2 (tRow b t) k)) := by
  unfold val_main_v182
  rw [cgd_at _ _ b q t (pairs_col0 b) (pairs_col1 b), val_main_v168_apply, idx_v168_at]
  exact pair_cost_at a0 a1 a2 a4 a5 a6 b q (tRow b t) kk hkk

end Cert.ReferenceIdeal.Bridge

end
-- ==== Proof.RefIoa.lean ====
/-
  The reference's overlap result, entry by entry: of the overlaps of every query with every ignore box it keeps, for
  image `b`, its own queries against its own ignore boxes.
-/
import proofs.«406872_j85916525789875_2_alg».proof.Proof.Gen.ReferenceIdeal.Read
import proofs.«406872_j85916525789875_2_alg».proof.Proof.Spec
import proofs.«406872_j85916525789875_2_alg».proof.Proof.Algebra
import Idealize.ShloMosaic.Lib.ValueIdx
import Idealize.ShloMosaic.Lib.ValueLayout
import Idealize.ShloMosaic.Lib.Pipeline.Value

noncomputable section

namespace Cert.ReferenceIdeal.Bridge

open Idealize.ShloMosaic Idealize.ShloMosaic.ValueIdx Cert.ReferenceIdeal Cert.ReferenceIdeal.Read Cert.Matching

namespace RefIoaRead

/-! ## The gather that keeps, of a [16, 1000, 16, n] array, the entries whose first and third coordinates agree -/

section Gather
variable {α : Type}

/-- The dimension numbers: the first and third operand axes collapsed and start-indexed, the second and fourth kept whole as
    the result's offset axes 1 and 2, the index vector along axis 1 of the [16, 2] start indices. -/
abbrev pairDims (n : Nat) (wf : GatherDims.WF ⟨4, ![16, 1000, 16, n]⟩ ⟨2, ![16, 2]⟩ ⟨3, ![16, 1000, n]⟩ [1, 2] [0, 2] [] [0, 2] [] 1 ![1, 1000, 1, n]) :
    GatherDims ⟨4, ![16, 1000, 16, n]⟩ ⟨2, ![16, 2]⟩ ⟨3, ![16, 1000, n]⟩ where
  offsetDims := [1, 2]
  collapsedSliceDims := [0, 2]
  operandBatchingDims := []
  startIndicesBatchingDims := []
  startIndexMap := [0, 2]
  indexVectorDim := 1
  sliceSizes := ![1, 1000, 1, n]
  wf := wf

/-- A word that holds a number below 16, read signed and clamped into 0..15, is that number. -/
theorem clamp_word (b : Fin 16) : min (BitVec.ofNat 32 b.val).toInt.toNat (16 - 1) = b.val := by
  revert b; decide

/-- The wrap of a negative index (add the extent when below zero) leaves a word that holds a number below 16 as it is. -/
theorem wrap_word (b : Fin 16) :
    Scalar.select (IntOp.cmpi .slt (BitVec.ofNat 32 b.val) 0#32) (IntOp.addi (BitVec.ofNat 32 b.val) 16#32)
      (BitVec.ofNat 32 b.val) = BitVec.ofNat 32 b.val := by
  revert b; decide

/-- Which operand axes the start-index map and the collapsed axes [0, 2] hold. -/
theorem mem0 : (0 : Fin 4) ∈ ([0, 2] : List (Fin 4)) := by decide
theorem mem2 : (2 : Fin 4) ∈ ([0, 2] : List (Fin 4)) := by decide
theorem nmem1 : (1 : Fin 4) ∉ ([0, 2] : List (Fin 4)) := by decide
theorem nmem3 : (3 : Fin 4) ∉ ([0, 2] : List (Fin 4)) := by decide

variable (n : Nat) (wf : GatherDims.WF ⟨4, ![16, 1000, 16, n]⟩ ⟨2, ![16, 2]⟩ ⟨3, ![16, 1000, n]⟩ [1, 2] [0, 2] [] [0, 2] [] 1 ![1, 1000, 1, n])
  (idx : IVec ⟨2, ![16, 2]⟩ 32) (b : Fin 16) (q : Fin 1000) (j : Fin n)

/-- Operand axis 0 (collapsed, start-indexed by the pair's first word): the clamped word. -/
theorem pair_axis0 (h0 : idx (ix2 b (0 : Fin 2)) = BitVec.ofNat 32 b.val) :
    ((pairDims n wf).operandIdx (ix3 b q j) idx (0 : Fin 4)).val = b.val := by
  show (pairDims n wf).start (ix3 b q j) idx 0 + (pairDims n wf).batchCoord (ix3 b q j) 0 + (pairDims n wf).offCoord (ix3 b q j) 0 = b.val
  rw [GatherDims.batchCoord_eq_zero _ _ _ List.not_mem_nil,
    GatherDims.offCoord_eq_zero _ _ _ (fun h => ((GatherDims.mem_sKept _ _).mp h).1 mem0)]
  simp only [Nat.add_zero]
  unfold GatherDims.start
  rw [dif_pos (show (0 : Fin 4) ∈ (pairDims n wf).startIndexMap from mem0)]
  have hsi : (pairDims n wf).siIdx (ix3 b q j) ⟨List.idxOf (0 : Fin 4) (pairDims n wf).startIndexMap,
      List.idxOf_lt_length_iff.2 mem0⟩ = ix2 b (0 : Fin 2) := by
    funext c; refine Fin.ext ?_
    match c with
    | ⟨0, _⟩ => rfl
    | ⟨1, _⟩ => rfl
  rw [hsi, h0]
  exact clamp_word b

/-- Operand axis 2 (collapsed, start-indexed by the pair's second word): the clamped word. -/
theorem pair_axis2 (h1 : idx (ix2 b (1 : Fin 2)) = BitVec.ofNat 32 b.val) :
    ((pairDims n wf).operandIdx (ix3 b q j) idx (2 : Fin 4)).val = b.val := by
  show (pairDims n wf).start (ix3 b q j) idx 2 + (pairDims n wf).batchCoord (ix3 b q j) 2 + (pairDims n wf).offCoord (ix3 b q j) 2 = b.val
  rw [GatherDims.batchCoord_eq_zero _ _ _ List.not_mem_nil,
    GatherDims.offCoord_eq_zero _ _ _ (fun h => ((GatherDims.mem_sKept _ _).mp h).1 mem2)]
  simp only [Nat.add_zero]
  unfold GatherDims.start
  rw [dif_pos (show (2 : Fin 4) ∈ (pairDims n wf).startIndexMap from mem2)]
  have hsi : (pairDims n wf).siIdx (ix3 b q j) ⟨List.idxOf (2 : Fin 4) (pairDims n wf).startIndexMap,
      List.idxOf_lt_length_iff.2 mem2⟩ = ix2 b (1 : Fin 2) := by
    funext c; refine Fin.ext ?_
    match c with
    | ⟨0, _⟩ => rfl
    | ⟨1, _⟩ => rfl
  rw [hsi, h1]
  exact clamp_word b

/-- Operand axis 1 (kept whole): the result's coordinate on offset axis 1. -/
theorem pair_axis1 : ((pairDims n wf).operandIdx (ix3 b q j) idx (1 : Fin 4)).val = q.val := by
  show (pairDims n wf).start (ix3 b q j) idx 1 + (pairDims n wf).batchCoord (ix3 b q j) 1 + (pairDims n wf).offCoord (ix3 b q j) 1 = q.val
  have hs : (pairDims n wf).start (ix3 b q j) idx 1 = 0 := by
    unfold GatherDims.start; exact dif_neg nmem1
  have ho : (pairDims n wf).offCoord (ix3 b q j) 1 = q.val := by
    unfold GatherDims.offCoord
    rw [dif_pos ((GatherDims.mem_sKept (pairDims n wf) 1).mpr ⟨nmem1, List.not_mem_nil⟩)]; rfl
  rw [GatherDims.batchCoord_eq_zero _ _ _ List.not_mem_nil, hs, ho, Nat.add_zero, Nat.zero_add]

/-- Operand axis 3 (kept whole): the result's coordinate on offset axis 2. -/
theorem pair_axis3 : ((pairDims n wf).operandIdx (ix3 b q j) idx (3 : Fin 4)).val = j.val := by
  show (pairDims n wf).start (ix3 b q j) idx 3 + (pairDims n wf).batchCoord (ix3 b q j) 3 + (pairDims n wf).offCoord (ix3 b q j) 3 = j.val
  have hs : (pairDims n wf).start (ix3 b q j) idx 3 = 0 := by
    unfold GatherDims.start; exact dif_neg nmem3
  have ho : (pairDims n wf).offCoord (ix3 b q j) 3 = j.val := by
    unfold GatherDims.offCoord
    rw [dif_pos ((GatherDims.mem_sKept (pairDims n wf) 3).mpr ⟨nmem3, List.not_mem_nil⟩)]; rfl
  rw [GatherDims.batchCoord_eq_zero _ _ _ List.not_mem_nil, hs, ho, Nat.add_zero, Nat.zero_add]

/-- THE GATHER READ AT (b, q, j): when row `b` of the start indices holds the pair (b, b), the operand at (b, q, b, j). -/
theorem gather_pair_apply (x : (⟨4, ![16, 1000, 16, n]⟩ : Shape).Idx → α)
    (h0 : idx (ix2 b (0 : Fin 2)) = BitVec.ofNat 32 b.val) (h1 : idx (ix2 b (1 : Fin 2)) = BitVec.ofNat 32 b.val) :
    Host.gather (pairDims n wf) x idx (ix3 b q j) = x (ix4 b q b j) := by
  unfold Host.gather
  congr 1
  funext a
  refine Fin.ext ?_
  match a with
  | ⟨0, _⟩ => exact pair_axis0 n wf idx b q j h0
  | ⟨1, _⟩ => exact pair_axis1 n wf idx b q j
  | ⟨2, _⟩ => exact pair_axis2 n wf idx b q j h1
  | ⟨3, _⟩ => exact pair_axis3 n wf idx b q j

end Gather

/-! ## Two [16, 1] columns laid side by side -/

section Columns
variable {α : Type}

/-- Column 0 of the pair reads the first piece. -/
theorem columns_left (h : Shape.Concatenates [(⟨2, ![16, 1]⟩ : Shape), ⟨2, ![16, 1]⟩] ⟨2, ![16, 2]⟩ 1)
    (x₁ x₂ : (⟨2, ![16, 1]⟩ : Shape).Idx → α) (b : Fin 16) :
    concatenate ⟨2, ![16, 2]⟩ 1 [⟨⟨2, ![16, 1]⟩, x₁⟩, ⟨⟨2, ![16, 1]⟩, x₂⟩] h (ix2 b (0 : Fin 2)) = x₁ (ix2 b (0 : Fin 1)) :=
  concatenate_pair_apply_left 1 x₁ x₂ h (ix2 b (0 : Fin 2)) rfl (ix2 b (0 : Fin 1))
    (fun c => match c with | ⟨0, _⟩ => rfl | ⟨1, _⟩ => rfl)

/-- Column 1 of the pair reads the second piece, at its only column. -/
theorem columns_right (h : Shape.Concatenates [(⟨2, ![16, 1]⟩ : Shape), ⟨2, ![16, 1]⟩] ⟨2, ![16, 2]⟩ 1)
    (x₁ x₂ : (⟨2, ![16, 1]⟩ : Shape).Idx → α) (b : Fin 16) :
    concatenate ⟨2, ![16, 2]⟩ 1 [⟨⟨2, ![16, 1]⟩, x₁⟩, ⟨⟨2, ![16, 1]⟩, x₂⟩] h (ix2 b (1 : Fin 2)) = x₂ (ix2 b (0 : Fin 1)) :=
  concatenate_pair_apply_right 1 x₁ x₂ h (ix2 b (1 : Fin 2)) rfl rfl (ix2 b (0 : Fin 1))
    (fun c hc => match c, hc with | ⟨0, _⟩, _ => rfl | ⟨1, _⟩, hc => absurd rfl hc) rfl

end Columns

/-! ## The reference's arrays at an entry -/

section Overlap
variable (a1 : (⟨S16x1000x4, .f32⟩ : BufTy).Contents (Elt Ideal)) (a3 : (⟨S128x4, .f32⟩ : BufTy).Contents (Elt Ideal))

/-- The position (r, g) of the [16000, 128] arrays, seen from the [16000, 128, 1] slices of the clipped extents. -/
theorem cell_x (r : Fin 16000) (g : Fin 128) :
    idx_main_v140 (idx_main_v141 (ix2 r g)) = ix3 r g (0 : Fin 2) := by
  funext a; refine Fin.ext ?_
  have hr := r.isLt; have hg := g.isLt
  match a with
  | ⟨0, _⟩ => show (r.val * 128 + g.val) / 128 = r.val; omega
  | ⟨1, _⟩ => show (r.val * 128 + g.val) / 1 % 128 = g.val; omega
  | ⟨2, _⟩ => rfl

/-- The same position seen from the slices of the second clipped extent. -/
theorem cell_y (r : Fin 16000) (g : Fin 128) :
    idx_main_v142 (idx_main_v143 (ix2 r g)) = ix3 r g (1 : Fin 2) := by
  funext a; refine Fin.ext ?_
  have hr := r.isLt; have hg := g.isLt
  match a with
  | ⟨0, _⟩ => show (r.val * 128 + g.val) / 128 = r.val; omega
  | ⟨1, _⟩ => show (r.val * 128 + g.val) / 1 % 128 = g.val; omega
  | ⟨2, _⟩ => rfl

/-- The clipped extent of the range that query row `r` and ignore box `g` share along the axis whose low corner is
    coordinate `lo` and high corner coordinate `hi` (x: 0 and 2, y: 1 and 3). -/
theorem extent (r : Fin 16000) (g : Fin 128) (c : Fin 2) (lo hi : Fin 4) (hlo : lo.val = c.val) (hhi : hi.val = 2 + c.val) :
    val_main_v139 (F := Ideal) a1 a3 (ix3 r g c)
      = max w0 (min (val_main_v7 (F := Ideal) a1 (ix2 r hi)) (a3 (ix2 g hi))
          - max (val_main_v7 (F := Ideal) a1 (ix2 r lo)) (a3 (ix2 g lo))) := by
  have eqhi : idx_main_v131 (idx_main_v132 (idx_main_v135 (ix3 r g c))) = ix2 r hi := by
    funext a; refine Fin.ext ?_
    match a with
    | ⟨0, _⟩ => rfl
    | ⟨1, _⟩ => exact hhi.symm
  have eghi : idx_main_v133 (idx_main_v134 (idx_main_v136 (ix3 r g c))) = ix2 g hi := by
    funext a; refine Fin.ext ?_
    match a with
    | ⟨0, _⟩ => rfl
    | ⟨1, _⟩ => exact hhi.symm
  have eqlo : idx_main_v124 (idx_main_v125 (idx_main_v128 (ix3 r g c))) = ix2 r lo := by
    funext a; refine Fin.ext ?_
    match a with
    | ⟨0, _⟩ => rfl
    | ⟨1, _⟩ => exact hlo.symm
  have eglo : idx_main_v126 (idx_main_v127 (idx_main_v129 (ix3 r g c))) = ix2 g lo := by
    funext a; refine Fin.ext ?_
    match a with
    | ⟨0, _⟩ => rfl
    | ⟨1, _⟩ => exact hlo.symm
  rw [val_main_v139_apply, val_main_v138_apply, val_main_v137_apply, val_main_v130_apply, val_main_v135_apply,
    val_main_v132_apply, val_main_v131_apply, val_main_v136_apply, val_main_v134_apply, val_main_v133_apply,
    val_main_v128_apply, val_main_v125_apply, val_main_v124_apply, val_main_v129_apply, val_main_v127_apply,
    val_main_v126_apply, val_main_call2_v1_apply, val_main_call2_v0_apply, val_main_cst_13_apply,
    eqhi, eghi, eqlo, eglo]
  rfl

/-- The area of query row `r`, as the divisor array holds it in every column. -/
theorem divisor (r : Fin 16000) (g : Fin 128) :
    val_main_v157 (F := Ideal) a1 (ix2 r g) = area (fun k => val_main_v7 (F := Ideal) a1 (ix2 r k)) := by
  have e2 : idx_main_v145 (idx_main_v146 (idx_main_v156 (idx_main_v157 (ix2 r g)))) = ix2 r (2 : Fin 4) := by
    funext a; refine Fin.ext ?_
    match a with
    | ⟨0, _⟩ => show r.val / 1 = r.val; omega
    | ⟨1, _⟩ => rfl
  have e0 : idx_main_v147 (idx_main_v148 (idx_main_v156 (idx_main_v157 (ix2 r g)))) = ix2 r (0 : Fin 4) := by
    funext a; refine Fin.ext ?_
    match a with
    | ⟨0, _⟩ => show r.val / 1 = r.val; omega
    | ⟨1, _⟩ => rfl
  have e3 : idx_main_v150 (idx_main_v151 (idx_main_v156 (idx_main_v157 (ix2 r g)))) = ix2 r (3 : Fin 4) := by
    funext a; refine Fin.ext ?_
    match a with
    | ⟨0, _⟩ => show r.val / 1 = r.val; omega
    | ⟨1, _⟩ => rfl
  have e1 : idx_main_v152 (idx_main_v153 (idx_main_v156 (idx_main_v157 (ix2 r g)))) = ix2 r (1 : Fin 4) := by
    funext a; refine Fin.ext ?_
    match a with
    | ⟨0, _⟩ => show r.val / 1 = r.val; omega
    | ⟨1, _⟩ => rfl
  rw [val_main_v157_apply, val_main_v156_apply, val_main_v155_apply, val_main_v149_apply, val_main_v154_apply,
    val_main_v146_apply, val_main_v145_apply, val_main_v148_apply, val_main_v147_apply, val_main_v151_apply,
    val_main_v150_apply, val_main_v153_apply, val_main_v152_apply, e2, e0, e3, e1]
  rfl

/-- The quotient array at row `r`, column `g`: the part of query row `r` that ignore box `g` covers. -/
theorem quotient (r : Fin 16000) (g : Fin 128) :
    val_main_v158 (F := Ideal) a1 a3 (ix2 r g)
      = ioa (fun k => val_main_v7 (F := Ideal) a1 (ix2 r k)) (fun k => a3 (ix2 g k)) := by
  rw [val_main_v158_apply, val_main_v144_apply, val_main_v141_apply, val_main_v140_apply, cell_x,
    val_main_v143_apply, val_main_v142_apply, cell_y,
    extent a1 a3 r g 0 0 2 rfl rfl, extent a1 a3 r g 1 1 3 rfl rfl, divisor]
  rfl

/-- Row `qRow b q` of the flattened query boxes is query `q` of image `b`. -/
theorem query_row (b : Fin 16) (q : Fin 1000) (k : Fin 4) :
    val_main_v7 (F := Ideal) a1 (ix2 (qRow b q) k) = a1 (ix3 b q k) := by
  rw [val_main_v7_apply]
  congr 1
  funext a; refine Fin.ext ?_
  have hb := b.isLt; have hq := q.isLt; have hk := k.isLt
  match a with
  | ⟨0, _⟩ => show ((b.val * 1000 + q.val) * 4 + k.val) / 4000 = b.val; omega
  | ⟨1, _⟩ => show ((b.val * 1000 + q.val) * 4 + k.val) / 4 % 1000 = q.val; omega
  | ⟨2, _⟩ => show ((b.val * 1000 + q.val) * 4 + k.val) % 4 = k.val; omega

/-- Entry (b, q, b, j) of the quotients regrouped by image is row `qRow b q`, column `gRow b j` of the quotient array. -/
theorem regrouped (b : Fin 16) (q : Fin 1000) (j : Fin 8) :
    val_main_v183 (F := Ideal) a1 a3 (ix4 b q b j) = val_main_v158 (F := Ideal) a1 a3 (ix2 (qRow b q) (gRow b j)) := by
  rw [val_main_v183_apply]
  congr 1
  funext a; refine Fin.ext ?_
  have hb := b.isLt; have hq := q.isLt; have hj := j.isLt
  match a with
  | ⟨0, _⟩ => show (((b.val * 1000 + q.val) * 16 + b.val) * 8 + j.val) / 128 = b.val * 1000 + q.val; omega
  | ⟨1, _⟩ => show (((b.val * 1000 + q.val) * 16 + b.val) * 8 + j.val) % 128 = b.val * 8 + j.val; omega

end Overlap

/-! ## The index pairs -/

/-- Row `b` of the index pairs holds the word of `b` in its first place … -/
theorem pairs_fst (b : Fin 16) : val_main_v196 (F := Ideal) (ix2 b (0 : Fin 2)) = BitVec.ofNat 32 b.val := by
  unfold val_main_v196
  rw [columns_left, val_main_v194_apply, val_main_v188_apply, val_main_v185_apply, val_main_v187_apply,
    val_main_v167_apply, val_main_v184_apply, val_main_v186_apply, val_main_c_21_apply, val_main_c_22_apply]
  exact wrap_word b

/-- … and in its second. -/
theorem pairs_snd (b : Fin 16) : val_main_v196 (F := Ideal) (ix2 b (1 : Fin 2)) = BitVec.ofNat 32 b.val := by
  unfold val_main_v196
  rw [columns_right, val_main_v195_apply, val_main_v193_apply, val_main_v190_apply, val_main_v192_apply,
    val_main_v167_apply, val_main_v189_apply, val_main_v191_apply, val_main_c_23_apply, val_main_c_24_apply]
  exact wrap_word b

end RefIoaRead

open RefIoaRead

/-- Entry (b, q, j) of the second result. -/
theorem ioa_at (a1 : (⟨S16x1000x4, .f32⟩ : BufTy).Contents (Elt Ideal)) (a3 : (⟨S128x4, .f32⟩ : BufTy).Contents (Elt Ideal)) (b : Fin 16) (q : Fin 1000) (j : Fin 8) :
    val_main_v197 (F := Ideal) a1 a3 (ix3 b q j) = ioa (fun k => a1 (ix3 b q k)) (fun k => a3 (ix2 (gRow b j) k)) := by
  have hg : val_main_v197 (F := Ideal) a1 a3 (ix3 b q j) = val_main_v183 (F := Ideal) a1 a3 (ix4 b q b j) :=
    gather_pair_apply 8 _ (val_main_v196 (F := Ideal)) b q j (val_main_v183 (F := Ideal) a1 a3) (pairs_fst b) (pairs_snd b)
  rw [hg, regrouped, quotient, funext (query_row a1 b q)]

end Cert.ReferenceIdeal.Bridge

end
-- ==== Proof.lean ====
/-
  A matching-cost kernel against its reference, over the extended reals.

  For each of 16 images the kernel computes, for its 1000 queries and 100 targets, the cost
    5 · L1(normalised boxes) + 2 · focal(σ(logit at the target's label)) + 2 · (−GIoU),
  and for its 8 ignore boxes the share of each query box they cover. The reference computes the same two quantities
  for every query of every image against every target, and every ignore box, of every image, and keeps each image's
  own pairs.

  The two agree entry by entry on inputs whose float entries are finite, whose labels are class indices (0 ≤ label <
  80) and whose query boxes have nonzero area. Where the spellings differ: the kernel takes the focal cost of all 80
  classes on a probability clipped to [0, 1] and picks the label's entry by two matrix products with an indicator
  row, one of the cost and one of its residual after a narrowing; at real logits the clip and the residual vanish
  and the products select (finite logits; labels in range). The reference's power 2 is the square. The kernel
  multiplies the shared area by the reciprocal of the query box's area where the reference divides (nonzero area).
  The L1 terms are added in another order, and a negation is a difference from zero. The frames are the generated
  ones; the one rewrite of the idealization is a narrowing and widening that is the identity on extended reals.
-/
import proofs.«406872_j85916525789875_2_alg».proof.Defs
import proofs.«406872_j85916525789875_2_alg».proof.Proof.Gen.Kernel
import proofs.«406872_j85916525789875_2_alg».proof.Proof.Gen.Kernel.Skeleton
import proofs.«406872_j85916525789875_2_alg».proof.Proof.Gen.Kernel.Launch
import proofs.«406872_j85916525789875_2_alg».proof.Proof.Gen.Kernel.Points
import proofs.«406872_j85916525789875_2_alg».proof.Proof.Gen.Kernel.Frame
import proofs.«406872_j85916525789875_2_alg».proof.Proof.Gen.KernelIdeal
import proofs.«406872_j85916525789875_2_alg».proof.Proof.Gen.KernelIdeal.Skeleton
import proofs.«406872_j85916525789875_2_alg».proof.Proof.Gen.KernelIdeal.Launch
import proofs.«406872_j85916525789875_2_alg».proof.Proof.Gen.KernelIdeal.Points
import proofs.«406872_j85916525789875_2_alg».proof.Proof.Gen.KernelIdeal.Frame
import proofs.«406872_j85916525789875_2_alg».proof.Proof.Gen.ReferenceIdeal
import proofs.«406872_j85916525789875_2_alg».proof.Proof.Gen.Pre_finite_inputs
import proofs.«406872_j85916525789875_2_alg».proof.Proof.Gen.ReferenceIdeal.Run
import proofs.«406872_j85916525789875_2_alg».proof.Proof.Gen.ReferenceIdeal.Read
import proofs.«406872_j85916525789875_2_alg».proof.Proof.Results
import proofs.«406872_j85916525789875_2_alg».proof.Proof.PreFacts
import proofs.«406872_j85916525789875_2_alg».proof.Proof.KernelArrays
import proofs.«406872_j85916525789875_2_alg».proof.Proof.RefCost
import proofs.«406872_j85916525789875_2_alg».proof.Proof.RefIoa
import Idealize.ShloMosaic.Adequacy
import Idealize.ShloMosaic.Init

noncomputable section

namespace Cert.Proof

open Idealize.ShloMosaic Idealize.ShloMosaic.TcCoe Idealize.SL.Sem Idealize.ShloMosaic.ValueIdx Cert.Matching

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- The idealization's one rewrite: a narrowing to bf16 widened back, the identity on extended reals. -/
theorem preserves : Cert.preserves_Kernel_KernelIdeal := IdealRules.truncf_extf.statement _ .f32 .bf16

/-- What the precondition gives the kernel's arrays. -/
theorem admits (m : (ℓ : Loc Cert.KernelIdeal.nD Cert.KernelIdeal.τ Cert.KernelIdeal.sig) → Buf (Elt Ideal) ℓ)
    (h : Cert.Pre_KernelIdeal m) : Cert.KernelIdeal.Bridge.Admits m :=
  ⟨fun c i => Cert.Matching.Pre.logit_real _ _ _ _ _ _ _ (h c) i,
    fun c T => Cert.Matching.Pre.label_range _ _ _ _ _ _ _ (h c) T,
    fun c b q => Cert.Matching.Pre.area_ne_zero _ _ _ _ _ _ _ (h c) b q⟩

/-- Both programs end with the cost array and the overlap array of the arguments. -/
theorem algebraic : Cert.algebraic_KernelIdeal_ReferenceIdeal := by
  intro m ρ m' ρ' hpre hagree
  have hA := admits m hpre
  refine ⟨fun c => costArr (Cert.KernelIdeal.Bridge.A0 m c) (Cert.KernelIdeal.Bridge.A1 m c) (Cert.KernelIdeal.Bridge.A2 m c)
      (Cert.KernelIdeal.Bridge.A4 m c) (Cert.KernelIdeal.Bridge.A5 m c) (Cert.KernelIdeal.Bridge.A6 m c),
    fun c => ioaArr (Cert.KernelIdeal.Bridge.A1 m c) (Cert.KernelIdeal.Bridge.A3 m c),
    Cert.KernelIdeal.Bridge.run m ρ hA, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6⟩ := hagree c
    rw [Cert.ReferenceIdeal.Read.val_main_v182_eq, e0, e1, e2, e4, e5, e6]
    funext i
    obtain ⟨b, q, t, rfl⟩ : ∃ (b : Fin 16) (q : Fin 1000) (t : Fin 100), i = ix3 b q t := ⟨i 0, i 1, i 2, eq_ix3 i⟩
    exact Cert.ReferenceIdeal.Bridge.cost_at _ _ _ _ _ _ b q t _
      (labelOf_val (Cert.KernelIdeal.Bridge.A6 m c) b t (hA.label c (tRow b t)))
  · obtain ⟨e0, e1, e2, e3, e4, e5, e6⟩ := hagree c
    rw [Cert.ReferenceIdeal.Read.val_main_v197_eq, e1, e3]
    funext i
    obtain ⟨b, q, j, rfl⟩ : ∃ (b : Fin 16) (q : Fin 1000) (j : Fin 8), i = ix3 b q j := ⟨i 0, i 1, i 2, eq_ix3 i⟩
    exact Cert.ReferenceIdeal.Bridge.ioa_at _ _ b q j

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
